-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7_1)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_1) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S2x512 : Shape := ⟨2, ![2, 512]⟩
abbrev S512x1536 : Shape := ⟨2, ![512, 1536]⟩
abbrev S512 : Shape := ⟨1, ![512]⟩
abbrev S2x1024x512 : Shape := ⟨3, ![2, 1024, 512]⟩
abbrev S2x1024 : Shape := ⟨2, ![2, 1024]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_
  bcast_S_S512x1536 : S_.BroadcastsInDim S512x1536 (![] : Fin 0 → Fin S512x1536.rank)
  reducesTo_S512x1536_S_d0_1 : S512x1536.ReducesTo [0, 1] S_
  bcast_S_S512 : S_.BroadcastsInDim S512 (![] : Fin 0 → Fin S512.rank)
  reducesTo_S512_S_d0 : S512.ReducesTo [0] S_
  bcast_S_S2x1024x512 : S_.BroadcastsInDim S2x1024x512 (![] : Fin 0 → Fin S2x1024x512.rank)
  reducesTo_S2x1024x512_S_d0_1_2 : S2x1024x512.ReducesTo [0, 1, 2] S_
  bcast_S_S2x1024 : S_.BroadcastsInDim S2x1024 (![] : Fin 0 → Fin S2x1024.rank)
  reducesTo_S2x1024_S_d0_1 : S2x1024.ReducesTo [0, 1] S_

variable [Facts]

def fn_part3 {F : FTy → Type} [FloatOps F] (main_v48 : IVec S_ 1) (main_v49 : FVec F S2x1024 .f32) (main_v50 : FVec F S2x1024 .f32) : IVec S_ 1 :=
  let main_v51 : IVec S2x1024 1 := cmpf .olt main_v49 main_v50
  let main_c_19 : IVec S_ 1 := constantI S_ 1 1#1
  let main_v52 : IVec S_ 1 := (fun x v => Host.reduce IntOp.andi x v reducesTo_S2x1024_S_d0_1 h_S_) main_v51 main_c_19
  let main_v53 : IVec S_ 1 := andi main_v48 main_v52
  main_v53

def fn_part2 {F : FTy → Type} [FloatOps F] (main_arg7 : FVec F S2x1024x512 .f32) (main_arg8 : FVec F S2x1024 .f32) (main_arg9 : FVec F S2x1024x512 .f32) (main_arg10 : FVec F S2x1024 .f32) (main_v33 : IVec S_ 1) : IVec S_ 1 :=
  let main_v34 : FVec F S2x1024x512 .f32 := Host.absf main_arg7
  let main_cst_12 : FVec F S_ .f32 := constant S_ .f32 0x7F800000#32
  let main_v35 : FVec F S2x1024x512 .f32 := broadcastInDim S2x1024x512 ![] bcast_S_S2x1024x512 main_cst_12
  let main_v36 : IVec S2x1024x512 1 := cmpf .olt main_v34 main_v35
  let main_c_13 : IVec S_ 1 := constantI S_ 1 1#1
  let main_v37 : IVec S_ 1 := (fun x v => Host.reduce IntOp.andi x v reducesTo_S2x1024x512_S_d0_1_2 h_S_) main_v36 main_c_13
  let main_v38 : IVec S_ 1 := andi main_v33 main_v37
  let main_v39 : FVec F S2x1024 .f32 := Host.absf main_arg8
  let main_cst_14 : FVec F S_ .f32 := constant S_ .f32 0x7F800000#32
  let main_v40 : FVec F S2x1024 .f32 := broadcastInDim S2x1024 ![] bcast_S_S2x1024 main_cst_14
  let main_v41 : IVec S2x1024 1 := cmpf .olt main_v39 main_v40
  let main_c_15 : IVec S_ 1 := constantI S_ 1 1#1
  let main_v42 : IVec S_ 1 := (fun x v => Host.reduce IntOp.andi x v reducesTo_S2x1024_S_d0_1 h_S_) main_v41 main_c_15
  let main_v43 : IVec S_ 1 := andi main_v38 main_v42
  let main_v44 : FVec F S2x1024x512 .f32 := Host.absf main_arg9
  let main_cst_16 : FVec F S_ .f32 := constant S_ .f32 0x7F800000#32
  let main_v45 : FVec F S2x1024x512 .f32 := broadcastInDim S2x1024x512 ![] bcast_S_S2x1024x512 main_cst_16
  let main_v46 : IVec S2x1024x512 1 := cmpf .olt main_v44 main_v45
  let main_c_17 : IVec S_ 1 := constantI S_ 1 1#1
  let main_v47 : IVec S_ 1 := (fun x v => Host.reduce IntOp.andi x v reducesTo_S2x1024x512_S_d0_1_2 h_S_) main_v46 main_c_17
  let main_v48 : IVec S_ 1 := andi main_v43 main_v47
  let main_v49 : FVec F S2x1024 .f32 := Host.absf main_arg10
  let main_cst_18 : FVec F S_ .f32 := constant S_ .f32 0x7F800000#32
  let main_v50 : FVec F S2x1024 .f32 := broadcastInDim S2x1024 ![] bcast_S_S2x1024 main_cst_18
  fn_part3 (F := F) main_v48 main_v49 main_v50

def fn_part1 {F : FTy → Type} [FloatOps F] (main_arg4 : FVec F S512 .f32) (main_arg5 : FVec F S512x1536 .f32) (main_arg6 : FVec F S512 .f32) (main_arg7 : FVec F S2x1024x512 .f32) (main_arg8 : FVec F S2x1024 .f32) (main_arg9 : FVec F S2x1024x512 .f32) (main_arg10 : FVec F S2x1024 .f32) (main_v13 : IVec S_ 1) (main_v16 : IVec S512x1536 1) : IVec S_ 1 :=
  let main_c_5 : IVec S_ 1 := constantI S_ 1 1#1
  let main_v17 : IVec S_ 1 := (fun x v => Host.reduce IntOp.andi x v reducesTo_S512x1536_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1536 .f32 := Host.absf main_arg5
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x512x512 .f32) (main_arg1 : FVec F S2x512 .f32) (main_arg2 : FVec F S2x512 .f32) (main_arg3 : FVec F S512x1536 .f32) (main_arg4 : FVec F S512 .f32) (main_arg5 : FVec F S512x1536 .f32) (main_arg6 : FVec F S512 .f32) (main_arg7 : FVec F S2x1024x512 .f32) (main_arg8 : FVec F S2x1024 .f32) (main_arg9 : FVec F S2x1024x512 .f32) (main_arg10 : FVec F S2x1024 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S2x512 .f32 := Host.absf main_arg2
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_c_3 : IVec S_ 1 := constantI S_ 1 1#1
  let main_v12 : IVec S_ 1 := (fun x v => Host.reduce IntOp.andi x v reducesTo_S2x512_S_d0_1 h_S_) main_v11 main_c_3
  let main_v13 : IVec S_ 1 := andi main_v8 main_v12
  let main_v14 : FVec F S512x1536 .f32 := Host.absf main_arg3
  let main_cst_4 : FVec F S_ .f32 := constant S_ .f32 0x7F800000#32
  let main_v15 : FVec F S512x1536 .f32 := broadcastInDim S512x1536 ![] bcast_S_S512x1536 main_cst_4
  let main_v16 : IVec S512x1536 1 := cmpf .olt main_v14 main_v15
  fn_part1 (F := F) main_arg4 main_arg5 main_arg6 main_arg7 main_arg8 main_arg9 main_arg10 main_v13 main_v16
-- ==== Kernel.lean ====
abbrev S32x512x512 : Shape := ⟨3, ![32, 512, 512]⟩
abbrev S2x512 : Shape := ⟨2, ![2, 512]⟩
abbrev S512x1536 : Shape := ⟨2, ![512, 1536]⟩
abbrev S512 : Shape := ⟨1, ![512]⟩
abbrev S2x1024x512 : Shape := ⟨3, ![2, 1024, 512]⟩
abbrev S2x1024 : Shape := ⟨2, ![2, 1024]⟩
abbrev S32x2x512 : Shape := ⟨3, ![32, 2, 512]⟩
abbrev S32x516x512 : Shape := ⟨3, ![32, 516, 512]⟩
abbrev S1536x512 : Shape := ⟨2, ![1536, 512]⟩
abbrev S2x512x1024 : Shape := ⟨3, ![2, 512, 1024]⟩
abbrev S32x512x1024 : Shape := ⟨3, ![32, 512, 1024]⟩
abbrev S1x32x512x1024 : Shape := ⟨4, ![1, 32, 512, 1024]⟩
abbrev S1x516x512 : Shape := ⟨3, ![1, 516, 512]⟩
abbrev S1x512x1024 : Shape := ⟨3, ![1, 512, 1024]⟩
abbrev S1x1x512x1024 : Shape := ⟨4, ![1, 1, 512, 1024]⟩
abbrev S516x512 : Shape := ⟨2, ![516, 512]⟩
abbrev S512x512 : Shape := ⟨2, ![512, 512]⟩
abbrev S1x512 : Shape := ⟨2, ![1, 512]⟩
abbrev S512x1024 : Shape := ⟨2, ![512, 1024]⟩
abbrev S1x1024 : Shape := ⟨2, ![1, 1024]⟩
abbrev S1024 : Shape := ⟨1, ![1024]⟩

abbrev nBuf : Space → Nat
  | .hbm => 20
  | .vmem => 14
  | .smem => 0
  | _ => 0

abbrev bufTy : (tb : Table) → Fin (tcTables nBuf tb) → BufTy
  | .hbm, ⟨0, _⟩ => ⟨S32x512x512, .f32⟩
  | .hbm, ⟨1, _⟩ => ⟨S2x512, .f32⟩
  | .hbm, ⟨2, _⟩ => ⟨S2x512, .f32⟩
  | .hbm, ⟨3, _⟩ => ⟨S512x1536, .f32⟩
  | .hbm, ⟨4, _⟩ => ⟨S512, .f32⟩
  | .hbm, ⟨5, _⟩ => ⟨S512x1536, .f32⟩
  | .hbm, ⟨6, _⟩ => ⟨S512, .f32⟩
  | .hbm, ⟨7, _⟩ => ⟨S2x1024x512, .f32⟩
  | .hbm, ⟨8, _⟩ => ⟨S2x1024, .f32⟩
  | .hbm, ⟨9, _⟩ => ⟨S2x1024x512, .f32⟩
  | .hbm, ⟨10, _⟩ => ⟨S2x1024, .f32⟩
  | .hbm, ⟨11, _⟩ => ⟨S32x2x512, .f32⟩
  | .hbm, ⟨12, _⟩ => ⟨S32x2x512, .f32⟩
  | .hbm, ⟨13, _⟩ => ⟨S32x516x512, .f32⟩
  | .hbm, ⟨14, _⟩ => ⟨S1536x512, .f32⟩
  | .hbm, ⟨15, _⟩ => ⟨S1536x512, .f32⟩
  | .hbm, ⟨16, _⟩ => ⟨S2x512x1024, .f32⟩
  | .hbm, ⟨17, _⟩ => ⟨S2x512x1024, .f32⟩
  | .hbm, ⟨18, _⟩ => ⟨S32x512x1024, .f32⟩
  | .hbm, ⟨19, _⟩ => ⟨S1x32x512x1024, .f32⟩
  | .local _ .vmem, ⟨0, _⟩ => ⟨S1x516x512, .f32⟩
  | .local _ .vmem, ⟨1, _⟩ => ⟨S1x516x512, .f32⟩
  | .local _ .vmem, ⟨2, _⟩ => ⟨S1536x512, .f32⟩
  | .local _ .vmem, ⟨3, _⟩ => ⟨S1536x512, .f32⟩
  | .local _ .vmem, ⟨4, _⟩ => ⟨S512, .f32⟩
  | .local _ .vmem, ⟨5, _⟩ => ⟨S512, .f32⟩
  | .local _ .vmem, ⟨6, _⟩ => ⟨S2x512x1024, .f32⟩
  | .local _ .vmem, ⟨7, _⟩ => ⟨S2x512x1024, .f32⟩
  | .local _ .vmem, ⟨8, _⟩ => ⟨S2x1024, .f32⟩
  | .local _ .vmem, ⟨9, _⟩ => ⟨S2x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x512x1024, .f32⟩
  | .local _ .vmem, ⟨13, _⟩ => ⟨S1x1x512x1024, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x516x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S2x512_S32x2x512_1_2 : S2x512.BroadcastsInDim S32x2x512 (![1, 2] : Fin 2 → Fin S32x2x512.rank)
  concatenates_S32x2x512_S32x512x512_S32x2x512_S32x516x512_d1 : Shape.Concatenates [S32x2x512, S32x512x512, S32x2x512] S32x516x512 1
  transposes_S512x1536_S1536x512_1_0 : S512x1536.Transposes [1, 0] S1536x512
  transposes_S2x1024x512_S2x512x1024_0_2_1 : S2x1024x512.Transposes [0, 2, 1] S2x512x1024
  inb_S1x516x512_S1x516x512_0_0_0 : ∀ a, (![0, 0, 0] : Fin 3 → Nat) a + S1x516x512.size a ≤ S1x516x512.size a
  h_S1x516x512 : 0 < S1x516x512.numel
  shapeCasts_S1x516x512_S516x512 : S1x516x512.ShapeCasts S516x512
  slices_S516x512_o0_0_S512x512 : S516x512.Slices ![0, 0] S512x512
  slices_S516x512_o1_0_S512x512 : S516x512.Slices ![1, 0] S512x512
  slices_S516x512_o2_0_S512x512 : S516x512.Slices ![2, 0] S512x512
  slices_S516x512_o3_0_S512x512 : S516x512.Slices ![3, 0] S512x512
  slices_S516x512_o4_0_S512x512 : S516x512.Slices ![4, 0] S512x512
  inb_S1536x512_S512x512_0_0 : ∀ a, (![0, 0] : Fin 2 → Nat) a + S512x512.size a ≤ S1536x512.size a
  h_S512x512 : 0 < S512x512.numel
  shapeCasts_S512x512_S512x512 : S512x512.ShapeCasts S512x512
  bitsLt_bf16_f32 : FTy.bits .bf16 < FTy.bits .f32
  inb_S1536x512_S512x512_512_0 : ∀ a, (![512, 0] : Fin 2 → Nat) a + S512x512.size a ≤ S1536x512.size a
  inb_S1536x512_S512x512_1024_0 : ∀ a, (![1024, 0] : Fin 2 → Nat) a + S512x512.size a ≤ S1536x512.size a
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S2x512x1024_S1x512x1024_0_0_0 : ∀ a, (![0, 0, 0] : Fin 3 → Nat) a + S1x512x1024.size a ≤ S2x512x1024.size a
  h_S1x512x1024 : 0 < S1x512x1024.numel
  shapeCasts_S1x512x1024_S512x1024 : S1x512x1024.ShapeCasts S512x1024
  inb_S2x1024_S1x1024_0_0 : ∀ a, (![0, 0] : Fin 2 → Nat) a + S1x1024.size a ≤ S2x1024.size a
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  slices_S512x1024_o0_0_S512x512 : S512x1024.Slices ![0, 0] S512x512
  slices_S512x1024_o0_512_S512x512 : S512x1024.Slices ![0, 512] S512x512
  inb_S2x512x1024_S1x512x1024_1_0_0 : ∀ a, (![1, 0, 0] : Fin 3 → Nat) a + S1x512x1024.size a ≤ S2x512x1024.size a
  inb_S2x1024_S1x1024_1_0 : ∀ a, (![1, 0] : Fin 2 → Nat) a + S1x1024.size a ≤ S2x1024.size a
  concatenates_S512x512_S512x512_S512x1024_d1 : Shape.Concatenates [S512x512, S512x512] S512x1024 1
  inb_S1x512x1024_S1x512x1024_0_0_0 : ∀ a, (![0, 0, 0] : Fin 3 → Nat) a + S1x512x1024.size a ≤ S1x512x1024.size a
  shapeCasts_S512x1024_S1x512x1024 : S512x1024.ShapeCasts S1x512x1024
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  shapeCasts_S512x1024_S1x1x512x1024 : S512x1024.ShapeCasts S1x1x512x1024
  dot_S512x512_S512x512_S512x512_1_0_0_1_n_n_wf : DotDims.WF S512x512 S512x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x516x512.size a ≤ S32x516x512.size a
  hwx0_0 : ∀ i : grid0.Coords, EltTy.bits .f32 = 32 ∨ (Rect.block (s := S32x516x512) S1x516x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x512.size a ≤ S1536x512.size a
  hwx0_2 : ∀ i : grid0.Coords, EltTy.bits .f32 = 32 ∨ (Rect.block (s := S1536x512) S1536x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x512x1024.size a ≤ S2x512x1024.size a
  hwx0_5 : ∀ i : grid0.Coords, EltTy.bits .f32 = 32 ∨ (Rect.block (s := S2x512x1024) S2x512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x512x1024.size a ≤ S2x512x1024.size a
  hwx0_6 : ∀ i : grid0.Coords, EltTy.bits .f32 = 32 ∨ (Rect.block (s := S2x512x1024) S2x512x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x1024.size a ≤ S2x1024.size a
  hwx0_7 : ∀ i : grid0.Coords, EltTy.bits .f32 = 32 ∨ (Rect.block (s := S2x1024) S2x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x1024.size a ≤ S2x1024.size a
  hwx0_8 : ∀ i : grid0.Coords, EltTy.bits .f32 = 32 ∨ (Rect.block (s := S2x1024) S2x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x1024.size a ≤ S32x512x1024.size a
  hwx0_9 : ∀ i : grid0.Coords, EltTy.bits .f32 = 32 ∨ (Rect.block (s := S32x512x1024) S1x512x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x512x1024.size a ≤ S1x32x512x1024.size a
  hwx0_10 : ∀ i : grid0.Coords, EltTy.bits .f32 = 32 ∨ (Rect.block (s := S1x32x512x1024) S1x1x512x1024.size (cc0_transform_10 i) (hinb0_10 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v2) S1x516x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1536x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2x512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2x512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S2x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S1x512x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S1x1x512x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S2x512 : Shape := ⟨2, ![2, 512]⟩
abbrev S512x1536 : Shape := ⟨2, ![512, 1536]⟩
abbrev S512 : Shape := ⟨1, ![512]⟩
abbrev S2x1024x512 : Shape := ⟨3, ![2, 1024, 512]⟩
abbrev S2x1024 : Shape := ⟨2, ![2, 1024]⟩
abbrev S32x2x512 : Shape := ⟨3, ![32, 2, 512]⟩
abbrev S32x516x512 : Shape := ⟨3, ![32, 516, 512]⟩
abbrev S512x1 : Shape := ⟨2, ![512, 1]⟩
abbrev S3 : Shape := ⟨1, ![3]⟩
abbrev S1x3 : Shape := ⟨2, ![1, 3]⟩
abbrev S512x3 : Shape := ⟨2, ![512, 3]⟩
abbrev S_ : Shape := ⟨0, ![]⟩
abbrev S512x3x1 : Shape := ⟨3, ![512, 3, 1]⟩
abbrev S32x512x3x512 : Shape := ⟨4, ![32, 512, 3, 512]⟩
abbrev S32x512x1536 : Shape := ⟨3, ![32, 512, 1536]⟩
abbrev S1x1x512 : Shape := ⟨3, ![1, 1, 512]⟩
abbrev S1x1024x512 : Shape := ⟨3, ![1, 1024, 512]⟩
abbrev S1024x512 : Shape := ⟨2, ![1024, 512]⟩
abbrev S32x512x1024 : Shape := ⟨3, ![32, 512, 1024]⟩
abbrev S1x1024 : Shape := ⟨2, ![1, 1024]⟩
abbrev S1024 : Shape := ⟨1, ![1024]⟩
abbrev S1x1x1024 : Shape := ⟨3, ![1, 1, 1024]⟩
abbrev S1x32x512x1024 : Shape := ⟨4, ![1, 32, 512, 1024]⟩

abbrev nBuf : Space → Nat
  | .hbm => 168
  | .vmem => 0
  | .smem => 0
  | _ => 0

abbrev hbmTy0_0 (i : Nat) : BufTy := match i % 128 with
  | 0 => ⟨S32x512x512, .f32⟩
  | 1 => ⟨S2x512, .f32⟩
  | 2 => ⟨S2x512, .f32⟩
  | 3 => ⟨S512x1536, .f32⟩
  | 4 => ⟨S512, .f32⟩
  | 5 => ⟨S512x1536, .f32⟩
  | 6 => ⟨S512, .f32⟩
  | 7 => ⟨S2x1024x512, .f32⟩
  | 8 => ⟨S2x1024, .f32⟩
  | 9 => ⟨S2x1024x512, .f32⟩
  | 10 => ⟨S2x1024, .f32⟩
  | 11 => ⟨S32x2x512, .f32⟩
  | 12 => ⟨S32x2x512, .f32⟩
  | 13 => ⟨S32x516x512, .f32⟩
  | 14 => ⟨S512, .i32⟩
  | 15 => ⟨S512x1, .i32⟩
  | 16 => ⟨S3, .i32⟩
  | 17 => ⟨S1x3, .i32⟩
  | 18 => ⟨S512x3, .i32⟩
  | 19 => ⟨S512x3, .i32⟩
  | 20 => ⟨S512x3, .i32⟩
  | 21 => ⟨S_, .i32⟩
  | 22 => ⟨S512x3, .i32⟩
  | 23 => ⟨S512x3, .i1⟩
  | 24 => ⟨S_, .i32⟩
  | 25 => ⟨S512x3, .i32⟩
  | 26 => ⟨S512x3, .i32⟩
  | 27 => ⟨S512x3, .i32⟩
  | 28 => ⟨S512x3x1, .i32⟩
  | 29 => ⟨S32x512x3x512, .f32⟩
  | 30 => ⟨S32x512x1536, .f32⟩
  | 31 => ⟨S_, .i32⟩
  | 32 => ⟨S512x3, .i32⟩
  | 33 => ⟨S512x3, .i32⟩
  | 34 => ⟨S_, .i32⟩
  | 35 => ⟨S512x3, .i32⟩
  | 36 => ⟨S512x3, .i1⟩
  | 37 => ⟨S_, .i32⟩
  | 38 => ⟨S512x3, .i32⟩
  | 39 => ⟨S512x3, .i32⟩
  | 40 => ⟨S512x3, .i32⟩
  | 41 => ⟨S512x3x1, .i32⟩
  | 42 => ⟨S32x512x3x512, .f32⟩
  | 43 => ⟨S32x512x1536, .f32⟩
  | 44 => ⟨S32x512x512, .f32⟩
  | 45 => ⟨S1x1x512, .f32⟩
  | 46 => ⟨S32x512x512, .f32⟩
  | 47 => ⟨S32x512x512, .f32⟩
  | 48 => ⟨S_, .f32⟩
  | 49 => ⟨S32x512x512, .f32⟩
  | 50 => ⟨S32x512x512, .f32⟩
  | 51 => ⟨S32x512x512, .f32⟩
  | 52 => ⟨S1x1x512, .f32⟩
  | 53 => ⟨S32x512x512, .f32⟩
  | 54 => ⟨S32x512x512, .f32⟩
  | 55 => ⟨S_, .f32⟩
  | 56 => ⟨S32x512x512, .f32⟩
  | 57 => ⟨S32x512x512, .f32⟩
  | 58 => ⟨S1x1024x512, .f32⟩
  | 59 => ⟨S1024x512, .f32⟩
  | 60 => ⟨S32x512x1024, .f32⟩
  | 61 => ⟨S1x1024, .f32⟩
  | 62 => ⟨S1024, .f32⟩
  | 63 => ⟨S1x1x1024, .f32⟩
  | 64 => ⟨S32x512x1024, .f32⟩
  | 65 => ⟨S32x512x1024, .f32⟩
  | 66 => ⟨S32x512x512, .f32⟩
  | 67 => ⟨S_, .f32⟩
  | 68 => ⟨S32x512x512, .f32⟩
  | 69 => ⟨S32x512x512, .f32⟩
  | 70 => ⟨S32x512x512, .f32⟩
  | 71 => ⟨S32x512x512, .f32⟩
  | 72 => ⟨S32x512x512, .f32⟩
  | 73 => ⟨S_, .f32⟩
  | 74 => ⟨S32x512x512, .f32⟩
  | 75 => ⟨S32x512x512, .f32⟩
  | 76 => ⟨S_, .f32⟩
  | 77 => ⟨S32x512x512, .f32⟩
  | 78 => ⟨S32x512x512, .f32⟩
  | 79 => ⟨S32x512x512, .f32⟩
  | 80 => ⟨S_, .f32⟩
  | 81 => ⟨S32x512x512, .f32⟩
  | 82 => ⟨S32x512x512, .f32⟩
  | 83 => ⟨S32x512x512, .f32⟩
  | 84 => ⟨S32x512x512, .f32⟩
  | 85 => ⟨S1x1024x512, .f32⟩
  | 86 => ⟨S1024x512, .f32⟩
  | 87 => ⟨S32x512x1024, .f32⟩
  | 88 => ⟨S1x1024, .f32⟩
  | 89 => ⟨S1024, .f32⟩
  | 90 => ⟨S1x1x1024, .f32⟩
  | 91 => ⟨S32x512x1024, .f32⟩
  | 92 => ⟨S32x512x1024, .f32⟩
  | 93 => ⟨S32x512x512, .f32⟩
  | 94 => ⟨S_, .f32⟩
  | 95 => ⟨S32x512x512, .f32⟩
  | 96 => ⟨S32x512x512, .f32⟩
  | 97 => ⟨S32x512x512, .f32⟩
  | 98 => ⟨S32x512x512, .f32⟩
  | 99 => ⟨S32x512x512, .f32⟩
  | 100 => ⟨S_, .f32⟩
  | 101 => ⟨S32x512x512, .f32⟩
  | 102 => ⟨S32x512x512, .f32⟩
  | 103 => ⟨S_, .f32⟩
  | 104 => ⟨S32x512x512, .f32⟩
  | 105 => ⟨S32x512x512, .f32⟩
  | 106 => ⟨S32x512x512, .f32⟩
  | 107 => ⟨S_, .f32⟩
  | 108 => ⟨S32x512x512, .f32⟩
  | 109 => ⟨S32x512x512, .f32⟩
  | 110 => ⟨S32x512x512, .f32⟩
  | 111 => ⟨S32x512x512, .f32⟩
  | 112 => ⟨S1x1024x512, .f32⟩
  | 113 => ⟨S1024x512, .f32⟩
  | 114 => ⟨S32x512x1024, .f32⟩
  | 115 => ⟨S1x1024, .f32⟩
  | 116 => ⟨S1024, .f32⟩
  | 117 => ⟨S1x1x1024, .f32⟩
  | 118 => ⟨S32x512x1024, .f32⟩
  | 119 => ⟨S32x512x1024, .f32⟩
  | 120 => ⟨S32x512x512, .f32⟩
  | 121 => ⟨S_, .f32⟩
  | 122 => ⟨S32x512x512, .f32⟩
  | 123 => ⟨S32x512x512, .f32⟩
  | 124 => ⟨S32x512x512, .f32⟩
  | 125 => ⟨S32x512x512, .f32⟩
  | 126 => ⟨S32x512x512, .f32⟩
  | 127 => ⟨S_, .f32⟩
  | _ => ⟨S32x512x512, .f32⟩

abbrev hbmTy0_1 (i : Nat) : BufTy := match i % 128 with
  | 0 => ⟨S32x512x512, .f32⟩
  | 1 => ⟨S32x512x512, .f32⟩
  | 2 => ⟨S_, .f32⟩
  | 3 => ⟨S32x512x512, .f32⟩
  | 4 => ⟨S32x512x512, .f32⟩
  | 5 => ⟨S32x512x512, .f32⟩
  | 6 => ⟨S_, .f32⟩
  | 7 => ⟨S32x512x512, .f32⟩
  | 8 => ⟨S32x512x512, .f32⟩
  | 9 => ⟨S32x512x512, .f32⟩
  | 10 => ⟨S32x512x512, .f32⟩
  | 11 => ⟨S1x1024x512, .f32⟩
  | 12 => ⟨S1024x512, .f32⟩
  | 13 => ⟨S32x512x1024, .f32⟩
  | 14 => ⟨S1x1024, .f32⟩
  | 15 => ⟨S1024, .f32⟩
  | 16 => ⟨S1x1x1024, .f32⟩
  | 17 => ⟨S32x512x1024, .f32⟩
  | 18 => ⟨S32x512x1024, .f32⟩
  | 19 => ⟨S32x512x512, .f32⟩
  | 20 => ⟨S_, .f32⟩
  | 21 => ⟨S32x512x512, .f32⟩
  | 22 => ⟨S32x512x512, .f32⟩
  | 23 => ⟨S32x512x512, .f32⟩
  | 24 => ⟨S32x512x512, .f32⟩
  | 25 => ⟨S32x512x512, .f32⟩
  | 26 => ⟨S_, .f32⟩
  | 27 => ⟨S32x512x512, .f32⟩
  | 28 => ⟨S32x512x512, .f32⟩
  | 29 => ⟨S_, .f32⟩
  | 30 => ⟨S32x512x512, .f32⟩
  | 31 => ⟨S32x512x512, .f32⟩
  | 32 => ⟨S32x512x512, .f32⟩
  | 33 => ⟨S_, .f32⟩
  | 34 => ⟨S32x512x512, .f32⟩
  | 35 => ⟨S32x512x512, .f32⟩
  | 36 => ⟨S32x512x512, .f32⟩
  | 37 => ⟨S32x512x512, .f32⟩
  | 38 => ⟨S32x512x1024, .f32⟩
  | 39 => ⟨S1x32x512x1024, .f32⟩
  | _ => ⟨S32x512x512, .f32⟩

abbrev hbmTy (i : Nat) : BufTy := match i / 128 with
  | 0 => hbmTy0_0 i
  | 1 => hbmTy0_1 i
  | _ => ⟨S32x512x512, .f32⟩

abbrev bufTy : (tb : Table) → Fin (tcTables nBuf tb) → BufTy
  | .hbm, ⟨i, _⟩ => hbmTy i
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_cst : Ref sig .tc := ⟨.hbm, 48, rfl⟩
abbrev main_call0_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call2_cst : Ref sig .tc := ⟨.hbm, 67, rfl⟩
abbrev main_call2_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst : Ref sig .tc := ⟨.hbm, 73, rfl⟩
abbrev main_v51 : Ref sig .tc := ⟨.hbm, 74, rfl⟩
abbrev main_v52 : Ref sig .tc := ⟨.hbm, 75, rfl⟩
abbrev main_cst_4 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call3_cst : Ref sig .tc := ⟨.hbm, 94, rfl⟩
abbrev main_call3_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_6 : Ref sig .tc := ⟨.hbm, 100, rfl⟩
abbrev main_v73 : Ref sig .tc := ⟨.hbm, 101, rfl⟩
abbrev main_v74 : Ref sig .tc := ⟨.hbm, 102, rfl⟩
abbrev main_cst_7 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_8 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_call4_cst : Ref sig .tc := ⟨.hbm, 121, rfl⟩
abbrev main_call4_v0 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_9 : Ref sig .tc := ⟨.hbm, 127, rfl⟩
abbrev main_v95 : Ref sig .tc := ⟨.hbm, 128, rfl⟩
abbrev main_v96 : Ref sig .tc := ⟨.hbm, 129, rfl⟩
abbrev main_cst_10 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_11 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_call5_cst : Ref sig .tc := ⟨.hbm, 148, rfl⟩
abbrev main_call5_v0 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_12 : Ref sig .tc := ⟨.hbm, 154, rfl⟩
abbrev main_v117 : Ref sig .tc := ⟨.hbm, 155, rfl⟩
abbrev main_v118 : Ref sig .tc := ⟨.hbm, 156, rfl⟩
abbrev main_cst_13 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_14 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩

abbrev nD : Nat := 1
abbrev τ : Topo := Topo.v7x

variable {F : FTy → Type} [FloatOps F]

class Facts₀ : Prop where
  bcast_S2x512_S32x2x512_1_2 : S2x512.BroadcastsInDim S32x2x512 (![1, 2] : Fin 2 → Fin S32x2x512.rank)
  concatenates_S32x2x512_S32x512x512_S32x2x512_S32x516x512_d1 : Shape.Concatenates [S32x2x512, S32x512x512, S32x2x512] S32x516x512 1
  bcast_S512_S512x1_0 : S512.BroadcastsInDim S512x1 (![0] : Fin 1 → Fin S512x1.rank)
  bcast_S3_S1x3_1 : S3.BroadcastsInDim S1x3 (![1] : Fin 1 → Fin S1x3.rank)
  bcast_S512x1_S512x3_0_1 : S512x1.BroadcastsInDim S512x3 (![0, 1] : Fin 2 → Fin S512x3.rank)
  bcast_S1x3_S512x3_0_1 : S1x3.BroadcastsInDim S512x3 (![0, 1] : Fin 2 → Fin S512x3.rank)
  bcast_S_S512x3 : S_.BroadcastsInDim S512x3 (![] : Fin 0 → Fin S512x3.rank)
  bcast_S512x3_S512x3x1_0_1 : S512x3.BroadcastsInDim S512x3x1 (![0, 1] : Fin 2 → Fin S512x3x1.rank)
  shapeCasts_S32x512x3x512_S32x512x1536 : S32x512x3x512.ShapeCasts S32x512x1536
  bcast_S512_S1x1x512_2 : S512.BroadcastsInDim S1x1x512 (![2] : Fin 1 → Fin S1x1x512.rank)
  bcast_S1x1x512_S32x512x512_0_1_2 : S1x1x512.BroadcastsInDim S32x512x512 (![0, 1, 2] : Fin 3 → Fin S32x512x512.rank)
  bcast_S_S32x512x512 : S_.BroadcastsInDim S32x512x512 (![] : Fin 0 → Fin S32x512x512.rank)
  slices_S2x1024x512_S1x1024x512_0_0_0 : S2x1024x512.Slices ![0, 0, 0] S1x1024x512
  shapeCasts_S1x1024x512_S1024x512 : S1x1024x512.ShapeCasts S1024x512
  slices_S2x1024_S1x1024_0_0 : S2x1024.Slices ![0, 0] S1x1024
  shapeCasts_S1x1024_S1024 : S1x1024.ShapeCasts S1024
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  slices_S32x512x1024_S32x512x512_0_0_0 : S32x512x1024.Slices ![0, 0, 0] S32x512x512
  slices_S32x512x1024_S32x512x512_0_0_512 : S32x512x1024.Slices ![0, 0, 512] S32x512x512
  slices_S2x1024x512_S1x1024x512_1_0_0 : S2x1024x512.Slices ![1, 0, 0] S1x1024x512
  slices_S2x1024_S1x1024_1_0 : S2x1024.Slices ![1, 0] S1x1024
  concatenates_S32x512x512_S32x512x512_S32x512x1024_d2 : Shape.Concatenates [S32x512x512, S32x512x512] S32x512x1024 2
  bcast_S32x512x1024_S1x32x512x1024_1_2_3 : S32x512x1024.BroadcastsInDim S1x32x512x1024 (![1, 2, 3] : Fin 3 → Fin S1x32x512x1024.rank)
  gather_S32x516x512_S512x3x1_S32x512x3x512_03_1_n_n_1_2_321512_wf : GatherDims.WF S32x516x512 S512x3x1 S32x512x3x512 [0, 3] [1] [] [1] [] 2 ![32, 1, 512]
  dot_S32x512x1536_S512x1536_S32x512x512_2_1_01_0_n_n_wf : DotDims.WF S32x512x1536 S512x1536 S32x512x512 [2] [1] [0, 1] [0] [] []
  dot_S32x512x512_S1024x512_S32x512x1024_2_1_01_0_n_n_wf : DotDims.WF S32x512x512 S1024x512 S32x512x1024 [2] [1] [0, 1] [0] [] []

variable [Facts₀]

def gather_S32x516x512_S512x3x1_S32x512x3x512_03_1_n_n_1_2_321512 : GatherDims S32x516x512 S512x3x1 S32x512x3x512 where
  offsetDims := [0, 3]
  collapsedSliceDims := [1]
  operandBatchingDims := []
  startIndicesBatchingDims := []
  startIndexMap := [1]
  indexVectorDim := 2
  sliceSizes := ![32, 1, 512]
  wf := gather_S32x516x512_S512x3x1_S32x512x3x512_03_1_n_n_1_2_321512_wf
def dot_S32x512x1536_S512x1536_S32x512x512_2_1_01_0_n_n : DotDims S32x512x1536 S512x1536 S32x512x512 where
  lhsContracting := [2]
  rhsContracting := [1]
  lhsNonContracting := [0, 1]
  rhsNonContracting := [0]
  lhsBatch := []
  rhsBatch := []
  wf := dot_S32x512x1536_S512x1536_S32x512x512_2_1_01_0_n_n_wf
def dot_S32x512x512_S1024x512_S32x512x1024_2_1_01_0_n_n : DotDims S32x512x512 S1024x512 S32x512x1024 where
  lhsContracting := [2]
  rhsContracting := [1]
  lhsNonContracting := [0, 1]
  rhsNonContracting := [0]
  lhsBatch := []
  rhsBatch := []
  wf := dot_S32x512x512_S1024x512_S32x512x1024_2_1_01_0_n_n_wf

class Facts : Prop extends Facts₀ where

variable [Facts]
-- ==== Proof.LibNary3.lean ====
/-
  A host operation with three operands (a concatenation of three arrays): what its result buffer holds, with each
  operand's contents read at its own reference, so that the contents of operands that are themselves results of
  earlier operations can go on being rewritten.  The two-, four- and any-count forms are the library's; this is the
  three-operand form, proved the same way.
-/
import Idealize.ShloMosaic.Lib.StableHlo.Run

noncomputable section

namespace Cert.Lib

open Idealize.ShloMosaic Idealize.ShloMosaic.StableHlo Idealize.SL.Sem

variable {τ : Topo} {sig : RefSig} {Val : EltTy → Type} {x a b y : Ref sig .tc}

/-- A three-operand operation leaves in its result buffer its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Lib

end
-- ==== Proof.RefRunHand.lean ====
/-
  The reference program's run, read back stage by stage.  The list of its 157 host operations is cut into eight
  stretches: the padded sequence (two broadcast rows joined around the input along the row axis); the row numbers
  and the two row gathers, flattened to the two windows; the two dense projections with their rectifiers; the four
  highway layers (two on the left window's projection, two on the right's); the side-by-side join and the leading
  unit axis.  After each stretch the buffers it writes hold the corresponding stage of the reference program as a
  function of the arguments' contents, and every other buffer keeps what it held.  So after the whole list the two
  result buffers hold the last two stages at the arguments' launch contents, and the arguments are unchanged.
-/
import proofs.«169205_j71021579206699_1_alg».proof.Proof.Gen.ReferenceIdeal
import Idealize.ShloMosaic.Lib.StableHlo.Run
import Idealize.ShloMosaic.Lib.Pipeline.Frame
import proofs.«169205_j71021579206699_1_alg».proof.Proof.RefRead
import proofs.«169205_j71021579206699_1_alg».proof.Proof.LibNary3

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

/-- @main's 157 operations, in order (a called function's operations stand in its call's place, spelt `TRef.…`). -/
abbrev ops : List (HloOp τ sig (Elt F)) :=
  [ unary main_arg1 main_v0 (broadcastInDim S32x2x512 ![1, 2] bcast_S2x512_S32x2x512_1_2 : (⟨S2x512, .f32⟩ : BufTy).Contents (Elt F) → (⟨S32x2x512, .f32⟩ : BufTy).Contents (Elt F)),
    unary main_arg2 main_v1 (broadcastInDim S32x2x512 ![1, 2] bcast_S2x512_S32x2x512_1_2 : (⟨S2x512, .f32⟩ : BufTy).Contents (Elt F) → (⟨S32x2x512, .f32⟩ : BufTy).Contents (Elt F)),
    nary ![main_v0, main_arg0, main_v1] main_v2 (fun u => concatenate S32x516x512 1 [⟨S32x2x512, u 0⟩, ⟨S32x512x512, u 1⟩, ⟨S32x2x512, u 2⟩] concatenates_S32x2x512_S32x512x512_S32x2x512_S32x516x512_d1),
    nullary main_v3 (iotaInDim S512 32 0),
    unary main_v3 main_v4 (broadcastInDim S512x1 ![0] bcast_S512_S512x1_0 : (⟨S512, .i32⟩ : BufTy).Contents (Elt F) → (⟨S512x1, .i32⟩ : BufTy).Contents (Elt F)),
    nullary main_v5 (iotaInDim S3 32 0),
    unary main_v5 main_v6 (broadcastInDim S1x3 ![1] bcast_S3_S1x3_1 : (⟨S3, .i32⟩ : BufTy).Contents (Elt F) → (⟨S1x3, .i32⟩ : BufTy).Contents (Elt F)),
    unary main_v4 main_v7 (broadcastInDim S512x3 ![0, 1] bcast_S512x1_S512x3_0_1 : (⟨S512x1, .i32⟩ : BufTy).Contents (Elt F) → (⟨S512x3, .i32⟩ : BufTy).Contents (Elt F)),
    unary main_v6 main_v8 (broadcastInDim S512x3 ![0, 1] bcast_S1x3_S512x3_0_1 : (⟨S1x3, .i32⟩ : BufTy).Contents (Elt F) → (⟨S512x3, .i32⟩ : BufTy).Contents (Elt F)),
    binary main_v7 main_v8 main_v9 (addi : (⟨S512x3, .i32⟩ : BufTy).Contents (Elt F) → (⟨S512x3, .i32⟩ : BufTy).Contents (Elt F) → (⟨S512x3, .i32⟩ : BufTy).Contents (Elt F)),
    nullary main_c (constantI S_ 32 0#32),
    unary main_c main_v10 (broadcastInDim S512x3 ![] bcast_S_S512x3 : (⟨S_, .i32⟩ : BufTy).Contents (Elt F) → (⟨S512x3, .i32⟩ : BufTy).Contents (Elt F)),
    binary main_v9 main_v10 main_v11 (cmpi .slt : (⟨S512x3, .i32⟩ : BufTy).Contents (Elt F) → (⟨S512x3, .i32⟩ : BufTy).Contents (Elt F) → (⟨S512x3, .i1⟩ : BufTy).Contents (Elt F)),
    nullary main_c_0 (constantI S_ 32 516#32),
    unary main_c_0 main_v12 (broadcastInDim S512x3 ![] bcast_S_S512x3 : (⟨S_, .i32⟩ : BufTy).Contents (Elt F) → (⟨S512x3, .i32⟩ : BufTy).Contents (Elt F)),
    binary main_v9 main_v12 main_v13 (addi : (⟨S512x3, .i32⟩ : BufTy).Contents (Elt F) → (⟨S512x3, .i32⟩ : BufTy).Contents (Elt F) → (⟨S512x3, .i32⟩ : BufTy).Contents (Elt F)),
    ternary main_v11 main_v13 main_v9 main_v14 (select : (⟨S512x3, .i1⟩ : BufTy).Contents (Elt F) → (⟨S512x3, .i32⟩ : BufTy).Contents (Elt F) → (⟨S512x3, .i32⟩ : BufTy).Contents (Elt F) → (⟨S512x3, .i32⟩ : BufTy).Contents (Elt F)),
    unary main_v14 main_v15 (broadcastInDim S512x3x1 ![0, 1] bcast_S512x3_S512x3x1_0_1 : (⟨S512x3, .i32⟩ : BufTy).Contents (Elt F) → (⟨S512x3x1, .i32⟩ : BufTy).Contents (Elt F)),
    binary main_v2 main_v15 main_v16 ((fun x i => Host.gather gather_S32x516x512_S512x3x1_S32x512x3x512_03_1_n_n_1_2_321512 x i) : (⟨S32x516x512, .f32⟩ : BufTy).Contents (Elt F) → (⟨S512x3x1, .i32⟩ : BufTy).Contents (Elt F) → (⟨S32x512x3x512, .f32⟩ : BufTy).Contents (Elt F)),
    reshape main_v16 main_v17 rfl shapeCasts_S32x512x3x512_S32x512x1536,
    nullary main_c_1 (constantI S_ 32 2#32),
    unary main_c_1 main_v18 (broadcastInDim S512x3 ![] bcast_S_S512x3 : (⟨S_, .i32⟩ : BufTy).Contents (Elt F) → (⟨S512x3, .i32⟩ : BufTy).Contents (Elt F)),
    binary main_v9 main_v18 main_v19 (addi : (⟨S512x3, .i32⟩ : BufTy).Contents (Elt F) → (⟨S512x3, .i32⟩ : BufTy).Contents (Elt F) → (⟨S512x3, .i32⟩ : BufTy).Contents (Elt F)),
    nullary main_c_2 (constantI S_ 32 0#32),
    unary main_c_2 main_v20 (broadcastInDim S512x3 ![] bcast_S_S512x3 : (⟨S_, .i32⟩ : BufTy).Contents (Elt F) → (⟨S512x3, .i32⟩ : BufTy).Contents (Elt F)),
    binary main_v19 main_v20 main_v21 (cmpi .slt : (⟨S512x3, .i32⟩ : BufTy).Contents (Elt F) → (⟨S512x3, .i32⟩ : BufTy).Contents (Elt F) → (⟨S512x3, .i1⟩ : BufTy).Contents (Elt F)),
    nullary main_c_3 (constantI S_ 32 516#32),
    unary main_c_3 main_v22 (broadcastInDim S512x3 ![] bcast_S_S512x3 : (⟨S_, .i32⟩ : BufTy).Contents (Elt F) → (⟨S512x3, .i32⟩ : BufTy).Contents (Elt F)),
    binary main_v19 main_v22 main_v23 (addi : (⟨S512x3, .i32⟩ : BufTy).Contents (Elt F) → (⟨S512x3, .i32⟩ : BufTy).Contents (Elt F) → (⟨S512x3, .i32⟩ : BufTy).Contents (Elt F)),
    ternary main_v21 main_v23 main_v19 main_v24 (select : (⟨S512x3, .i1⟩ : BufTy).Contents (Elt F) → (⟨S512x3, .i32⟩ : BufTy).Contents (Elt F) → (⟨S512x3, .i32⟩ : BufTy).Contents (Elt F) → (⟨S512x3, .i32⟩ : BufTy).Contents (Elt F)),
    unary main_v24 main_v25 (broadcastInDim S512x3x1 ![0, 1] bcast_S512x3_S512x3x1_0_1 : (⟨S512x3, .i32⟩ : BufTy).Contents (Elt F) → (⟨S512x3x1, .i32⟩ : BufTy).Contents (Elt F)),
    binary main_v2 main_v25 main_v26 ((fun x i => Host.gather gather_S32x516x512_S512x3x1_S32x512x3x512_03_1_n_n_1_2_321512 x i) : (⟨S32x516x512, .f32⟩ : BufTy).Contents (Elt F) → (⟨S512x3x1, .i32⟩ : BufTy).Contents (Elt F) → (⟨S32x512x3x512, .f32⟩ : BufTy).Contents (Elt F)),
    reshape main_v26 main_v27 rfl shapeCasts_S32x512x3x512_S32x512x1536,
    binary main_v17 main_arg3 main_v28 ((fun l r => Host.dotGeneral dot_S32x512x1536_S512x1536_S32x512x512_2_1_01_0_n_n none l r) : (⟨S32x512x1536, .f32⟩ : BufTy).Contents (Elt F) → (⟨S512x1536, .f32⟩ : BufTy).Contents (Elt F) → (⟨S32x512x512, .f32⟩ : BufTy).Contents (Elt F)),
    unary main_arg4 main_v29 (broadcastInDim S1x1x512 ![2] bcast_S512_S1x1x512_2 : (⟨S512, .f32⟩ : BufTy).Contents (Elt F) → (⟨S1x1x512, .f32⟩ : BufTy).Contents (Elt F)),
    unary main_v29 main_v30 (broadcastInDim S32x512x512 ![0, 1, 2] bcast_S1x1x512_S32x512x512_0_1_2 : (⟨S1x1x512, .f32⟩ : BufTy).Contents (Elt F) → (⟨S32x512x512, .f32⟩ : BufTy).Contents (Elt F)),
    binary main_v28 main_v30 main_v31 (addf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x512x512, .f32⟩) main_call0_v0) (broadcastInDim S32x512x512 ![] bcast_S_S32x512x512),
    TRef.binary (TRef.of (T := ⟨S32x512x512, .f32⟩) main_v31) (TRef.of (T := ⟨S32x512x512, .f32⟩) main_call0_v0) (TRef.of (T := ⟨S32x512x512, .f32⟩) main_v32) maximumf,
    binary main_v27 main_arg5 main_v33 ((fun l r => Host.dotGeneral dot_S32x512x1536_S512x1536_S32x512x512_2_1_01_0_n_n none l r) : (⟨S32x512x1536, .f32⟩ : BufTy).Contents (Elt F) → (⟨S512x1536, .f32⟩ : BufTy).Contents (Elt F) → (⟨S32x512x512, .f32⟩ : BufTy).Contents (Elt F)),
    unary main_arg6 main_v34 (broadcastInDim S1x1x512 ![2] bcast_S512_S1x1x512_2 : (⟨S512, .f32⟩ : BufTy).Contents (Elt F) → (⟨S1x1x512, .f32⟩ : BufTy).Contents (Elt F)),
    unary main_v34 main_v35 (broadcastInDim S32x512x512 ![0, 1, 2] bcast_S1x1x512_S32x512x512_0_1_2 : (⟨S1x1x512, .f32⟩ : BufTy).Contents (Elt F) → (⟨S32x512x512, .f32⟩ : BufTy).Contents (Elt F)),
    binary main_v33 main_v35 main_v36 (addf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32x512x512, .f32⟩) main_call1_v0) (broadcastInDim S32x512x512 ![] bcast_S_S32x512x512),
    TRef.binary (TRef.of (T := ⟨S32x512x512, .f32⟩) main_v36) (TRef.of (T := ⟨S32x512x512, .f32⟩) main_call1_v0) (TRef.of (T := ⟨S32x512x512, .f32⟩) main_v37) maximumf,
    unary main_arg7 main_v38 ((extractStridedSlice S1x1024x512 ![0, 0, 0] · slices_S2x1024x512_S1x1024x512_0_0_0) : (⟨S2x1024x512, .f32⟩ : BufTy).Contents (Elt F) → (⟨S1x1024x512, .f32⟩ : BufTy).Contents (Elt F)),
    reshape main_v38 main_v39 rfl shapeCasts_S1x1024x512_S1024x512,
    binary main_v32 main_v39 main_v40 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_arg8 main_v41 ((extractStridedSlice S1x1024 ![0, 0] · slices_S2x1024_S1x1024_0_0) : (⟨S2x1024, .f32⟩ : BufTy).Contents (Elt F) → (⟨S1x1024, .f32⟩ : BufTy).Contents (Elt F)),
    reshape main_v41 main_v42 rfl shapeCasts_S1x1024_S1024,
    unary main_v42 main_v43 (broadcastInDim S1x1x1024 ![2] bcast_S1024_S1x1x1024_2 : (⟨S1024, .f32⟩ : BufTy).Contents (Elt F) → (⟨S1x1x1024, .f32⟩ : BufTy).Contents (Elt F)),
    unary main_v43 main_v44 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v40 main_v44 main_v45 (addf : (⟨S32x512x1024, .f32⟩ : BufTy).Contents (Elt F) → (⟨S32x512x1024, .f32⟩ : BufTy).Contents (Elt F) → (⟨S32x512x1024, .f32⟩ : BufTy).Contents (Elt F)),
    unary main_v45 main_v46 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32x512x512, .f32⟩) main_call2_v0) (broadcastInDim S32x512x512 ![] bcast_S_S32x512x512),
    TRef.binary (TRef.of (T := ⟨S32x512x512, .f32⟩) main_v46) (TRef.of (T := ⟨S32x512x512, .f32⟩) main_call2_v0) (TRef.of (T := ⟨S32x512x512, .f32⟩) main_v47) maximumf,
    unary main_v45 main_v48 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v48 main_v49 (Host.negf : (⟨S32x512x512, .f32⟩ : BufTy).Contents (Elt F) → (⟨S32x512x512, .f32⟩ : BufTy).Contents (Elt F)),
    unary main_v49 main_v50 (Host.exp : (⟨S32x512x512, .f32⟩ : BufTy).Contents (Elt F) → (⟨S32x512x512, .f32⟩ : BufTy).Contents (Elt F)),
    nullary main_cst (constant S_ .f32 0x3F800000#32),
    unary main_cst main_v51 (broadcastInDim S32x512x512 ![] bcast_S_S32x512x512 : (⟨S_, .f32⟩ : BufTy).Contents (Elt F) → (⟨S32x512x512, .f32⟩ : BufTy).Contents (Elt F)),
    binary main_v51 main_v50 main_v52 (addf : (⟨S32x512x512, .f32⟩ : BufTy).Contents (Elt F) → (⟨S32x512x512, .f32⟩ : BufTy).Contents (Elt F) → (⟨S32x512x512, .f32⟩ : BufTy).Contents (Elt F)),
    nullary main_cst_4 (constant S_ .f32 0x3F800000#32),
    unary main_cst_4 main_v53 (broadcastInDim S32x512x512 ![] bcast_S_S32x512x512 : (⟨S_, .f32⟩ : BufTy).Contents (Elt F) → (⟨S32x512x512, .f32⟩ : BufTy).Contents (Elt F)),
    binary main_v53 main_v52 main_v54 (Host.divf : (⟨S32x512x512, .f32⟩ : BufTy).Contents (Elt F) → (⟨S32x512x512, .f32⟩ : BufTy).Contents (Elt F) → (⟨S32x512x512, .f32⟩ : BufTy).Contents (Elt F)),
    binary main_v54 main_v32 main_v55 (mulf : (⟨S32x512x512, .f32⟩ : BufTy).Contents (Elt F) → (⟨S32x512x512, .f32⟩ : BufTy).Contents (Elt F) → (⟨S32x512x512, .f32⟩ : BufTy).Contents (Elt F)),
    nullary main_cst_5 (constant S_ .f32 0x3F800000#32),
    unary main_cst_5 main_v56 (broadcastInDim S32x512x512 ![] bcast_S_S32x512x512 : (⟨S_, .f32⟩ : BufTy).Contents (Elt F) → (⟨S32x512x512, .f32⟩ : BufTy).Contents (Elt F)),
    binary main_v56 main_v54 main_v57 (subf : (⟨S32x512x512, .f32⟩ : BufTy).Contents (Elt F) → (⟨S32x512x512, .f32⟩ : BufTy).Contents (Elt F) → (⟨S32x512x512, .f32⟩ : BufTy).Contents (Elt F)),
    binary main_v57 main_v47 main_v58 (mulf : (⟨S32x512x512, .f32⟩ : BufTy).Contents (Elt F) → (⟨S32x512x512, .f32⟩ : BufTy).Contents (Elt F) → (⟨S32x512x512, .f32⟩ : BufTy).Contents (Elt F)),
    binary main_v55 main_v58 main_v59 (addf : (⟨S32x512x512, .f32⟩ : BufTy).Contents (Elt F) → (⟨S32x512x512, .f32⟩ : BufTy).Contents (Elt F) → (⟨S32x512x512, .f32⟩ : BufTy).Contents (Elt F)),
    unary main_arg7 main_v60 ((extractStridedSlice S1x1024x512 ![1, 0, 0] · slices_S2x1024x512_S1x1024x512_1_0_0) : (⟨S2x1024x512, .f32⟩ : BufTy).Contents (Elt F) → (⟨S1x1024x512, .f32⟩ : BufTy).Contents (Elt F)),
    reshape main_v60 main_v61 rfl shapeCasts_S1x1024x512_S1024x512,
    binary main_v59 main_v61 main_v62 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_arg8 main_v63 ((extractStridedSlice S1x1024 ![1, 0] · slices_S2x1024_S1x1024_1_0) : (⟨S2x1024, .f32⟩ : BufTy).Contents (Elt F) → (⟨S1x1024, .f32⟩ : BufTy).Contents (Elt F)),
    reshape main_v63 main_v64 rfl shapeCasts_S1x1024_S1024,
    unary main_v64 main_v65 (broadcastInDim S1x1x1024 ![2] bcast_S1024_S1x1x1024_2 : (⟨S1024, .f32⟩ : BufTy).Contents (Elt F) → (⟨S1x1x1024, .f32⟩ : BufTy).Contents (Elt F)),
    unary main_v65 main_v66 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v62 main_v66 main_v67 (addf : (⟨S32x512x1024, .f32⟩ : BufTy).Contents (Elt F) → (⟨S32x512x1024, .f32⟩ : BufTy).Contents (Elt F) → (⟨S32x512x1024, .f32⟩ : BufTy).Contents (Elt F)),
    unary main_v67 main_v68 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32x512x512, .f32⟩) main_call3_v0) (broadcastInDim S32x512x512 ![] bcast_S_S32x512x512),
    TRef.binary (TRef.of (T := ⟨S32x512x512, .f32⟩) main_v68) (TRef.of (T := ⟨S32x512x512, .f32⟩) main_call3_v0) (TRef.of (T := ⟨S32x512x512, .f32⟩) main_v69) maximumf,
    unary main_v67 main_v70 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v70 main_v71 (Host.negf : (⟨S32x512x512, .f32⟩ : BufTy).Contents (Elt F) → (⟨S32x512x512, .f32⟩ : BufTy).Contents (Elt F)),
    unary main_v71 main_v72 (Host.exp : (⟨S32x512x512, .f32⟩ : BufTy).Contents (Elt F) → (⟨S32x512x512, .f32⟩ : BufTy).Contents (Elt F)),
    nullary main_cst_6 (constant S_ .f32 0x3F800000#32),
    unary main_cst_6 main_v73 (broadcastInDim S32x512x512 ![] bcast_S_S32x512x512 : (⟨S_, .f32⟩ : BufTy).Contents (Elt F) → (⟨S32x512x512, .f32⟩ : BufTy).Contents (Elt F)),
    binary main_v73 main_v72 main_v74 (addf : (⟨S32x512x512, .f32⟩ : BufTy).Contents (Elt F) → (⟨S32x512x512, .f32⟩ : BufTy).Contents (Elt F) → (⟨S32x512x512, .f32⟩ : BufTy).Contents (Elt F)),
    nullary main_cst_7 (constant S_ .f32 0x3F800000#32),
    unary main_cst_7 main_v75 (broadcastInDim S32x512x512 ![] bcast_S_S32x512x512 : (⟨S_, .f32⟩ : BufTy).Contents (Elt F) → (⟨S32x512x512, .f32⟩ : BufTy).Contents (Elt F)),
    binary main_v75 main_v74 main_v76 (Host.divf : (⟨S32x512x512, .f32⟩ : BufTy).Contents (Elt F) → (⟨S32x512x512, .f32⟩ : BufTy).Contents (Elt F) → (⟨S32x512x512, .f32⟩ : BufTy).Contents (Elt F)),
    binary main_v76 main_v59 main_v77 (mulf : (⟨S32x512x512, .f32⟩ : BufTy).Contents (Elt F) → (⟨S32x512x512, .f32⟩ : BufTy).Contents (Elt F) → (⟨S32x512x512, .f32⟩ : BufTy).Contents (Elt F)),
    nullary main_cst_8 (constant S_ .f32 0x3F800000#32),
    unary main_cst_8 main_v78 (broadcastInDim S32x512x512 ![] bcast_S_S32x512x512 : (⟨S_, .f32⟩ : BufTy).Contents (Elt F) → (⟨S32x512x512, .f32⟩ : BufTy).Contents (Elt F)),
    binary main_v78 main_v76 main_v79 (subf : (⟨S32x512x512, .f32⟩ : BufTy).Contents (Elt F) → (⟨S32x512x512, .f32⟩ : BufTy).Contents (Elt F) → (⟨S32x512x512, .f32⟩ : BufTy).Contents (Elt F)),
    binary main_v79 main_v69 main_v80 (mulf : (⟨S32x512x512, .f32⟩ : BufTy).Contents (Elt F) → (⟨S32x512x512, .f32⟩ : BufTy).Contents (Elt F) → (⟨S32x512x512, .f32⟩ : BufTy).Contents (Elt F)),
    binary main_v77 main_v80 main_v81 (addf : (⟨S32x512x512, .f32⟩ : BufTy).Contents (Elt F) → (⟨S32x512x512, .f32⟩ : BufTy).Contents (Elt F) → (⟨S32x512x512, .f32⟩ : BufTy).Contents (Elt F)),
    unary main_arg9 main_v82 ((extractStridedSlice S1x1024x512 ![0, 0, 0] · slices_S2x1024x512_S1x1024x512_0_0_0) : (⟨S2x1024x512, .f32⟩ : BufTy).Contents (Elt F) → (⟨S1x1024x512, .f32⟩ : BufTy).Contents (Elt F)),
    reshape main_v82 main_v83 rfl shapeCasts_S1x1024x512_S1024x512,
    binary main_v37 main_v83 main_v84 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_arg10 main_v85 ((extractStridedSlice S1x1024 ![0, 0] · slices_S2x1024_S1x1024_0_0) : (⟨S2x1024, .f32⟩ : BufTy).Contents (Elt F) → (⟨S1x1024, .f32⟩ : BufTy).Contents (Elt F)),
    reshape main_v85 main_v86 rfl shapeCasts_S1x1024_S1024,
    unary main_v86 main_v87 (broadcastInDim S1x1x1024 ![2] bcast_S1024_S1x1x1024_2 : (⟨S1024, .f32⟩ : BufTy).Contents (Elt F) → (⟨S1x1x1024, .f32⟩ : BufTy).Contents (Elt F)),
    unary main_v87 main_v88 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v84 main_v88 main_v89 (addf : (⟨S32x512x1024, .f32⟩ : BufTy).Contents (Elt F) → (⟨S32x512x1024, .f32⟩ : BufTy).Contents (Elt F) → (⟨S32x512x1024, .f32⟩ : BufTy).Contents (Elt F)),
    unary main_v89 main_v90 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32x512x512, .f32⟩) main_call4_v0) (broadcastInDim S32x512x512 ![] bcast_S_S32x512x512),
    TRef.binary (TRef.of (T := ⟨S32x512x512, .f32⟩) main_v90) (TRef.of (T := ⟨S32x512x512, .f32⟩) main_call4_v0) (TRef.of (T := ⟨S32x512x512, .f32⟩) main_v91) maximumf,
    unary main_v89 main_v92 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v92 main_v93 (Host.negf : (⟨S32x512x512, .f32⟩ : BufTy).Contents (Elt F) → (⟨S32x512x512, .f32⟩ : BufTy).Contents (Elt F)),
    unary main_v93 main_v94 (Host.exp : (⟨S32x512x512, .f32⟩ : BufTy).Contents (Elt F) → (⟨S32x512x512, .f32⟩ : BufTy).Contents (Elt F)),
    nullary main_cst_9 (constant S_ .f32 0x3F800000#32),
    unary main_cst_9 main_v95 (broadcastInDim S32x512x512 ![] bcast_S_S32x512x512 : (⟨S_, .f32⟩ : BufTy).Contents (Elt F) → (⟨S32x512x512, .f32⟩ : BufTy).Contents (Elt F)),
    binary main_v95 main_v94 main_v96 (addf : (⟨S32x512x512, .f32⟩ : BufTy).Contents (Elt F) → (⟨S32x512x512, .f32⟩ : BufTy).Contents (Elt F) → (⟨S32x512x512, .f32⟩ : BufTy).Contents (Elt F)),
    nullary main_cst_10 (constant S_ .f32 0x3F800000#32),
    unary main_cst_10 main_v97 (broadcastInDim S32x512x512 ![] bcast_S_S32x512x512 : (⟨S_, .f32⟩ : BufTy).Contents (Elt F) → (⟨S32x512x512, .f32⟩ : BufTy).Contents (Elt F)),
    binary main_v97 main_v96 main_v98 (Host.divf : (⟨S32x512x512, .f32⟩ : BufTy).Contents (Elt F) → (⟨S32x512x512, .f32⟩ : BufTy).Contents (Elt F) → (⟨S32x512x512, .f32⟩ : BufTy).Contents (Elt F)),
    binary main_v98 main_v37 main_v99 (mulf : (⟨S32x512x512, .f32⟩ : BufTy).Contents (Elt F) → (⟨S32x512x512, .f32⟩ : BufTy).Contents (Elt F) → (⟨S32x512x512, .f32⟩ : BufTy).Contents (Elt F)),
    nullary main_cst_11 (constant S_ .f32 0x3F800000#32),
    unary main_cst_11 main_v100 (broadcastInDim S32x512x512 ![] bcast_S_S32x512x512 : (⟨S_, .f32⟩ : BufTy).Contents (Elt F) → (⟨S32x512x512, .f32⟩ : BufTy).Contents (Elt F)),
    binary main_v100 main_v98 main_v101 (subf : (⟨S32x512x512, .f32⟩ : BufTy).Contents (Elt F) → (⟨S32x512x512, .f32⟩ : BufTy).Contents (Elt F) → (⟨S32x512x512, .f32⟩ : BufTy).Contents (Elt F)),
    binary main_v101 main_v91 main_v102 (mulf : (⟨S32x512x512, .f32⟩ : BufTy).Contents (Elt F) → (⟨S32x512x512, .f32⟩ : BufTy).Contents (Elt F) → (⟨S32x512x512, .f32⟩ : BufTy).Contents (Elt F)),
    binary main_v99 main_v102 main_v103 (addf : (⟨S32x512x512, .f32⟩ : BufTy).Contents (Elt F) → (⟨S32x512x512, .f32⟩ : BufTy).Contents (Elt F) → (⟨S32x512x512, .f32⟩ : BufTy).Contents (Elt F)),
    unary main_arg9 main_v104 ((extractStridedSlice S1x1024x512 ![1, 0, 0] · slices_S2x1024x512_S1x1024x512_1_0_0) : (⟨S2x1024x512, .f32⟩ : BufTy).Contents (Elt F) → (⟨S1x1024x512, .f32⟩ : BufTy).Contents (Elt F)),
    reshape main_v104 main_v105 rfl shapeCasts_S1x1024x512_S1024x512,
    binary main_v103 main_v105 main_v106 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_arg10 main_v107 ((extractStridedSlice S1x1024 ![1, 0] · slices_S2x1024_S1x1024_1_0) : (⟨S2x1024, .f32⟩ : BufTy).Contents (Elt F) → (⟨S1x1024, .f32⟩ : BufTy).Contents (Elt F)),
    reshape main_v107 main_v108 rfl shapeCasts_S1x1024_S1024,
    unary main_v108 main_v109 (broadcastInDim S1x1x1024 ![2] bcast_S1024_S1x1x1024_2 : (⟨S1024, .f32⟩ : BufTy).Contents (Elt F) → (⟨S1x1x1024, .f32⟩ : BufTy).Contents (Elt F)),
    unary main_v109 main_v110 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v106 main_v110 main_v111 (addf : (⟨S32x512x1024, .f32⟩ : BufTy).Contents (Elt F) → (⟨S32x512x1024, .f32⟩ : BufTy).Contents (Elt F) → (⟨S32x512x1024, .f32⟩ : BufTy).Contents (Elt F)),
    unary main_v111 main_v112 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S32x512x512, .f32⟩) main_call5_v0) (broadcastInDim S32x512x512 ![] bcast_S_S32x512x512),
    TRef.binary (TRef.of (T := ⟨S32x512x512, .f32⟩) main_v112) (TRef.of (T := ⟨S32x512x512, .f32⟩) main_call5_v0) (TRef.of (T := ⟨S32x512x512, .f32⟩) main_v113) maximumf,
    unary main_v111 main_v114 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v114 main_v115 (Host.negf : (⟨S32x512x512, .f32⟩ : BufTy).Contents (Elt F) → (⟨S32x512x512, .f32⟩ : BufTy).Contents (Elt F)),
    unary main_v115 main_v116 (Host.exp : (⟨S32x512x512, .f32⟩ : BufTy).Contents (Elt F) → (⟨S32x512x512, .f32⟩ : BufTy).Contents (Elt F)),
    nullary main_cst_12 (constant S_ .f32 0x3F800000#32),
    unary main_cst_12 main_v117 (broadcastInDim S32x512x512 ![] bcast_S_S32x512x512 : (⟨S_, .f32⟩ : BufTy).Contents (Elt F) → (⟨S32x512x512, .f32⟩ : BufTy).Contents (Elt F)),
    binary main_v117 main_v116 main_v118 (addf : (⟨S32x512x512, .f32⟩ : BufTy).Contents (Elt F) → (⟨S32x512x512, .f32⟩ : BufTy).Contents (Elt F) → (⟨S32x512x512, .f32⟩ : BufTy).Contents (Elt F)),
    nullary main_cst_13 (constant S_ .f32 0x3F800000#32),
    unary main_cst_13 main_v119 (broadcastInDim S32x512x512 ![] bcast_S_S32x512x512 : (⟨S_, .f32⟩ : BufTy).Contents (Elt F) → (⟨S32x512x512, .f32⟩ : BufTy).Contents (Elt F)),
    binary main_v119 main_v118 main_v120 (Host.divf : (⟨S32x512x512, .f32⟩ : BufTy).Contents (Elt F) → (⟨S32x512x512, .f32⟩ : BufTy).Contents (Elt F) → (⟨S32x512x512, .f32⟩ : BufTy).Contents (Elt F)),
    binary main_v120 main_v103 main_v121 (mulf : (⟨S32x512x512, .f32⟩ : BufTy).Contents (Elt F) → (⟨S32x512x512, .f32⟩ : BufTy).Contents (Elt F) → (⟨S32x512x512, .f32⟩ : BufTy).Contents (Elt F)),
    nullary main_cst_14 (constant S_ .f32 0x3F800000#32),
    unary main_cst_14 main_v122 (broadcastInDim S32x512x512 ![] bcast_S_S32x512x512 : (⟨S_, .f32⟩ : BufTy).Contents (Elt F) → (⟨S32x512x512, .f32⟩ : BufTy).Contents (Elt F)),
    binary main_v122 main_v120 main_v123 (subf : (⟨S32x512x512, .f32⟩ : BufTy).Contents (Elt F) → (⟨S32x512x512, .f32⟩ : BufTy).Contents (Elt F) → (⟨S32x512x512, .f32⟩ : BufTy).Contents (Elt F)),
    binary main_v123 main_v113 main_v124 (mulf : (⟨S32x512x512, .f32⟩ : BufTy).Contents (Elt F) → (⟨S32x512x512, .f32⟩ : BufTy).Contents (Elt F) → (⟨S32x512x512, .f32⟩ : BufTy).Contents (Elt F)),
    binary main_v121 main_v124 main_v125 (addf : (⟨S32x512x512, .f32⟩ : BufTy).Contents (Elt F) → (⟨S32x512x512, .f32⟩ : BufTy).Contents (Elt F) → (⟨S32x512x512, .f32⟩ : BufTy).Contents (Elt F)),
    binary main_v81 main_v125 main_v126 ((fun a b => concatenate S32x512x1024 2 [⟨S32x512x512, a⟩, ⟨S32x512x512, b⟩] concatenates_S32x512x512_S32x512x512_S32x512x1024_d2) : (⟨S32x512x512, .f32⟩ : BufTy).Contents (Elt F) → (⟨S32x512x512, .f32⟩ : BufTy).Contents (Elt F) → (⟨S32x512x1024, .f32⟩ : BufTy).Contents (Elt F)),
    unary main_v126 main_v127 (broadcastInDim S1x32x512x1024 ![1, 2, 3] bcast_S32x512x1024_S1x32x512x1024_1_2_3 : (⟨S32x512x1024, .f32⟩ : BufTy).Contents (Elt F) → (⟨S1x32x512x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., nary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., unary_bufs_sub ..⟩

/-- Stretch A of the operation list. -/
abbrev opsA : List (HloOp τ sig (Elt F)) :=
  [unary main_arg1 main_v0 (broadcastInDim S32x2x512 ![1, 2] bcast_S2x512_S32x2x512_1_2 : (⟨S2x512, .f32⟩ : BufTy).Contents (Elt F) → (⟨S32x2x512, .f32⟩ : BufTy).Contents (Elt F)),
    unary main_arg2 main_v1 (broadcastInDim S32x2x512 ![1, 2] bcast_S2x512_S32x2x512_1_2 : (⟨S2x512, .f32⟩ : BufTy).Contents (Elt F) → (⟨S32x2x512, .f32⟩ : BufTy).Contents (Elt F)),
    nary ![main_v0, main_arg0, main_v1] main_v2 (fun u => concatenate S32x516x512 1 [⟨S32x2x512, u 0⟩, ⟨S32x512x512, u 1⟩, ⟨S32x2x512, u 2⟩] concatenates_S32x2x512_S32x512x512_S32x2x512_S32x516x512_d1) ]
/-- The buffers stretch A writes. -/
abbrev opsA_W : List (Ref sig .tc) := [main_v0, main_v1, main_v2]

/-- Stretch B of the operation list. -/
abbrev opsB : List (HloOp τ sig (Elt F)) :=
  [nullary main_v3 (iotaInDim S512 32 0),
    unary main_v3 main_v4 (broadcastInDim S512x1 ![0] bcast_S512_S512x1_0 : (⟨S512, .i32⟩ : BufTy).Contents (Elt F) → (⟨S512x1, .i32⟩ : BufTy).Contents (Elt F)),
    nullary main_v5 (iotaInDim S3 32 0),
    unary main_v5 main_v6 (broadcastInDim S1x3 ![1] bcast_S3_S1x3_1 : (⟨S3, .i32⟩ : BufTy).Contents (Elt F) → (⟨S1x3, .i32⟩ : BufTy).Contents (Elt F)),
    unary main_v4 main_v7 (broadcastInDim S512x3 ![0, 1] bcast_S512x1_S512x3_0_1 : (⟨S512x1, .i32⟩ : BufTy).Contents (Elt F) → (⟨S512x3, .i32⟩ : BufTy).Contents (Elt F)),
    unary main_v6 main_v8 (broadcastInDim S512x3 ![0, 1] bcast_S1x3_S512x3_0_1 : (⟨S1x3, .i32⟩ : BufTy).Contents (Elt F) → (⟨S512x3, .i32⟩ : BufTy).Contents (Elt F)),
    binary main_v7 main_v8 main_v9 (addi : (⟨S512x3, .i32⟩ : BufTy).Contents (Elt F) → (⟨S512x3, .i32⟩ : BufTy).Contents (Elt F) → (⟨S512x3, .i32⟩ : BufTy).Contents (Elt F)),
    nullary main_c (constantI S_ 32 0#32),
    unary main_c main_v10 (broadcastInDim S512x3 ![] bcast_S_S512x3 : (⟨S_, .i32⟩ : BufTy).Contents (Elt F) → (⟨S512x3, .i32⟩ : BufTy).Contents (Elt F)),
    binary main_v9 main_v10 main_v11 (cmpi .slt : (⟨S512x3, .i32⟩ : BufTy).Contents (Elt F) → (⟨S512x3, .i32⟩ : BufTy).Contents (Elt F) → (⟨S512x3, .i1⟩ : BufTy).Contents (Elt F)),
    nullary main_c_0 (constantI S_ 32 516#32),
    unary main_c_0 main_v12 (broadcastInDim S512x3 ![] bcast_S_S512x3 : (⟨S_, .i32⟩ : BufTy).Contents (Elt F) → (⟨S512x3, .i32⟩ : BufTy).Contents (Elt F)),
    binary main_v9 main_v12 main_v13 (addi : (⟨S512x3, .i32⟩ : BufTy).Contents (Elt F) → (⟨S512x3, .i32⟩ : BufTy).Contents (Elt F) → (⟨S512x3, .i32⟩ : BufTy).Contents (Elt F)),
    ternary main_v11 main_v13 main_v9 main_v14 (select : (⟨S512x3, .i1⟩ : BufTy).Contents (Elt F) → (⟨S512x3, .i32⟩ : BufTy).Contents (Elt F) → (⟨S512x3, .i32⟩ : BufTy).Contents (Elt F) → (⟨S512x3, .i32⟩ : BufTy).Contents (Elt F)),
    unary main_v14 main_v15 (broadcastInDim S512x3x1 ![0, 1] bcast_S512x3_S512x3x1_0_1 : (⟨S512x3, .i32⟩ : BufTy).Contents (Elt F) → (⟨S512x3x1, .i32⟩ : BufTy).Contents (Elt F)),
    binary main_v2 main_v15 main_v16 ((fun x i => Host.gather gather_S32x516x512_S512x3x1_S32x512x3x512_03_1_n_n_1_2_321512 x i) : (⟨S32x516x512, .f32⟩ : BufTy).Contents (Elt F) → (⟨S512x3x1, .i32⟩ : BufTy).Contents (Elt F) → (⟨S32x512x3x512, .f32⟩ : BufTy).Contents (Elt F)),
    reshape main_v16 main_v17 rfl shapeCasts_S32x512x3x512_S32x512x1536,
    nullary main_c_1 (constantI S_ 32 2#32),
    unary main_c_1 main_v18 (broadcastInDim S512x3 ![] bcast_S_S512x3 : (⟨S_, .i32⟩ : BufTy).Contents (Elt F) → (⟨S512x3, .i32⟩ : BufTy).Contents (Elt F)),
    binary main_v9 main_v18 main_v19 (addi : (⟨S512x3, .i32⟩ : BufTy).Contents (Elt F) → (⟨S512x3, .i32⟩ : BufTy).Contents (Elt F) → (⟨S512x3, .i32⟩ : BufTy).Contents (Elt F)),
    nullary main_c_2 (constantI S_ 32 0#32),
    unary main_c_2 main_v20 (broadcastInDim S512x3 ![] bcast_S_S512x3 : (⟨S_, .i32⟩ : BufTy).Contents (Elt F) → (⟨S512x3, .i32⟩ : BufTy).Contents (Elt F)),
    binary main_v19 main_v20 main_v21 (cmpi .slt : (⟨S512x3, .i32⟩ : BufTy).Contents (Elt F) → (⟨S512x3, .i32⟩ : BufTy).Contents (Elt F) → (⟨S512x3, .i1⟩ : BufTy).Contents (Elt F)),
    nullary main_c_3 (constantI S_ 32 516#32),
    unary main_c_3 main_v22 (broadcastInDim S512x3 ![] bcast_S_S512x3 : (⟨S_, .i32⟩ : BufTy).Contents (Elt F) → (⟨S512x3, .i32⟩ : BufTy).Contents (Elt F)),
    binary main_v19 main_v22 main_v23 (addi : (⟨S512x3, .i32⟩ : BufTy).Contents (Elt F) → (⟨S512x3, .i32⟩ : BufTy).Contents (Elt F) → (⟨S512x3, .i32⟩ : BufTy).Contents (Elt F)),
    ternary main_v21 main_v23 main_v19 main_v24 (select : (⟨S512x3, .i1⟩ : BufTy).Contents (Elt F) → (⟨S512x3, .i32⟩ : BufTy).Contents (Elt F) → (⟨S512x3, .i32⟩ : BufTy).Contents (Elt F) → (⟨S512x3, .i32⟩ : BufTy).Contents (Elt F)),
    unary main_v24 main_v25 (broadcastInDim S512x3x1 ![0, 1] bcast_S512x3_S512x3x1_0_1 : (⟨S512x3, .i32⟩ : BufTy).Contents (Elt F) → (⟨S512x3x1, .i32⟩ : BufTy).Contents (Elt F)),
    binary main_v2 main_v25 main_v26 ((fun x i => Host.gather gather_S32x516x512_S512x3x1_S32x512x3x512_03_1_n_n_1_2_321512 x i) : (⟨S32x516x512, .f32⟩ : BufTy).Contents (Elt F) → (⟨S512x3x1, .i32⟩ : BufTy).Contents (Elt F) → (⟨S32x512x3x512, .f32⟩ : BufTy).Contents (Elt F)),
    reshape main_v26 main_v27 rfl shapeCasts_S32x512x3x512_S32x512x1536 ]
/-- The buffers stretch B writes. -/
abbrev opsB_W : List (Ref sig .tc) := [main_v3, main_v4, main_v5, main_v6, main_v7, main_v8, main_v9, main_c, main_v10, main_v11, main_c_0, main_v12, main_v13, main_v14, main_v15, main_v16, main_v17, main_c_1, main_v18, main_v19, main_c_2, main_v20, main_v21, main_c_3, main_v22, main_v23, main_v24, main_v25, main_v26, main_v27]

/-- Stretch C of the operation list. -/
abbrev opsC : List (HloOp τ sig (Elt F)) :=
  [binary main_v17 main_arg3 main_v28 ((fun l r => Host.dotGeneral dot_S32x512x1536_S512x1536_S32x512x512_2_1_01_0_n_n none l r) : (⟨S32x512x1536, .f32⟩ : BufTy).Contents (Elt F) → (⟨S512x1536, .f32⟩ : BufTy).Contents (Elt F) → (⟨S32x512x512, .f32⟩ : BufTy).Contents (Elt F)),
    unary main_arg4 main_v29 (broadcastInDim S1x1x512 ![2] bcast_S512_S1x1x512_2 : (⟨S512, .f32⟩ : BufTy).Contents (Elt F) → (⟨S1x1x512, .f32⟩ : BufTy).Contents (Elt F)),
    unary main_v29 main_v30 (broadcastInDim S32x512x512 ![0, 1, 2] bcast_S1x1x512_S32x512x512_0_1_2 : (⟨S1x1x512, .f32⟩ : BufTy).Contents (Elt F) → (⟨S32x512x512, .f32⟩ : BufTy).Contents (Elt F)),
    binary main_v28 main_v30 main_v31 (addf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32x512x512, .f32⟩) main_call0_v0) (broadcastInDim S32x512x512 ![] bcast_S_S32x512x512),
    TRef.binary (TRef.of (T := ⟨S32x512x512, .f32⟩) main_v31) (TRef.of (T := ⟨S32x512x512, .f32⟩) main_call0_v0) (TRef.of (T := ⟨S32x512x512, .f32⟩) main_v32) maximumf,
    binary main_v27 main_arg5 main_v33 ((fun l r => Host.dotGeneral dot_S32x512x1536_S512x1536_S32x512x512_2_1_01_0_n_n none l r) : (⟨S32x512x1536, .f32⟩ : BufTy).Contents (Elt F) → (⟨S512x1536, .f32⟩ : BufTy).Contents (Elt F) → (⟨S32x512x512, .f32⟩ : BufTy).Contents (Elt F)),
    unary main_arg6 main_v34 (broadcastInDim S1x1x512 ![2] bcast_S512_S1x1x512_2 : (⟨S512, .f32⟩ : BufTy).Contents (Elt F) → (⟨S1x1x512, .f32⟩ : BufTy).Contents (Elt F)),
    unary main_v34 main_v35 (broadcastInDim S32x512x512 ![0, 1, 2] bcast_S1x1x512_S32x512x512_0_1_2 : (⟨S1x1x512, .f32⟩ : BufTy).Contents (Elt F) → (⟨S32x512x512, .f32⟩ : BufTy).Contents (Elt F)),
    binary main_v33 main_v35 main_v36 (addf : (⟨S32x512x512, .f32⟩ : BufTy).Contents (Elt F) → (⟨S32x512x512, .f32⟩ : BufTy).Contents (Elt F) → (⟨S32x512x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32x512x512, .f32⟩) main_call1_v0) (broadcastInDim S32x512x512 ![] bcast_S_S32x512x512),
    TRef.binary (TRef.of (T := ⟨S32x512x512, .f32⟩) main_v36) (TRef.of (T := ⟨S32x512x512, .f32⟩) main_call1_v0) (TRef.of (T := ⟨S32x512x512, .f32⟩) main_v37) maximumf ]
/-- The buffers stretch C writes. -/
abbrev opsC_W : List (Ref sig .tc) := [main_v28, main_v29, main_v30, main_v31, main_call0_cst, main_call0_v0, main_v32, main_v33, main_v34, main_v35, main_v36, main_call1_cst, main_call1_v0, main_v37]

/-- Stretch L1 of the operation list. -/
abbrev opsL1 : List (HloOp τ sig (Elt F)) :=
  [unary main_arg7 main_v38 ((extractStridedSlice S1x1024x512 ![0, 0, 0] · slices_S2x1024x512_S1x1024x512_0_0_0) : (⟨S2x1024x512, .f32⟩ : BufTy).Contents (Elt F) → (⟨S1x1024x512, .f32⟩ : BufTy).Contents (Elt F)),
    reshape main_v38 main_v39 rfl shapeCasts_S1x1024x512_S1024x512,
    binary main_v32 main_v39 main_v40 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_arg8 main_v41 ((extractStridedSlice S1x1024 ![0, 0] · slices_S2x1024_S1x1024_0_0) : (⟨S2x1024, .f32⟩ : BufTy).Contents (Elt F) → (⟨S1x1024, .f32⟩ : BufTy).Contents (Elt F)),
    reshape main_v41 main_v42 rfl shapeCasts_S1x1024_S1024,
    unary main_v42 main_v43 (broadcastInDim S1x1x1024 ![2] bcast_S1024_S1x1x1024_2 : (⟨S1024, .f32⟩ : BufTy).Contents (Elt F) → (⟨S1x1x1024, .f32⟩ : BufTy).Contents (Elt F)),
    unary main_v43 main_v44 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v40 main_v44 main_v45 (addf : (⟨S32x512x1024, .f32⟩ : BufTy).Contents (Elt F) → (⟨S32x512x1024, .f32⟩ : BufTy).Contents (Elt F) → (⟨S32x512x1024, .f32⟩ : BufTy).Contents (Elt F)),
    unary main_v45 main_v46 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32x512x512, .f32⟩) main_call2_v0) (broadcastInDim S32x512x512 ![] bcast_S_S32x512x512),
    TRef.binary (TRef.of (T := ⟨S32x512x512, .f32⟩) main_v46) (TRef.of (T := ⟨S32x512x512, .f32⟩) main_call2_v0) (TRef.of (T := ⟨S32x512x512, .f32⟩) main_v47) maximumf,
    unary main_v45 main_v48 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v48 main_v49 (Host.negf : (⟨S32x512x512, .f32⟩ : BufTy).Contents (Elt F) → (⟨S32x512x512, .f32⟩ : BufTy).Contents (Elt F)),
    unary main_v49 main_v50 (Host.exp : (⟨S32x512x512, .f32⟩ : BufTy).Contents (Elt F) → (⟨S32x512x512, .f32⟩ : BufTy).Contents (Elt F)),
    nullary main_cst (constant S_ .f32 0x3F800000#32),
    unary main_cst main_v51 (broadcastInDim S32x512x512 ![] bcast_S_S32x512x512 : (⟨S_, .f32⟩ : BufTy).Contents (Elt F) → (⟨S32x512x512, .f32⟩ : BufTy).Contents (Elt F)),
    binary main_v51 main_v50 main_v52 (addf : (⟨S32x512x512, .f32⟩ : BufTy).Contents (Elt F) → (⟨S32x512x512, .f32⟩ : BufTy).Contents (Elt F) → (⟨S32x512x512, .f32⟩ : BufTy).Contents (Elt F)),
    nullary main_cst_4 (constant S_ .f32 0x3F800000#32),
    unary main_cst_4 main_v53 (broadcastInDim S32x512x512 ![] bcast_S_S32x512x512 : (⟨S_, .f32⟩ : BufTy).Contents (Elt F) → (⟨S32x512x512, .f32⟩ : BufTy).Contents (Elt F)),
    binary main_v53 main_v52 main_v54 (Host.divf : (⟨S32x512x512, .f32⟩ : BufTy).Contents (Elt F) → (⟨S32x512x512, .f32⟩ : BufTy).Contents (Elt F) → (⟨S32x512x512, .f32⟩ : BufTy).Contents (Elt F)),
    binary main_v54 main_v32 main_v55 (mulf : (⟨S32x512x512, .f32⟩ : BufTy).Contents (Elt F) → (⟨S32x512x512, .f32⟩ : BufTy).Contents (Elt F) → (⟨S32x512x512, .f32⟩ : BufTy).Contents (Elt F)),
    nullary main_cst_5 (constant S_ .f32 0x3F800000#32),
    unary main_cst_5 main_v56 (broadcastInDim S32x512x512 ![] bcast_S_S32x512x512 : (⟨S_, .f32⟩ : BufTy).Contents (Elt F) → (⟨S32x512x512, .f32⟩ : BufTy).Contents (Elt F)),
    binary main_v56 main_v54 main_v57 (subf : (⟨S32x512x512, .f32⟩ : BufTy).Contents (Elt F) → (⟨S32x512x512, .f32⟩ : BufTy).Contents (Elt F) → (⟨S32x512x512, .f32⟩ : BufTy).Contents (Elt F)),
    binary main_v57 main_v47 main_v58 (mulf : (⟨S32x512x512, .f32⟩ : BufTy).Contents (Elt F) → (⟨S32x512x512, .f32⟩ : BufTy).Contents (Elt F) → (⟨S32x512x512, .f32⟩ : BufTy).Contents (Elt F)),
    binary main_v55 main_v58 main_v59 (addf : (⟨S32x512x512, .f32⟩ : BufTy).Contents (Elt F) → (⟨S32x512x512, .f32⟩ : BufTy).Contents (Elt F) → (⟨S32x512x512, .f32⟩ : BufTy).Contents (Elt F)) ]
/-- The buffers stretch L1 writes. -/
abbrev opsL1_W : List (Ref sig .tc) := [main_v38, main_v39, main_v40, main_v41, main_v42, main_v43, main_v44, main_v45, main_v46, main_call2_cst, main_call2_v0, main_v47, main_v48, main_v49, main_v50, main_cst, main_v51, main_v52, main_cst_4, main_v53, main_v54, main_v55, main_cst_5, main_v56, main_v57, main_v58, main_v59]

/-- Stretch L2 of the operation list. -/
abbrev opsL2 : List (HloOp τ sig (Elt F)) :=
  [unary main_arg7 main_v60 ((extractStridedSlice S1x1024x512 ![1, 0, 0] · slices_S2x1024x512_S1x1024x512_1_0_0) : (⟨S2x1024x512, .f32⟩ : BufTy).Contents (Elt F) → (⟨S1x1024x512, .f32⟩ : BufTy).Contents (Elt F)),
    reshape main_v60 main_v61 rfl shapeCasts_S1x1024x512_S1024x512,
    binary main_v59 main_v61 main_v62 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_arg8 main_v63 ((extractStridedSlice S1x1024 ![1, 0] · slices_S2x1024_S1x1024_1_0) : (⟨S2x1024, .f32⟩ : BufTy).Contents (Elt F) → (⟨S1x1024, .f32⟩ : BufTy).Contents (Elt F)),
    reshape main_v63 main_v64 rfl shapeCasts_S1x1024_S1024,
    unary main_v64 main_v65 (broadcastInDim S1x1x1024 ![2] bcast_S1024_S1x1x1024_2 : (⟨S1024, .f32⟩ : BufTy).Contents (Elt F) → (⟨S1x1x1024, .f32⟩ : BufTy).Contents (Elt F)),
    unary main_v65 main_v66 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v62 main_v66 main_v67 (addf : (⟨S32x512x1024, .f32⟩ : BufTy).Contents (Elt F) → (⟨S32x512x1024, .f32⟩ : BufTy).Contents (Elt F) → (⟨S32x512x1024, .f32⟩ : BufTy).Contents (Elt F)),
    unary main_v67 main_v68 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32x512x512, .f32⟩) main_call3_v0) (broadcastInDim S32x512x512 ![] bcast_S_S32x512x512),
    TRef.binary (TRef.of (T := ⟨S32x512x512, .f32⟩) main_v68) (TRef.of (T := ⟨S32x512x512, .f32⟩) main_call3_v0) (TRef.of (T := ⟨S32x512x512, .f32⟩) main_v69) maximumf,
    unary main_v67 main_v70 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v70 main_v71 (Host.negf : (⟨S32x512x512, .f32⟩ : BufTy).Contents (Elt F) → (⟨S32x512x512, .f32⟩ : BufTy).Contents (Elt F)),
    unary main_v71 main_v72 (Host.exp : (⟨S32x512x512, .f32⟩ : BufTy).Contents (Elt F) → (⟨S32x512x512, .f32⟩ : BufTy).Contents (Elt F)),
    nullary main_cst_6 (constant S_ .f32 0x3F800000#32),
    unary main_cst_6 main_v73 (broadcastInDim S32x512x512 ![] bcast_S_S32x512x512 : (⟨S_, .f32⟩ : BufTy).Contents (Elt F) → (⟨S32x512x512, .f32⟩ : BufTy).Contents (Elt F)),
    binary main_v73 main_v72 main_v74 (addf : (⟨S32x512x512, .f32⟩ : BufTy).Contents (Elt F) → (⟨S32x512x512, .f32⟩ : BufTy).Contents (Elt F) → (⟨S32x512x512, .f32⟩ : BufTy).Contents (Elt F)),
    nullary main_cst_7 (constant S_ .f32 0x3F800000#32),
    unary main_cst_7 main_v75 (broadcastInDim S32x512x512 ![] bcast_S_S32x512x512 : (⟨S_, .f32⟩ : BufTy).Contents (Elt F) → (⟨S32x512x512, .f32⟩ : BufTy).Contents (Elt F)),
    binary main_v75 main_v74 main_v76 (Host.divf : (⟨S32x512x512, .f32⟩ : BufTy).Contents (Elt F) → (⟨S32x512x512, .f32⟩ : BufTy).Contents (Elt F) → (⟨S32x512x512, .f32⟩ : BufTy).Contents (Elt F)),
    binary main_v76 main_v59 main_v77 (mulf : (⟨S32x512x512, .f32⟩ : BufTy).Contents (Elt F) → (⟨S32x512x512, .f32⟩ : BufTy).Contents (Elt F) → (⟨S32x512x512, .f32⟩ : BufTy).Contents (Elt F)),
    nullary main_cst_8 (constant S_ .f32 0x3F800000#32),
    unary main_cst_8 main_v78 (broadcastInDim S32x512x512 ![] bcast_S_S32x512x512 : (⟨S_, .f32⟩ : BufTy).Contents (Elt F) → (⟨S32x512x512, .f32⟩ : BufTy).Contents (Elt F)),
    binary main_v78 main_v76 main_v79 (subf : (⟨S32x512x512, .f32⟩ : BufTy).Contents (Elt F) → (⟨S32x512x512, .f32⟩ : BufTy).Contents (Elt F) → (⟨S32x512x512, .f32⟩ : BufTy).Contents (Elt F)),
    binary main_v79 main_v69 main_v80 (mulf : (⟨S32x512x512, .f32⟩ : BufTy).Contents (Elt F) → (⟨S32x512x512, .f32⟩ : BufTy).Contents (Elt F) → (⟨S32x512x512, .f32⟩ : BufTy).Contents (Elt F)),
    binary main_v77 main_v80 main_v81 (addf : (⟨S32x512x512, .f32⟩ : BufTy).Contents (Elt F) → (⟨S32x512x512, .f32⟩ : BufTy).Contents (Elt F) → (⟨S32x512x512, .f32⟩ : BufTy).Contents (Elt F)) ]
/-- The buffers stretch L2 writes. -/
abbrev opsL2_W : List (Ref sig .tc) := [main_v60, main_v61, main_v62, main_v63, main_v64, main_v65, main_v66, main_v67, main_v68, main_call3_cst, main_call3_v0, main_v69, main_v70, main_v71, main_v72, main_cst_6, main_v73, main_v74, main_cst_7, main_v75, main_v76, main_v77, main_cst_8, main_v78, main_v79, main_v80, main_v81]

/-- Stretch L3 of the operation list. -/
abbrev opsL3 : List (HloOp τ sig (Elt F)) :=
  [unary main_arg9 main_v82 ((extractStridedSlice S1x1024x512 ![0, 0, 0] · slices_S2x1024x512_S1x1024x512_0_0_0) : (⟨S2x1024x512, .f32⟩ : BufTy).Contents (Elt F) → (⟨S1x1024x512, .f32⟩ : BufTy).Contents (Elt F)),
    reshape main_v82 main_v83 rfl shapeCasts_S1x1024x512_S1024x512,
    binary main_v37 main_v83 main_v84 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_arg10 main_v85 ((extractStridedSlice S1x1024 ![0, 0] · slices_S2x1024_S1x1024_0_0) : (⟨S2x1024, .f32⟩ : BufTy).Contents (Elt F) → (⟨S1x1024, .f32⟩ : BufTy).Contents (Elt F)),
    reshape main_v85 main_v86 rfl shapeCasts_S1x1024_S1024,
    unary main_v86 main_v87 (broadcastInDim S1x1x1024 ![2] bcast_S1024_S1x1x1024_2 : (⟨S1024, .f32⟩ : BufTy).Contents (Elt F) → (⟨S1x1x1024, .f32⟩ : BufTy).Contents (Elt F)),
    unary main_v87 main_v88 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v84 main_v88 main_v89 (addf : (⟨S32x512x1024, .f32⟩ : BufTy).Contents (Elt F) → (⟨S32x512x1024, .f32⟩ : BufTy).Contents (Elt F) → (⟨S32x512x1024, .f32⟩ : BufTy).Contents (Elt F)),
    unary main_v89 main_v90 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32x512x512, .f32⟩) main_call4_v0) (broadcastInDim S32x512x512 ![] bcast_S_S32x512x512),
    TRef.binary (TRef.of (T := ⟨S32x512x512, .f32⟩) main_v90) (TRef.of (T := ⟨S32x512x512, .f32⟩) main_call4_v0) (TRef.of (T := ⟨S32x512x512, .f32⟩) main_v91) maximumf,
    unary main_v89 main_v92 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v92 main_v93 (Host.negf : (⟨S32x512x512, .f32⟩ : BufTy).Contents (Elt F) → (⟨S32x512x512, .f32⟩ : BufTy).Contents (Elt F)),
    unary main_v93 main_v94 (Host.exp : (⟨S32x512x512, .f32⟩ : BufTy).Contents (Elt F) → (⟨S32x512x512, .f32⟩ : BufTy).Contents (Elt F)),
    nullary main_cst_9 (constant S_ .f32 0x3F800000#32),
    unary main_cst_9 main_v95 (broadcastInDim S32x512x512 ![] bcast_S_S32x512x512 : (⟨S_, .f32⟩ : BufTy).Contents (Elt F) → (⟨S32x512x512, .f32⟩ : BufTy).Contents (Elt F)),
    binary main_v95 main_v94 main_v96 (addf : (⟨S32x512x512, .f32⟩ : BufTy).Contents (Elt F) → (⟨S32x512x512, .f32⟩ : BufTy).Contents (Elt F) → (⟨S32x512x512, .f32⟩ : BufTy).Contents (Elt F)),
    nullary main_cst_10 (constant S_ .f32 0x3F800000#32),
    unary main_cst_10 main_v97 (broadcastInDim S32x512x512 ![] bcast_S_S32x512x512 : (⟨S_, .f32⟩ : BufTy).Contents (Elt F) → (⟨S32x512x512, .f32⟩ : BufTy).Contents (Elt F)),
    binary main_v97 main_v96 main_v98 (Host.divf : (⟨S32x512x512, .f32⟩ : BufTy).Contents (Elt F) → (⟨S32x512x512, .f32⟩ : BufTy).Contents (Elt F) → (⟨S32x512x512, .f32⟩ : BufTy).Contents (Elt F)),
    binary main_v98 main_v37 main_v99 (mulf : (⟨S32x512x512, .f32⟩ : BufTy).Contents (Elt F) → (⟨S32x512x512, .f32⟩ : BufTy).Contents (Elt F) → (⟨S32x512x512, .f32⟩ : BufTy).Contents (Elt F)),
    nullary main_cst_11 (constant S_ .f32 0x3F800000#32),
    unary main_cst_11 main_v100 (broadcastInDim S32x512x512 ![] bcast_S_S32x512x512 : (⟨S_, .f32⟩ : BufTy).Contents (Elt F) → (⟨S32x512x512, .f32⟩ : BufTy).Contents (Elt F)),
    binary main_v100 main_v98 main_v101 (subf : (⟨S32x512x512, .f32⟩ : BufTy).Contents (Elt F) → (⟨S32x512x512, .f32⟩ : BufTy).Contents (Elt F) → (⟨S32x512x512, .f32⟩ : BufTy).Contents (Elt F)),
    binary main_v101 main_v91 main_v102 (mulf : (⟨S32x512x512, .f32⟩ : BufTy).Contents (Elt F) → (⟨S32x512x512, .f32⟩ : BufTy).Contents (Elt F) → (⟨S32x512x512, .f32⟩ : BufTy).Contents (Elt F)),
    binary main_v99 main_v102 main_v103 (addf : (⟨S32x512x512, .f32⟩ : BufTy).Contents (Elt F) → (⟨S32x512x512, .f32⟩ : BufTy).Contents (Elt F) → (⟨S32x512x512, .f32⟩ : BufTy).Contents (Elt F)) ]
/-- The buffers stretch L3 writes. -/
abbrev opsL3_W : List (Ref sig .tc) := [main_v82, main_v83, main_v84, main_v85, main_v86, main_v87, main_v88, main_v89, main_v90, main_call4_cst, main_call4_v0, main_v91, main_v92, main_v93, main_v94, main_cst_9, main_v95, main_v96, main_cst_10, main_v97, main_v98, main_v99, main_cst_11, main_v100, main_v101, main_v102, main_v103]

/-- Stretch L4 of the operation list. -/
abbrev opsL4 : List (HloOp τ sig (Elt F)) :=
  [unary main_arg9 main_v104 ((extractStridedSlice S1x1024x512 ![1, 0, 0] · slices_S2x1024x512_S1x1024x512_1_0_0) : (⟨S2x1024x512, .f32⟩ : BufTy).Contents (Elt F) → (⟨S1x1024x512, .f32⟩ : BufTy).Contents (Elt F)),
    reshape main_v104 main_v105 rfl shapeCasts_S1x1024x512_S1024x512,
    binary main_v103 main_v105 main_v106 ((fun l r => Host.dotGeneral dot_S32x512x512_S1024x512_S32x512x1024_2_1_01_0_n_n none l r) : (⟨S32x512x512, .f32⟩ : BufTy).Contents (Elt F) → (⟨S1024x512, .f32⟩ : BufTy).Contents (Elt F) → (⟨S32x512x1024, .f32⟩ : BufTy).Contents (Elt F)),
    unary main_arg10 main_v107 ((extractStridedSlice S1x1024 ![1, 0] · slices_S2x1024_S1x1024_1_0) : (⟨S2x1024, .f32⟩ : BufTy).Contents (Elt F) → (⟨S1x1024, .f32⟩ : BufTy).Contents (Elt F)),
    reshape main_v107 main_v108 rfl shapeCasts_S1x1024_S1024,
    unary main_v108 main_v109 (broadcastInDim S1x1x1024 ![2] bcast_S1024_S1x1x1024_2 : (⟨S1024, .f32⟩ : BufTy).Contents (Elt F) → (⟨S1x1x1024, .f32⟩ : BufTy).Contents (Elt F)),
    unary main_v109 main_v110 (broadcastInDim S32x512x1024 ![0, 1, 2] bcast_S1x1x1024_S32x512x1024_0_1_2 : (⟨S1x1x1024, .f32⟩ : BufTy).Contents (Elt F) → (⟨S32x512x1024, .f32⟩ : BufTy).Contents (Elt F)),
    binary main_v106 main_v110 main_v111 (addf : (⟨S32x512x1024, .f32⟩ : BufTy).Contents (Elt F) → (⟨S32x512x1024, .f32⟩ : BufTy).Contents (Elt F) → (⟨S32x512x1024, .f32⟩ : BufTy).Contents (Elt F)),
    unary main_v111 main_v112 ((extractStridedSlice S32x512x512 ![0, 0, 0] · slices_S32x512x1024_S32x512x512_0_0_0) : (⟨S32x512x1024, .f32⟩ : BufTy).Contents (Elt F) → (⟨S32x512x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S32x512x512, .f32⟩) main_call5_v0) (broadcastInDim S32x512x512 ![] bcast_S_S32x512x512),
    TRef.binary (TRef.of (T := ⟨S32x512x512, .f32⟩) main_v112) (TRef.of (T := ⟨S32x512x512, .f32⟩) main_call5_v0) (TRef.of (T := ⟨S32x512x512, .f32⟩) main_v113) maximumf,
    unary main_v111 main_v114 ((extractStridedSlice S32x512x512 ![0, 0, 512] · slices_S32x512x1024_S32x512x512_0_0_512) : (⟨S32x512x1024, .f32⟩ : BufTy).Contents (Elt F) → (⟨S32x512x512, .f32⟩ : BufTy).Contents (Elt F)),
    unary main_v114 main_v115 (Host.negf : (⟨S32x512x512, .f32⟩ : BufTy).Contents (Elt F) → (⟨S32x512x512, .f32⟩ : BufTy).Contents (Elt F)),
    unary main_v115 main_v116 (Host.exp : (⟨S32x512x512, .f32⟩ : BufTy).Contents (Elt F) → (⟨S32x512x512, .f32⟩ : BufTy).Contents (Elt F)),
    nullary main_cst_12 (constant S_ .f32 0x3F800000#32),
    unary main_cst_12 main_v117 (broadcastInDim S32x512x512 ![] bcast_S_S32x512x512 : (⟨S_, .f32⟩ : BufTy).Contents (Elt F) → (⟨S32x512x512, .f32⟩ : BufTy).Contents (Elt F)),
    binary main_v117 main_v116 main_v118 (addf : (⟨S32x512x512, .f32⟩ : BufTy).Contents (Elt F) → (⟨S32x512x512, .f32⟩ : BufTy).Contents (Elt F) → (⟨S32x512x512, .f32⟩ : BufTy).Contents (Elt F)),
    nullary main_cst_13 (constant S_ .f32 0x3F800000#32),
    unary main_cst_13 main_v119 (broadcastInDim S32x512x512 ![] bcast_S_S32x512x512 : (⟨S_, .f32⟩ : BufTy).Contents (Elt F) → (⟨S32x512x512, .f32⟩ : BufTy).Contents (Elt F)),
    binary main_v119 main_v118 main_v120 (Host.divf : (⟨S32x512x512, .f32⟩ : BufTy).Contents (Elt F) → (⟨S32x512x512, .f32⟩ : BufTy).Contents (Elt F) → (⟨S32x512x512, .f32⟩ : BufTy).Contents (Elt F)),
    binary main_v120 main_v103 main_v121 (mulf : (⟨S32x512x512, .f32⟩ : BufTy).Contents (Elt F) → (⟨S32x512x512, .f32⟩ : BufTy).Contents (Elt F) → (⟨S32x512x512, .f32⟩ : BufTy).Contents (Elt F)),
    nullary main_cst_14 (constant S_ .f32 0x3F800000#32),
    unary main_cst_14 main_v122 (broadcastInDim S32x512x512 ![] bcast_S_S32x512x512 : (⟨S_, .f32⟩ : BufTy).Contents (Elt F) → (⟨S32x512x512, .f32⟩ : BufTy).Contents (Elt F)),
    binary main_v122 main_v120 main_v123 (subf : (⟨S32x512x512, .f32⟩ : BufTy).Contents (Elt F) → (⟨S32x512x512, .f32⟩ : BufTy).Contents (Elt F) → (⟨S32x512x512, .f32⟩ : BufTy).Contents (Elt F)),
    binary main_v123 main_v113 main_v124 (mulf : (⟨S32x512x512, .f32⟩ : BufTy).Contents (Elt F) → (⟨S32x512x512, .f32⟩ : BufTy).Contents (Elt F) → (⟨S32x512x512, .f32⟩ : BufTy).Contents (Elt F)),
    binary main_v121 main_v124 main_v125 (addf : (⟨S32x512x512, .f32⟩ : BufTy).Contents (Elt F) → (⟨S32x512x512, .f32⟩ : BufTy).Contents (Elt F) → (⟨S32x512x512, .f32⟩ : BufTy).Contents (Elt F)) ]
/-- The buffers stretch L4 writes. -/
abbrev opsL4_W : List (Ref sig .tc) := [main_v104, main_v105, main_v106, main_v107, main_v108, main_v109, main_v110, main_v111, main_v112, main_call5_cst, main_call5_v0, main_v113, main_v114, main_v115, main_v116, main_cst_12, main_v117, main_v118, main_cst_13, main_v119, main_v120, main_v121, main_cst_14, main_v122, main_v123, main_v124, main_v125]

/-- Stretch Z of the operation list. -/
abbrev opsZ : List (HloOp τ sig (Elt F)) :=
  [binary main_v81 main_v125 main_v126 ((fun a b => concatenate S32x512x1024 2 [⟨S32x512x512, a⟩, ⟨S32x512x512, b⟩] concatenates_S32x512x512_S32x512x512_S32x512x1024_d2) : (⟨S32x512x512, .f32⟩ : BufTy).Contents (Elt F) → (⟨S32x512x512, .f32⟩ : BufTy).Contents (Elt F) → (⟨S32x512x1024, .f32⟩ : BufTy).Contents (Elt F)),
    unary main_v126 main_v127 (broadcastInDim S1x32x512x1024 ![1, 2, 3] bcast_S32x512x1024_S1x32x512x1024_1_2_3 : (⟨S32x512x1024, .f32⟩ : BufTy).Contents (Elt F) → (⟨S1x32x512x1024, .f32⟩ : BufTy).Contents (Elt F)) ]
/-- The buffers stretch Z writes. -/
abbrev opsZ_W : List (Ref sig .tc) := [main_v126, main_v127]

/-- The operation list is its eight stretches end to end. -/
theorem ops_split : (ops : List (HloOp τ sig (Elt F))) = opsA ++ (opsB ++ (opsC ++ (opsL1 ++ (opsL2 ++ (opsL3 ++ (opsL4 ++ opsZ)))))) := rfl

theorem opsA_writes : (opsA : List (HloOp τ sig (Elt F))).Forall fun op => op.writes ⊆ (opsA_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch A does not write keeps its contents through it. -/
theorem keepA (V : Valuation τ sig (Elt F)) (r : Ref sig .tc) (h : r ∉ opsA_W) : after opsA V (Proc.devRef .tc r) = V (Proc.devRef .tc r) :=
  after_of_writes_sub opsA V opsA_writes h

theorem opsB_writes : (opsB : List (HloOp τ sig (Elt F))).Forall fun op => op.writes ⊆ (opsB_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch B does not write keeps its contents through it. -/
theorem keepB (V : Valuation τ sig (Elt F)) (r : Ref sig .tc) (h : r ∉ opsB_W) : after opsB V (Proc.devRef .tc r) = V (Proc.devRef .tc r) :=
  after_of_writes_sub opsB V opsB_writes h

theorem opsC_writes : (opsC : List (HloOp τ sig (Elt F))).Forall fun op => op.writes ⊆ (opsC_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch C does not write keeps its contents through it. -/
theorem keepC (V : Valuation τ sig (Elt F)) (r : Ref sig .tc) (h : r ∉ opsC_W) : after opsC V (Proc.devRef .tc r) = V (Proc.devRef .tc r) :=
  after_of_writes_sub opsC V opsC_writes h

theorem opsL1_writes : (opsL1 : List (HloOp τ sig (Elt F))).Forall fun op => op.writes ⊆ (opsL1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch L1 does not write keeps its contents through it. -/
theorem keepL1 (V : Valuation τ sig (Elt F)) (r : Ref sig .tc) (h : r ∉ opsL1_W) : after opsL1 V (Proc.devRef .tc r) = V (Proc.devRef .tc r) :=
  after_of_writes_sub opsL1 V opsL1_writes h

theorem opsL2_writes : (opsL2 : List (HloOp τ sig (Elt F))).Forall fun op => op.writes ⊆ (opsL2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch L2 does not write keeps its contents through it. -/
theorem keepL2 (V : Valuation τ sig (Elt F)) (r : Ref sig .tc) (h : r ∉ opsL2_W) : after opsL2 V (Proc.devRef .tc r) = V (Proc.devRef .tc r) :=
  after_of_writes_sub opsL2 V opsL2_writes h

theorem opsL3_writes : (opsL3 : List (HloOp τ sig (Elt F))).Forall fun op => op.writes ⊆ (opsL3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch L3 does not write keeps its contents through it. -/
theorem keepL3 (V : Valuation τ sig (Elt F)) (r : Ref sig .tc) (h : r ∉ opsL3_W) : after opsL3 V (Proc.devRef .tc r) = V (Proc.devRef .tc r) :=
  after_of_writes_sub opsL3 V opsL3_writes h

theorem opsL4_writes : (opsL4 : List (HloOp τ sig (Elt F))).Forall fun op => op.writes ⊆ (opsL4_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch L4 does not write keeps its contents through it. -/
theorem keepL4 (V : Valuation τ sig (Elt F)) (r : Ref sig .tc) (h : r ∉ opsL4_W) : after opsL4 V (Proc.devRef .tc r) = V (Proc.devRef .tc r) :=
  after_of_writes_sub opsL4 V opsL4_writes h

theorem opsZ_writes : (opsZ : List (HloOp τ sig (Elt F))).Forall fun op => op.writes ⊆ (opsZ_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer stretch Z does not write keeps its contents through it. -/
theorem keepZ (V : Valuation τ sig (Elt F)) (r : Ref sig .tc) (h : r ∉ opsZ_W) : after opsZ V (Proc.devRef .tc r) = V (Proc.devRef .tc r) :=
  after_of_writes_sub opsZ V opsZ_writes h

theorem stretchA (V : Valuation τ sig (Elt F)) (x0 : (⟨S32x512x512, .f32⟩ : BufTy).Contents (Elt F)) (x1 x2 : (⟨S2x512, .f32⟩ : BufTy).Contents (Elt F))
    (h0 : V (Proc.devRef .tc main_arg0) = x0) (h1 : V (Proc.devRef .tc main_arg1) = x1) (h2 : V (Proc.devRef .tc main_arg2) = x2) :
    after opsA V (Proc.devRef .tc main_v2) = ReadP.val_main_v2 (F := F) x0 x1 x2 := by
  simp only [after_cons, after_nil]
  rw [Cert.Lib.nary3_result]
  repeat (first | rw [unary_result] | (rw [unary_result_ne]; rotate_left; decide))
  subst h0 h1 h2
  rfl

theorem stretchB (V : Valuation τ sig (Elt F)) (x0 : (⟨S32x512x512, .f32⟩ : BufTy).Contents (Elt F)) (x1 x2 : (⟨S2x512, .f32⟩ : BufTy).Contents (Elt F))
    (hv2 : V (Proc.devRef .tc main_v2) = ReadP.val_main_v2 (F := F) x0 x1 x2) :
    after opsB V (Proc.devRef .tc main_v17) = ReadP.val_main_v17 (F := F) x0 x1 x2
      ∧ after opsB V (Proc.devRef .tc main_v27) = ReadP.val_main_v27 (F := F) x0 x1 x2 := by
  refine ⟨?_, ?_⟩
  · after_results_simp
    rw [hv2]
    unfold ReadP.val_main_v17 ReadP.val_main_v16 ReadP.val_main_v15 ReadP.val_main_v14 ReadP.val_main_v13 ReadP.val_main_v12 ReadP.val_main_c_0 ReadP.val_main_v11 ReadP.val_main_v10 ReadP.val_main_c ReadP.val_main_v9 ReadP.val_main_v8 ReadP.val_main_v7 ReadP.val_main_v6 ReadP.val_main_v5 ReadP.val_main_v4 ReadP.val_main_v3
    rfl
  · after_results_simp
    rw [hv2]
    unfold ReadP.val_main_v27 ReadP.val_main_v26 ReadP.val_main_v25 ReadP.val_main_v24 ReadP.val_main_v23 ReadP.val_main_v22 ReadP.val_main_c_3 ReadP.val_main_v21 ReadP.val_main_v20 ReadP.val_main_c_2 ReadP.val_main_v19 ReadP.val_main_v18 ReadP.val_main_c_1 ReadP.val_main_v9 ReadP.val_main_v8 ReadP.val_main_v7 ReadP.val_main_v6 ReadP.val_main_v5 ReadP.val_main_v4 ReadP.val_main_v3
    rfl

theorem stretchC (V : Valuation τ sig (Elt F)) (x0 : (⟨S32x512x512, .f32⟩ : BufTy).Contents (Elt F)) (x1 x2 : (⟨S2x512, .f32⟩ : BufTy).Contents (Elt F)) (x3 : (⟨S512x1536, .f32⟩ : BufTy).Contents (Elt F)) (x4 : (⟨S512, .f32⟩ : BufTy).Contents (Elt F)) (x5 : (⟨S512x1536, .f32⟩ : BufTy).Contents (Elt F)) (x6 : (⟨S512, .f32⟩ : BufTy).Contents (Elt F))
    (hv17 : V (Proc.devRef .tc main_v17) = ReadP.val_main_v17 (F := F) x0 x1 x2) (hv27 : V (Proc.devRef .tc main_v27) = ReadP.val_main_v27 (F := F) x0 x1 x2)
    (h3 : V (Proc.devRef .tc main_arg3) = x3) (h4 : V (Proc.devRef .tc main_arg4) = x4) (h5 : V (Proc.devRef .tc main_arg5) = x5) (h6 : V (Proc.devRef .tc main_arg6) = x6) :
    after opsC V (Proc.devRef .tc main_v32) = ReadP.val_main_v32 (F := F) x0 x1 x2 x3 x4
      ∧ after opsC V (Proc.devRef .tc main_v37) = ReadP.val_main_v37 (F := F) x0 x1 x2 x5 x6 := by
  refine ⟨?_, ?_⟩
  · after_results_simp
    simp only [TRef.ofBuf, TRef.toBuf, cast_eq]
    rw [hv17, h3, h4]
    unfold ReadP.val_main_v32 ReadP.val_main_v31 ReadP.val_main_v30 ReadP.val_main_v29 ReadP.val_main_v28 ReadP.val_main_call0_v0 ReadP.val_main_call0_cst
    rfl
  · after_results_simp
    simp only [TRef.ofBuf, TRef.toBuf, cast_eq]
    rw [hv27, h5, h6]
    unfold ReadP.val_main_v37 ReadP.val_main_v36 ReadP.val_main_v35 ReadP.val_main_v34 ReadP.val_main_v33 ReadP.val_main_call1_v0 ReadP.val_main_call1_cst
    rfl

theorem stretchL1 (V : Valuation τ sig (Elt F)) (x0 : (⟨S32x512x512, .f32⟩ : BufTy).Contents (Elt F)) (x1 x2 : (⟨S2x512, .f32⟩ : BufTy).Contents (Elt F)) (x3 : (⟨S512x1536, .f32⟩ : BufTy).Contents (Elt F)) (x4 : (⟨S512, .f32⟩ : BufTy).Contents (Elt F)) (x7 : (⟨S2x1024x512, .f32⟩ : BufTy).Contents (Elt F)) (x8 : (⟨S2x1024, .f32⟩ : BufTy).Contents (Elt F))
    (hin : V (Proc.devRef .tc main_v32) = ReadP.val_main_v32 (F := F) x0 x1 x2 x3 x4) (h7 : V (Proc.devRef .tc main_arg7) = x7) (h8 : V (Proc.devRef .tc main_arg8) = x8) :
    after opsL1 V (Proc.devRef .tc main_v59) = ReadP.val_main_v59 (F := F) x0 x1 x2 x3 x4 x7 x8 := by
  after_results_simp
  rw [hin, h7, h8]
  unfold ReadP.val_main_v59 ReadP.val_main_v58 ReadP.val_main_v57 ReadP.val_main_v56 ReadP.val_main_cst_5 ReadP.val_main_v55 ReadP.val_main_v54 ReadP.val_main_v53 ReadP.val_main_cst_4 ReadP.val_main_v52 ReadP.val_main_v51 ReadP.val_main_cst ReadP.val_main_v50 ReadP.val_main_v49 ReadP.val_main_v48 ReadP.val_main_v47 ReadP.val_main_call2_v0 ReadP.val_main_call2_cst ReadP.val_main_v46 ReadP.val_main_v45 ReadP.val_main_v44 ReadP.val_main_v43 ReadP.val_main_v42 ReadP.val_main_v41 ReadP.val_main_v40 ReadP.val_main_v39 ReadP.val_main_v38
  rfl

theorem stretchL2 (V : Valuation τ sig (Elt F)) (x0 : (⟨S32x512x512, .f32⟩ : BufTy).Contents (Elt F)) (x1 x2 : (⟨S2x512, .f32⟩ : BufTy).Contents (Elt F)) (x3 : (⟨S512x1536, .f32⟩ : BufTy).Contents (Elt F)) (x4 : (⟨S512, .f32⟩ : BufTy).Contents (Elt F)) (x7 : (⟨S2x1024x512, .f32⟩ : BufTy).Contents (Elt F)) (x8 : (⟨S2x1024, .f32⟩ : BufTy).Contents (Elt F))
    (hin : V (Proc.devRef .tc main_v59) = ReadP.val_main_v59 (F := F) x0 x1 x2 x3 x4 x7 x8) (h7 : V (Proc.devRef .tc main_arg7) = x7) (h8 : V (Proc.devRef .tc main_arg8) = x8) :
    after opsL2 V (Proc.devRef .tc main_v81) = ReadP.val_main_v81 (F := F) x0 x1 x2 x3 x4 x7 x8 := by
  after_results_simp
  rw [hin, h7, h8]
  unfold ReadP.val_main_v81 ReadP.val_main_v80 ReadP.val_main_v79 ReadP.val_main_v78 ReadP.val_main_cst_8 ReadP.val_main_v77 ReadP.val_main_v76 ReadP.val_main_v75 ReadP.val_main_cst_7 ReadP.val_main_v74 ReadP.val_main_v73 ReadP.val_main_cst_6 ReadP.val_main_v72 ReadP.val_main_v71 ReadP.val_main_v70 ReadP.val_main_v69 ReadP.val_main_call3_v0 ReadP.val_main_call3_cst ReadP.val_main_v68 ReadP.val_main_v67 ReadP.val_main_v66 ReadP.val_main_v65 ReadP.val_main_v64 ReadP.val_main_v63 ReadP.val_main_v62 ReadP.val_main_v61 ReadP.val_main_v60
  rfl

theorem stretchL3 (V : Valuation τ sig (Elt F)) (x0 : (⟨S32x512x512, .f32⟩ : BufTy).Contents (Elt F)) (x1 x2 : (⟨S2x512, .f32⟩ : BufTy).Contents (Elt F)) (x5 : (⟨S512x1536, .f32⟩ : BufTy).Contents (Elt F)) (x6 : (⟨S512, .f32⟩ : BufTy).Contents (Elt F)) (x9 : (⟨S2x1024x512, .f32⟩ : BufTy).Contents (Elt F)) (x10 : (⟨S2x1024, .f32⟩ : BufTy).Contents (Elt F))
    (hin : V (Proc.devRef .tc main_v37) = ReadP.val_main_v37 (F := F) x0 x1 x2 x5 x6) (h9 : V (Proc.devRef .tc main_arg9) = x9) (h10 : V (Proc.devRef .tc main_arg10) = x10) :
    after opsL3 V (Proc.devRef .tc main_v103) = ReadP.val_main_v103 (F := F) x0 x1 x2 x5 x6 x9 x10 := by
  after_results_simp
  rw [hin, h9, h10]
  unfold ReadP.val_main_v103 ReadP.val_main_v102 ReadP.val_main_v101 ReadP.val_main_v100 ReadP.val_main_cst_11 ReadP.val_main_v99 ReadP.val_main_v98 ReadP.val_main_v97 ReadP.val_main_cst_10 ReadP.val_main_v96 ReadP.val_main_v95 ReadP.val_main_cst_9 ReadP.val_main_v94 ReadP.val_main_v93 ReadP.val_main_v92 ReadP.val_main_v91 ReadP.val_main_call4_v0 ReadP.val_main_call4_cst ReadP.val_main_v90 ReadP.val_main_v89 ReadP.val_main_v88 ReadP.val_main_v87 ReadP.val_main_v86 ReadP.val_main_v85 ReadP.val_main_v84 ReadP.val_main_v83 ReadP.val_main_v82
  rfl

theorem stretchL4 (V : Valuation τ sig (Elt F)) (x0 : (⟨S32x512x512, .f32⟩ : BufTy).Contents (Elt F)) (x1 x2 : (⟨S2x512, .f32⟩ : BufTy).Contents (Elt F)) (x5 : (⟨S512x1536, .f32⟩ : BufTy).Contents (Elt F)) (x6 : (⟨S512, .f32⟩ : BufTy).Contents (Elt F)) (x9 : (⟨S2x1024x512, .f32⟩ : BufTy).Contents (Elt F)) (x10 : (⟨S2x1024, .f32⟩ : BufTy).Contents (Elt F))
    (hin : V (Proc.devRef .tc main_v103) = ReadP.val_main_v103 (F := F) x0 x1 x2 x5 x6 x9 x10) (h9 : V (Proc.devRef .tc main_arg9) = x9) (h10 : V (Proc.devRef .tc main_arg10) = x10) :
    after opsL4 V (Proc.devRef .tc main_v125) = ReadP.val_main_v125 (F := F) x0 x1 x2 x5 x6 x9 x10 := by
  after_results_simp
  rw [hin, h9, h10]
  unfold ReadP.val_main_v125 ReadP.val_main_v124 ReadP.val_main_v123 ReadP.val_main_v122 ReadP.val_main_cst_14 ReadP.val_main_v121 ReadP.val_main_v120 ReadP.val_main_v119 ReadP.val_main_cst_13 ReadP.val_main_v118 ReadP.val_main_v117 ReadP.val_main_cst_12 ReadP.val_main_v116 ReadP.val_main_v115 ReadP.val_main_v114 ReadP.val_main_v113 ReadP.val_main_call5_v0 ReadP.val_main_call5_cst ReadP.val_main_v112 ReadP.val_main_v111 ReadP.val_main_v110 ReadP.val_main_v109 ReadP.val_main_v108 ReadP.val_main_v107 ReadP.val_main_v106 ReadP.val_main_v105 ReadP.val_main_v104
  rfl

theorem stretchZ (V : Valuation τ sig (Elt F)) (x0 : (⟨S32x512x512, .f32⟩ : BufTy).Contents (Elt F)) (x1 x2 : (⟨S2x512, .f32⟩ : BufTy).Contents (Elt F)) (x3 : (⟨S512x1536, .f32⟩ : BufTy).Contents (Elt F)) (x4 : (⟨S512, .f32⟩ : BufTy).Contents (Elt F)) (x5 : (⟨S512x1536, .f32⟩ : BufTy).Contents (Elt F)) (x6 : (⟨S512, .f32⟩ : BufTy).Contents (Elt F)) (x7 : (⟨S2x1024x512, .f32⟩ : BufTy).Contents (Elt F)) (x8 : (⟨S2x1024, .f32⟩ : BufTy).Contents (Elt F)) (x9 : (⟨S2x1024x512, .f32⟩ : BufTy).Contents (Elt F)) (x10 : (⟨S2x1024, .f32⟩ : BufTy).Contents (Elt F))
    (hl : V (Proc.devRef .tc main_v81) = ReadP.val_main_v81 (F := F) x0 x1 x2 x3 x4 x7 x8) (hr : V (Proc.devRef .tc main_v125) = ReadP.val_main_v125 (F := F) x0 x1 x2 x5 x6 x9 x10) :
    after opsZ V (Proc.devRef .tc main_v126) = ReadP.val_main_v126 (F := F) x0 x1 x2 x3 x4 x5 x6 x7 x8 x9 x10
      ∧ after opsZ V (Proc.devRef .tc main_v127) = ReadP.val_main_v127 (F := F) x0 x1 x2 x3 x4 x5 x6 x7 x8 x9 x10 := by
  refine ⟨?_, ?_⟩
  · after_results
    rw [hl, hr]
    rfl
  · after_results
    rw [hl, hr]
    rfl

/-! ## The stretches end to end -/

/-- No operation of the list allocates: each determines its results. -/
theorem ops_fresh : (ops : List (HloOp τ sig (Elt F))).Forall fun op => op.fresh = ∅ := by
  simp only [List.Forall]; repeat' constructor

/-- The contents after the first 1 stretch. -/
abbrev st1 (V0 : Valuation τ sig (Elt F)) : Valuation τ sig (Elt F) := after opsA V0
/-- The contents after the first 2 stretches. -/
abbrev st2 (V0 : Valuation τ sig (Elt F)) : Valuation τ sig (Elt F) := after opsB (st1 V0)
/-- The contents after the first 3 stretches. -/
abbrev st3 (V0 : Valuation τ sig (Elt F)) : Valuation τ sig (Elt F) := after opsC (st2 V0)
/-- The contents after the first 4 stretches. -/
abbrev st4 (V0 : Valuation τ sig (Elt F)) : Valuation τ sig (Elt F) := after opsL1 (st3 V0)
/-- The contents after the first 5 stretches. -/
abbrev st5 (V0 : Valuation τ sig (Elt F)) : Valuation τ sig (Elt F) := after opsL2 (st4 V0)
/-- The contents after the first 6 stretches. -/
abbrev st6 (V0 : Valuation τ sig (Elt F)) : Valuation τ sig (Elt F) := after opsL3 (st5 V0)
/-- The contents after the first 7 stretches. -/
abbrev st7 (V0 : Valuation τ sig (Elt F)) : Valuation τ sig (Elt F) := after opsL4 (st6 V0)
/-- The contents after the first 8 stretches. -/
abbrev st8 (V0 : Valuation τ sig (Elt F)) : Valuation τ sig (Elt F) := after opsZ (st7 V0)

/-- The contents after the whole list are the contents after the eighth stretch. -/
theorem after_ops (V0 : Valuation τ sig (Elt F)) : after ops V0 = st8 V0 := by
  rw [ops_split, StableHlo.after_append, StableHlo.after_append, StableHlo.after_append, StableHlo.after_append,
    StableHlo.after_append, StableHlo.after_append, StableHlo.after_append]

theorem st1_keep (V0 : Valuation τ sig (Elt F)) (r : Ref sig .tc) (h : r ∉ opsA_W) : st1 V0 (Proc.devRef .tc r) = V0 (Proc.devRef .tc r) :=
  keepA V0 r h
theorem st2_keep (V0 : Valuation τ sig (Elt F)) (r : Ref sig .tc) (h : r ∉ (opsA_W ++ opsB_W)) : st2 V0 (Proc.devRef .tc r) = V0 (Proc.devRef .tc r) :=
  (keepB (st1 V0) r (fun hm => h (List.mem_append_right _ hm))).trans (st1_keep V0 r (fun hm => h (List.mem_append_left _ hm)))
theorem st3_keep (V0 : Valuation τ sig (Elt F)) (r : Ref sig .tc) (h : r ∉ ((opsA_W ++ opsB_W) ++ opsC_W)) : st3 V0 (Proc.devRef .tc r) = V0 (Proc.devRef .tc r) :=
  (keepC (st2 V0) r (fun hm => h (List.mem_append_right _ hm))).trans (st2_keep V0 r (fun hm => h (List.mem_append_left _ hm)))
theorem st4_keep (V0 : Valuation τ sig (Elt F)) (r : Ref sig .tc) (h : r ∉ (((opsA_W ++ opsB_W) ++ opsC_W) ++ opsL1_W)) : st4 V0 (Proc.devRef .tc r) = V0 (Proc.devRef .tc r) :=
  (keepL1 (st3 V0) r (fun hm => h (List.mem_append_right _ hm))).trans (st3_keep V0 r (fun hm => h (List.mem_append_left _ hm)))
theorem st5_keep (V0 : Valuation τ sig (Elt F)) (r : Ref sig .tc) (h : r ∉ ((((opsA_W ++ opsB_W) ++ opsC_W) ++ opsL1_W) ++ opsL2_W)) : st5 V0 (Proc.devRef .tc r) = V0 (Proc.devRef .tc r) :=
  (keepL2 (st4 V0) r (fun hm => h (List.mem_append_right _ hm))).trans (st4_keep V0 r (fun hm => h (List.mem_append_left _ hm)))
theorem st6_keep (V0 : Valuation τ sig (Elt F)) (r : Ref sig .tc) (h : r ∉ (((((opsA_W ++ opsB_W) ++ opsC_W) ++ opsL1_W) ++ opsL2_W) ++ opsL3_W)) : st6 V0 (Proc.devRef .tc r) = V0 (Proc.devRef .tc r) :=
  (keepL3 (st5 V0) r (fun hm => h (List.mem_append_right _ hm))).trans (st5_keep V0 r (fun hm => h (List.mem_append_left _ hm)))
theorem st7_keep (V0 : Valuation τ sig (Elt F)) (r : Ref sig .tc) (h : r ∉ ((((((opsA_W ++ opsB_W) ++ opsC_W) ++ opsL1_W) ++ opsL2_W) ++ opsL3_W) ++ opsL4_W)) : st7 V0 (Proc.devRef .tc r) = V0 (Proc.devRef .tc r) :=
  (keepL4 (st6 V0) r (fun hm => h (List.mem_append_right _ hm))).trans (st6_keep V0 r (fun hm => h (List.mem_append_left _ hm)))
theorem st8_keep (V0 : Valuation τ sig (Elt F)) (r : Ref sig .tc) (h : r ∉ (((((((opsA_W ++ opsB_W) ++ opsC_W) ++ opsL1_W) ++ opsL2_W) ++ opsL3_W) ++ opsL4_W) ++ opsZ_W)) : st8 V0 (Proc.devRef .tc r) = V0 (Proc.devRef .tc r) :=
  (keepZ (st7 V0) r (fun hm => h (List.mem_append_right _ hm))).trans (st7_keep V0 r (fun hm => h (List.mem_append_left _ hm)))

/-- The two results after the whole list, as the stages of the reference program at the arguments' contents. -/
theorem stages (V0 : Valuation τ sig (Elt F)) :
    after ops V0 (Proc.devRef .tc main_v126) = ReadP.val_main_v126 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))
      ∧ after ops V0 (Proc.devRef .tc main_v127) = ReadP.val_main_v127 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [after_ops]
  have f2 := stretchA V0 _ _ _ rfl rfl rfl
  have fB := stretchB (st1 V0) _ _ _ f2
  have fC := stretchC (st2 V0) _ _ _ (V0 (Proc.devRef .tc main_arg3)) (V0 (Proc.devRef .tc main_arg4)) (V0 (Proc.devRef .tc main_arg5)) (V0 (Proc.devRef .tc main_arg6)) fB.1 fB.2
    (st2_keep V0 main_arg3 (by decide)) (st2_keep V0 main_arg4 (by decide)) (st2_keep V0 main_arg5 (by decide)) (st2_keep V0 main_arg6 (by decide))
  have f59 := stretchL1 (st3 V0) _ _ _ _ _ (V0 (Proc.devRef .tc main_arg7)) (V0 (Proc.devRef .tc main_arg8)) fC.1 (st3_keep V0 main_arg7 (by decide)) (st3_keep V0 main_arg8 (by decide))
  have f81 := stretchL2 (st4 V0) _ _ _ _ _ _ _ f59 (st4_keep V0 main_arg7 (by decide)) (st4_keep V0 main_arg8 (by decide))
  have f37 := (keepL2 (st4 V0) main_v37 (by decide)).trans ((keepL1 (st3 V0) main_v37 (by decide)).trans fC.2)
  have f103 := stretchL3 (st5 V0) _ _ _ _ _ (V0 (Proc.devRef .tc main_arg9)) (V0 (Proc.devRef .tc main_arg10)) f37 (st5_keep V0 main_arg9 (by decide)) (st5_keep V0 main_arg10 (by decide))
  have f125 := stretchL4 (st6 V0) _ _ _ _ _ _ _ f103 (st6_keep V0 main_arg9 (by decide)) (st6_keep V0 main_arg10 (by decide))
  have f81' := (keepL4 (st6 V0) main_v81 (by decide)).trans ((keepL3 (st5 V0) main_v81 (by decide)).trans f81)
  exact stretchZ (st7 V0) _ _ _ _ _ _ _ _ _ _ _ f81' f125

/-- An argument's buffer keeps its contents through the whole list. -/
theorem arg_keep (V0 : Valuation τ sig (Elt F)) (r : Ref sig .tc) (h : r ∉ (((((((opsA_W ++ opsB_W) ++ opsC_W) ++ opsL1_W) ++ opsL2_W) ++ opsL3_W) ++ opsL4_W) ++ opsZ_W)) :
    after ops V0 (Proc.devRef .tc r) = V0 (Proc.devRef .tc r) := by
  rw [after_ops]; exact st8_keep V0 r h

/-- On every device, for any float values, from any memory with zero counters: every weakly fair execution of
    @main terminates with the two results at the stages of the reference program read off the arguments' launch
    contents, and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v127) = ReadP.val_main_v127 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v126) = ReadP.val_main_v126 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v127).trans (stages (launchContents m c)).2,
      (h c main_v126).trans (stages (launchContents m c)).1,
      (h c main_arg0).trans (arg_keep (launchContents m c) main_arg0 (by decide)),
      (h c main_arg1).trans (arg_keep (launchContents m c) main_arg1 (by decide)),
      (h c main_arg2).trans (arg_keep (launchContents m c) main_arg2 (by decide)),
      (h c main_arg3).trans (arg_keep (launchContents m c) main_arg3 (by decide)),
      (h c main_arg4).trans (arg_keep (launchContents m c) main_arg4 (by decide)),
      (h c main_arg5).trans (arg_keep (launchContents m c) main_arg5 (by decide)),
      (h c main_arg6).trans (arg_keep (launchContents m c) main_arg6 (by decide)),
      (h c main_arg7).trans (arg_keep (launchContents m c) main_arg7 (by decide)),
      (h c main_arg8).trans (arg_keep (launchContents m c) main_arg8 (by decide)),
      (h c main_arg9).trans (arg_keep (launchContents m c) main_arg9 (by decide)),
      (h c main_arg10).trans (arg_keep (launchContents m c) main_arg10 (by decide))⟩)
    (run_seq scopedRefs_eq scopedSems_eq defs main (fun _ => ops) main_eq (fun _ => ops_sub) m ρ
      (fun _ => List.forall_iff_forall_mem.mp ops_fresh))

end Cert.ReferenceIdeal.RunHand

end
-- ==== Proof.BFrame.lean ====
/-
  The one region of @main, seen from the launch: what the TensorCore's buffers hold when the region is entered
  (the seven host operations before it have run: two broadcasts of the padding rows, the concatenation that
  builds the padded sequence, four transposes of the weights), that those operations write none of the eleven
  argument arrays, each window's block at a grid point, and that an input window's staging buffer holds its
  block at every point (the padded sequence is fetched at every point; the eight weight and bias windows are
  fetched once, their block index never moves).
-/
import proofs.«169205_j71021579206699_1_alg».proof.Proof.Gen.Kernel.Launch
import proofs.«169205_j71021579206699_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s TensorCore buffers when the region is entered: the launch contents after the seven host operations. -/
abbrev V (c : Dev nD) (b : Ref sig .tc) : Buf (Elt F) ((c : Thread nD τ).loc b) :=
  StableHlo.after hostOps0 (fun b => m (c, b)) b

/-- None of the seven operations allocates. -/
theorem hostOps0_fresh : (hostOps0 : List (HloOp τ sig (Elt F))).Forall fun op => op.fresh = ∅ := by
  simp only [List.Forall]; repeat' constructor

/-- @main is those operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the seven operations write: their seven results. -/
abbrev written : List (Ref sig .tc) := [main_v0, main_v1, main_v2, main_v3, main_v4, main_v5, main_v6]

theorem hostOps0_writes : (hostOps0 : List (HloOp τ sig (Elt F))).Forall fun op =>
    op.writes ⊆ (written.map (Proc.devRef (τ := τ) .tc)).toFinset := by
  simp only [List.Forall, StableHlo.unary_writes, StableHlo.nary_writes, Finset.singleton_subset_iff, List.mem_toFinset]
  refine ⟨?_, ?_, ?_, ?_, ?_, ?_, ?_⟩ <;> exact List.mem_map_of_mem (by decide)

/-- A buffer that is none of the seven results is found as launched. -/
theorem V_unwritten (c : Dev nD) (r : Ref sig .tc) (hr : r ∉ written) : V m c r = m ((c : Thread nD τ).loc r) :=
  StableHlo.after_of_writes_sub hostOps0 (fun b => m (c, b)) hostOps0_writes hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    kept it from the point before (its block index did not move, the window is never idle and never clipped). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    kept it from the point before (its block index did not move, the window is never idle and never clipped). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    kept it from the point before (its block index did not move, the window is never idle and never clipped). -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    kept it from the point before (its block index did not move, the window is never idle and never clipped). -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    kept it from the point before (its block index did not move, the window is never idle and never clipped). -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there or
    kept it from the point before (its block index did not move, the window is never idle and never clipped). -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether the pipeline fetched it there or
    kept it from the point before (its block index did not move, the window is never idle and never clipped). -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether the pipeline fetched it there or
    kept it from the point before (its block index did not move, the window is never idle and never clipped). -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether the pipeline fetched it there or
    kept it from the point before (its block index did not move, the window is never idle and never clipped). -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.Kernel.Region

end
-- ==== Proof.BTile.lean ====
/-
  The 512×1024 tile one grid point computes, as ONE pure function of the contents of the nine staged input
  blocks: the padded sequence of one batch element (516 rows), the two transposed projection weights (each read in
  three 512-row thirds), the two projection biases, the two stacks of transposed highway weights (each read
  layer by layer) and the two stacks of highway biases.  It is the composition of the body's named payloads over
  what its loads read; the body stores it, reshaped, into both output blocks.
-/
import proofs.«169205_j71021579206699_1_alg».proof.Proof.Gen.Kernel.Skeleton
import Idealize.ShloMosaic.Lib.Pipeline.FrameBody

noncomputable section

namespace Cert.Kernel.Body

open Idealize.ShloMosaic Idealize.SL.Sem Cert.Kernel Cert.Kernel.Gen

variable {F : FTy → Type} [FloatOps F]

/-! ## The rectangles the body loads and stores through -/

/-- The whole 1×516×512 block of the padded sequence. -/
abbrev rSeq : Rect S1x516x512 := Rect.unit (s := S1x516x512) ![0, 0, 0] S1x516x512.size inb_S1x516x512_S1x516x512_0_0_0
/-- Rows 0–511, 512–1023, 1024–1535 of a transposed projection weight. -/
abbrev rW0 : Rect S1536x512 := Rect.unit (s := S1536x512) ![0, 0] S512x512.size inb_S1536x512_S512x512_0_0
abbrev rW1 : Rect S1536x512 := Rect.unit (s := S1536x512) ![512, 0] S512x512.size inb_S1536x512_S512x512_512_0
abbrev rW2 : Rect S1536x512 := Rect.unit (s := S1536x512) ![1024, 0] S512x512.size inb_S1536x512_S512x512_1024_0
/-- A whole projection bias. -/
abbrev rB : Rect S512 := Rect.unit (s := S512) ![0] S512.size inb_S512_S512_0
/-- Layer 0 and layer 1 of a stack of transposed highway weights. -/
abbrev rH0 : Rect S2x512x1024 := Rect.unit (s := S2x512x1024) ![0, 0, 0] S1x512x1024.size inb_S2x512x1024_S1x512x1024_0_0_0
abbrev rH1 : Rect S2x512x1024 := Rect.unit (s := S2x512x1024) ![1, 0, 0] S1x512x1024.size inb_S2x512x1024_S1x512x1024_1_0_0
/-- Layer 0 and layer 1 of a stack of highway biases. -/
abbrev rG0 : Rect S2x1024 := Rect.unit (s := S2x1024) ![0, 0] S1x1024.size inb_S2x1024_S1x1024_0_0
abbrev rG1 : Rect S2x1024 := Rect.unit (s := S2x1024) ![1, 0] S1x1024.size inb_S2x1024_S1x1024_1_0
/-- The two output blocks, whole. -/
abbrev rOut : Rect S1x512x1024 := Rect.unit (s := S1x512x1024) ![0, 0, 0] S1x512x1024.size inb_S1x512x1024_S1x512x1024_0_0_0
abbrev rAll : Rect S1x1x512x1024 := Rect.unit (s := S1x1x512x1024) ![0, 0, 0, 0] S1x1x512x1024.size inb_S1x1x512x1024_S1x1x512x1024_0_0_0_0

/-! ## The tile -/

/-- The rectified left projection (rows s, s+1, s+2 of the sequence against the three thirds of the left weight). -/
def leftProj (xs : Vec F S1x516x512 .f32) (wl : Vec F S1536x512 .f32) (bl : Vec F S512 .f32) : FVec F S512x512 .f32 :=
  k0_pay8 (View.ld xs rSeq) (View.ld wl rW0) (View.ld wl rW1) (View.ld wl rW2) (View.ld bl rB)

/-- The rectified right projection (rows s+2, s+3, s+4 against the three thirds of the right weight). -/
def rightProj (xs : Vec F S1x516x512 .f32) (wr : Vec F S1536x512 .f32) (br : Vec F S512 .f32) : FVec F S512x512 .f32 :=
  k0_pay12 (k0_pay5 (View.ld xs rSeq)) (k0_pay6 (View.ld xs rSeq)) (k0_pay7 (View.ld xs rSeq))
    (k0_pay9 (View.ld wr rW0)) (k0_pay10 (View.ld wr rW1)) (k0_pay11 (View.ld wr rW2)) (View.ld br rB)

/-- The left side after both highway layers. -/
def leftOut (xs : Vec F S1x516x512 .f32) (wl : Vec F S1536x512 .f32) (bl : Vec F S512 .f32)
    (hl : Vec F S2x512x1024 .f32) (gl : Vec F S2x1024 .f32) : FVec F S512x512 .f32 :=
  k0_pay16 (k0_pay13 (leftProj xs wl bl) (View.ld hl rH0) (View.ld gl rG0)) (k0_pay14 (View.ld gl rG1))
    (k0_pay15 (leftProj xs wl bl) (View.ld hl rH0) (View.ld gl rG0) (View.ld hl rH1))

/-- The tile: the left side beside the right side after both of its highway layers. -/
def tile (xs : Vec F S1x516x512 .f32) (wl wr : Vec F S1536x512 .f32) (bl br : Vec F S512 .f32)
    (hl hr : Vec F S2x512x1024 .f32) (gl gr : Vec F S2x1024 .f32) : FVec F S512x1024 .f32 :=
  k0_pay1 (leftOut xs wl bl hl gl)
    (k0_pay17 (rightProj xs wr br) (View.ld hr rH0) (View.ld gr rG0))
    (k0_pay18 (rightProj xs wr br) (View.ld hr rH0) (View.ld gr rG0) (View.ld hr rH1) (View.ld gr rG1))
    (k0_pay19 (rightProj xs wr br) (View.ld hr rH0) (View.ld gr rG0) (View.ld hr rH1) (View.ld gr rG1))

/-- What the body leaves in the first output block (1×512×1024): the tile. -/
def outBlock (xs : Vec F S1x516x512 .f32) (wl wr : Vec F S1536x512 .f32) (bl br : Vec F S512 .f32)
    (hl hr : Vec F S2x512x1024 .f32) (gl gr : Vec F S2x1024 .f32) : Vec F S1x512x1024 .f32 :=
  View.canon [⟨rOut, shapeCast S1x512x1024 (tile xs wl wr bl br hl hr gl gr) shapeCasts_S512x1024_S1x512x1024⟩]

/-- What it leaves in the second output block (1×1×512×1024): the same tile. -/
def allBlock (xs : Vec F S1x516x512 .f32) (wl wr : Vec F S1536x512 .f32) (bl br : Vec F S512 .f32)
    (hl hr : Vec F S2x512x1024 .f32) (gl gr : Vec F S2x1024 .f32) : Vec F S1x1x512x1024 .f32 :=
  View.canon [⟨rAll, shapeCast S1x1x512x1024 (tile xs wl wr bl br hl hr gl gr) shapeCasts_S512x1024_S1x1x512x1024⟩]

/-- The stored payloads are the reshaped tile (the skeleton's names unfolded). -/
theorem pay2_eq (xs : Vec F S1x516x512 .f32) (wl wr : Vec F S1536x512 .f32) (bl br : Vec F S512 .f32)
    (hl hr : Vec F S2x512x1024 .f32) (gl gr : Vec F S2x1024 .f32) :
    k0_pay2 (leftOut xs wl bl hl gl)
      (k0_pay17 (rightProj xs wr br) (View.ld hr rH0) (View.ld gr rG0))
      (k0_pay18 (rightProj xs wr br) (View.ld hr rH0) (View.ld gr rG0) (View.ld hr rH1) (View.ld gr rG1))
      (k0_pay19 (rightProj xs wr br) (View.ld hr rH0) (View.ld gr rG0) (View.ld hr rH1) (View.ld gr rG1))
    = shapeCast S1x512x1024 (tile xs wl wr bl br hl hr gl gr) shapeCasts_S512x1024_S1x512x1024 := rfl

theorem pay3_eq (xs : Vec F S1x516x512 .f32) (wl wr : Vec F S1536x512 .f32) (bl br : Vec F S512 .f32)
    (hl hr : Vec F S2x512x1024 .f32) (gl gr : Vec F S2x1024 .f32) :
    k0_pay3 (leftOut xs wl bl hl gl)
      (k0_pay17 (rightProj xs wr br) (View.ld hr rH0) (View.ld gr rG0))
      (k0_pay18 (rightProj xs wr br) (View.ld hr rH0) (View.ld gr rG0) (View.ld hr rH1) (View.ld gr rG1))
      (k0_pay19 (rightProj xs wr br) (View.ld hr rH0) (View.ld gr rG0) (View.ld hr rH1) (View.ld gr rG1))
    = shapeCast S1x1x512x1024 (tile xs wl wr bl br hl hr gl gr) shapeCasts_S512x1024_S1x1x512x1024 := rfl

end Cert.Kernel.Body

end
-- ==== Proof.BBody.lean ====
/-
  The kernel body at one grid point and the run of the region.  On whole staging buffers — the nine inputs at
  known contents, the two outputs at anything — the body reads the inputs, leaves them as they were, and overwrites
  each output block with the tile (reshaped): both stores cover their block, so what the block held before does
  not matter (the body also loads each output block once before storing; the loaded value is not used).  With that
  as every point's step the library's launch theorem runs the region: @main terminates, each output array ends
  holding, block by block, what the points wrote back, and every other unscoped buffer is as the region found it.
-/
import proofs.«169205_j71021579206699_1_alg».proof.Proof.BFrame
import proofs.«169205_j71021579206699_1_alg».proof.Proof.BTile

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each output's one store covers its block -/

theorem cover_out (p : Vec F S1x512x1024 .f32) (y : S1x512x1024.Idx) :
    ∃ pc ∈ ([⟨rOut, p⟩] : List (View.Piece (Elt F) S1x512x1024 .f32)), y ∈ pc.1.set :=
  View.cover_of_tiled [⟨rOut, p⟩] S1x512x1024.size (by rfl) y

theorem cover_all (p : Vec F S1x1x512x1024 .f32) (y : S1x1x512x1024.Idx) :
    ∃ pc ∈ ([⟨rAll, p⟩] : List (View.Piece (Elt F) S1x1x512x1024 .f32)), y ∈ pc.1.set :=
  View.cover_of_tiled [⟨rAll, p⟩] S1x1x512x1024.size (by rfl) y

/-! ## The body's triple -/

set_option maxHeartbeats 4000000 in
/-- The body on whole staging buffers: inputs kept, each output left at the tile. -/
theorem sound_kernel (c : Dev nD) (E : Set ℕ) (i : grid0.Coords) (arg1 : Memref sig .tc .vmem S1x516x512 .f32) (harg1 : arg1.IsWhole) (arg2 : Memref sig .tc .vmem S1536x512 .f32) (harg2 : arg2.IsWhole) (arg3 : Memref sig .tc .vmem S1536x512 .f32) (harg3 : arg3.IsWhole) (arg4 : Memref sig .tc .vmem S512 .f32) (harg4 : arg4.IsWhole) (arg5 : Memref sig .tc .vmem S512 .f32) (harg5 : arg5.IsWhole) (arg6 : Memref sig .tc .vmem S2x512x1024 .f32) (harg6 : arg6.IsWhole) (arg7 : Memref sig .tc .vmem S2x512x1024 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S1x512x1024 .f32) (harg10 : arg10.IsWhole) (arg11 : Memref sig .tc .vmem S1x1x512x1024 .f32) (harg11 : arg11.IsWhole)
    (xs : Vec F S1x516x512 .f32) (wl wr : Vec F S1536x512 .f32) (bl br : Vec F S512 .f32) (hl hr : Vec F S2x512x1024 .f32) (gl gr : Vec F S2x1024 .f32) (K : PUnit → sProp 𝕄) :
    iprop(owns (c : Thread nD τ) arg1 fullShare xs ∗ owns (c : Thread nD τ) arg2 fullShare wl ∗ owns (c : Thread nD τ) arg3 fullShare wr ∗ owns (c : Thread nD τ) arg4 fullShare bl ∗ owns (c : Thread nD τ) arg5 fullShare br ∗ owns (c : Thread nD τ) arg6 fullShare hl ∗ owns (c : Thread nD τ) arg7 fullShare hr ∗ owns (c : Thread nD τ) arg8 fullShare gl ∗ owns (c : Thread nD τ) arg9 fullShare gr
        ∗ (∃ d, owns (c : Thread nD τ) arg10 fullShare d) ∗ (∃ d, owns (c : Thread nD τ) arg11 fullShare d)
        ∗ (iprop(owns (c : Thread nD τ) arg1 fullShare xs ∗ owns (c : Thread nD τ) arg2 fullShare wl ∗ owns (c : Thread nD τ) arg3 fullShare wr ∗ owns (c : Thread nD τ) arg4 fullShare bl ∗ owns (c : Thread nD τ) arg5 fullShare br ∗ owns (c : Thread nD τ) arg6 fullShare hl ∗ owns (c : Thread nD τ) arg7 fullShare hr ∗ owns (c : Thread nD τ) arg8 fullShare gl ∗ owns (c : Thread nD τ) arg9 fullShare gr
            ∗ owns (c : Thread nD τ) arg10 fullShare (outBlock xs wl wr bl br hl hr gl gr) ∗ owns (c : Thread nD τ) arg11 fullShare (allBlock xs wl wr bl br hl hr gl gr)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_out _)
  iexists _; isplitr
  swap; · iexact H11
  ipureintro
  try dsimp only
  exact View.read_writes_eq_canon _ _ _ (cover_all _)

/-! ## The proof data of the pipeline -/

/-- On core `c`: the arrays as the region finds them; after the body at point `t` each input's buffer at its block and
    each output's at the tile of the nine input blocks; nothing of its own in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
    | ⟨10, _⟩ => allBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]
theorem after_all (c : Dev nD) (t : Fin cfg0.N) : (dats m 0 c).after 10 t = allBlock (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d
theorem before8 (c : Dev nD) (t : Fin cfg0.N) (d) : (dats m 0 c).before 8 t d = iblk m c 8 t :=
  before_in8 m (dats m 0 c) (A_eq m c 8) (after_in8 m c) t d

/-! ## The body obligation -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out, after_all]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; each array of the pipeline ends at what the write-backs leave and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the eleven argument arrays are as launched: seven of them no window stages and no host operation
    writes; the four the pipeline stages directly (the biases) are inputs, which the pipeline only reads. -/
theorem kept_args (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_unwritten m c main_arg0 (by decide)),
      ((h c).2 main_arg1 (Pipeline.mem_restRefs_of main_arg1 (by decide) (by decide))).trans (V_unwritten m c main_arg1 (by decide)),
      ((h c).2 main_arg2 (Pipeline.mem_restRefs_of main_arg2 (by decide) (by decide))).trans (V_unwritten m c main_arg2 (by decide)),
      ((h c).2 main_arg3 (Pipeline.mem_restRefs_of main_arg3 (by decide) (by decide))).trans (V_unwritten m c main_arg3 (by decide)),
      ((h c).1 3).trans (((dats m 0 c).arrAt_in 3 rfl _).trans ((A_eq m c 3).trans (V_unwritten m c main_arg4 (by decide)))),
      ((h c).2 main_arg5 (Pipeline.mem_restRefs_of main_arg5 (by decide) (by decide))).trans (V_unwritten m c main_arg5 (by decide)),
      ((h c).1 4).trans (((dats m 0 c).arrAt_in 4 rfl _).trans ((A_eq m c 4).trans (V_unwritten m c main_arg6 (by decide)))),
      ((h c).2 main_arg7 (Pipeline.mem_restRefs_of main_arg7 (by decide) (by decide))).trans (V_unwritten m c main_arg7 (by decide)),
      ((h c).1 7).trans (((dats m 0 c).arrAt_in 7 rfl _).trans ((A_eq m c 7).trans (V_unwritten m c main_arg8 (by decide)))),
      ((h c).2 main_arg9 (Pipeline.mem_restRefs_of main_arg9 (by decide) (by decide))).trans (V_unwritten m c main_arg9 (by decide)),
      ((h c).1 8).trans (((dats m 0 c).arrAt_in 8 rfl _).trans ((A_eq m c 8).trans (V_unwritten m c main_arg10 (by decide))))⟩

/-- THE FRAME: @main terminates without a fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_args m r h c) (run_main m ρ)

end Cert.Kernel.Region

end
-- ==== Proof.KFrame.lean ====
/-
  The one region of @main, seen from the launch: what the TensorCore's buffers hold when the region is entered
  (the seven host operations before it have run: two broadcasts of the padding rows, the concatenation that
  builds the padded sequence, four transposes of the weights), that those operations write none of the eleven
  argument arrays, each window's block at a grid point, and that an input window's staging buffer holds its
  block at every point (the padded sequence is fetched at every point; the eight weight and bias windows are
  fetched once, their block index never moves).
-/
import proofs.«169205_j71021579206699_1_alg».proof.Proof.Gen.KernelIdeal.Launch
import proofs.«169205_j71021579206699_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- Core `c`'s TensorCore buffers when the region is entered: the launch contents after the seven host operations. -/
abbrev V (c : Dev nD) (b : Ref sig .tc) : Buf (Elt F) ((c : Thread nD τ).loc b) :=
  StableHlo.after hostOps0 (fun b => m (c, b)) b

/-- None of the seven operations allocates. -/
theorem hostOps0_fresh : (hostOps0 : List (HloOp τ sig (Elt F))).Forall fun op => op.fresh = ∅ := by
  simp only [List.Forall]; repeat' constructor

/-- @main is those operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The buffers the seven operations write: their seven results. -/
abbrev written : List (Ref sig .tc) := [main_v0, main_v1, main_v2, main_v3, main_v4, main_v5, main_v6]

theorem hostOps0_writes : (hostOps0 : List (HloOp τ sig (Elt F))).Forall fun op =>
    op.writes ⊆ (written.map (Proc.devRef (τ := τ) .tc)).toFinset := by
  simp only [List.Forall, StableHlo.unary_writes, StableHlo.nary_writes, Finset.singleton_subset_iff, List.mem_toFinset]
  refine ⟨?_, ?_, ?_, ?_, ?_, ?_, ?_⟩ <;> exact List.mem_map_of_mem (by decide)

/-- A buffer that is none of the seven results is found as launched. -/
theorem V_unwritten (c : Dev nD) (r : Ref sig .tc) (hr : r ∉ written) : V m c r = m ((c : Thread nD τ).loc r) :=
  StableHlo.after_of_writes_sub hostOps0 (fun b => m (c, b)) hostOps0_writes hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there or
    kept it from the point before (its block index did not move, the window is never idle and never clipped). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there or
    kept it from the point before (its block index did not move, the window is never idle and never clipped). -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there or
    kept it from the point before (its block index did not move, the window is never idle and never clipped). -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there or
    kept it from the point before (its block index did not move, the window is never idle and never clipped). -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether the pipeline fetched it there or
    kept it from the point before (its block index did not move, the window is never idle and never clipped). -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether the pipeline fetched it there or
    kept it from the point before (its block index did not move, the window is never idle and never clipped). -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether the pipeline fetched it there or
    kept it from the point before (its block index did not move, the window is never idle and never clipped). -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, whether the pipeline fetched it there or
    kept it from the point before (its block index did not move, the window is never idle and never clipped). -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, whether the pipeline fetched it there or
    kept it from the point before (its block index did not move, the window is never idle and never clipped). -/
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Region

end
-- ==== Proof.KTile.lean ====
/-
  The 512×1024 tile one grid point computes, as ONE pure function of the contents of the nine staged input
  blocks: the padded sequence of one batch element (516 rows), the two transposed projection weights (each read in
  three 512-row thirds), the two projection biases, the two stacks of transposed highway weights (each read
  layer by layer) and the two stacks of highway biases.  It is the composition of the body's named payloads over
  what its loads read; the body stores it, reshaped, into both output blocks.
-/
import proofs.«169205_j71021579206699_1_alg».proof.Proof.Gen.KernelIdeal.Skeleton
import Idealize.ShloMosaic.Lib.Pipeline.FrameBody

noncomputable section

namespace Cert.KernelIdeal.Body

open Idealize.ShloMosaic Idealize.SL.Sem Cert.KernelIdeal Cert.KernelIdeal.Gen

variable {F : FTy → Type} [FloatOps F]

/-! ## The rectangles the body loads and stores through -/

/-- The whole 1×516×512 block of the padded sequence. -/
abbrev rSeq : Rect S1x516x512 := Rect.unit (s := S1x516x512) ![0, 0, 0] S1x516x512.size inb_S1x516x512_S1x516x512_0_0_0
/-- Rows 0–511, 512–1023, 1024–1535 of a transposed projection weight. -/
abbrev rW0 : Rect S1536x512 := Rect.unit (s := S1536x512) ![0, 0] S512x512.size inb_S1536x512_S512x512_0_0
abbrev rW1 : Rect S1536x512 := Rect.unit (s := S1536x512) ![512, 0] S512x512.size inb_S1536x512_S512x512_512_0
abbrev rW2 : Rect S1536x512 := Rect.unit (s := S1536x512) ![1024, 0] S512x512.size inb_S1536x512_S512x512_1024_0
/-- A whole projection bias. -/
abbrev rB : Rect S512 := Rect.unit (s := S512) ![0] S512.size inb_S512_S512_0
/-- Layer 0 and layer 1 of a stack of transposed highway weights. -/
abbrev rH0 : Rect S2x512x1024 := Rect.unit (s := S2x512x1024) ![0, 0, 0] S1x512x1024.size inb_S2x512x1024_S1x512x1024_0_0_0
abbrev rH1 : Rect S2x512x1024 := Rect.unit (s := S2x512x1024) ![1, 0, 0] S1x512x1024.size inb_S2x512x1024_S1x512x1024_1_0_0
/-- Layer 0 and layer 1 of a stack of highway biases. -/
abbrev rG0 : Rect S2x1024 := Rect.unit (s := S2x1024) ![0, 0] S1x1024.size inb_S2x1024_S1x1024_0_0
abbrev rG1 : Rect S2x1024 := Rect.unit (s := S2x1024) ![1, 0] S1x1024.size inb_S2x1024_S1x1024_1_0
/-- The two output blocks, whole. -/
abbrev rOut : Rect S1x512x1024 := Rect.unit (s := S1x512x1024) ![0, 0, 0] S1x512x1024.size inb_S1x512x1024_S1x512x1024_0_0_0
abbrev rAll : Rect S1x1x512x1024 := Rect.unit (s := S1x1x512x1024) ![0, 0, 0, 0] S1x1x512x1024.size inb_S1x1x512x1024_S1x1x512x1024_0_0_0_0

/-! ## The tile -/

/-- The rectified left projection (rows s, s+1, s+2 of the sequence against the three thirds of the left weight). -/
def leftProj (xs : Vec F S1x516x512 .f32) (wl : Vec F S1536x512 .f32) (bl : Vec F S512 .f32) : FVec F S512x512 .f32 :=
  k0_pay8 (View.ld xs rSeq) (View.ld wl rW0) (View.ld wl rW1) (View.ld wl rW2) (View.ld bl rB)

/-- The rectified right projection (rows s+2, s+3, s+4 against the three thirds of the right weight). -/
def rightProj (xs : Vec F S1x516x512 .f32) (wr : Vec F S1536x512 .f32) (br : Vec F S512 .f32) : FVec F S512x512 .f32 :=
  k0_pay12 (k0_pay5 (View.ld xs rSeq)) (k0_pay6 (View.ld xs rSeq)) (k0_pay7 (View.ld xs rSeq))
    (k0_pay9 (View.ld wr rW0)) (k0_pay10 (View.ld wr rW1)) (k0_pay11 (View.ld wr rW2)) (View.ld br rB)

/-- The left side after both highway layers. -/
def leftOut (xs : Vec F S1x516x512 .f32) (wl : Vec F S1536x512 .f32) (bl : Vec F S512 .f32)
    (hl : Vec F S2x512x1024 .f32) (gl : Vec F S2x1024 .f32) : FVec F S512x512 .f32 :=
  k0_pay16 (k0_pay13 (leftProj xs wl bl) (View.ld hl rH0) (View.ld gl rG0)) (k0_pay14 (View.ld gl rG1))
    (k0_pay15 (leftProj xs wl bl) (View.ld hl rH0) (View.ld gl rG0) (View.ld hl rH1))

/-- The tile: the left side beside the right side after both of its highway layers. -/
def tile (xs : Vec F S1x516x512 .f32) (wl wr : Vec F S1536x512 .f32) (bl br : Vec F S512 .f32)
    (hl hr : Vec F S2x512x1024 .f32) (gl gr : Vec F S2x1024 .f32) : FVec F S512x1024 .f32 :=
  k0_pay1 (leftOut xs wl bl hl gl)
    (k0_pay17 (rightProj xs wr br) (View.ld hr rH0) (View.ld gr rG0))
    (k0_pay18 (rightProj xs wr br) (View.ld hr rH0) (View.ld gr rG0) (View.ld hr rH1) (View.ld gr rG1))
    (k0_pay19 (rightProj xs wr br) (View.ld hr rH0) (View.ld gr rG0) (View.ld hr rH1) (View.ld gr rG1))

/-- What the body leaves in the first output block (1×512×1024): the tile. -/
def outBlock (xs : Vec F S1x516x512 .f32) (wl wr : Vec F S1536x512 .f32) (bl br : Vec F S512 .f32)
    (hl hr : Vec F S2x512x1024 .f32) (gl gr : Vec F S2x1024 .f32) : Vec F S1x512x1024 .f32 :=
  View.canon [⟨rOut, shapeCast S1x512x1024 (tile xs wl wr bl br hl hr gl gr) shapeCasts_S512x1024_S1x512x1024⟩]

/-- What it leaves in the second output block (1×1×512×1024): the same tile. -/
def allBlock (xs : Vec F S1x516x512 .f32) (wl wr : Vec F S1536x512 .f32) (bl br : Vec F S512 .f32)
    (hl hr : Vec F S2x512x1024 .f32) (gl gr : Vec F S2x1024 .f32) : Vec F S1x1x512x1024 .f32 :=
  View.canon [⟨rAll, shapeCast S1x1x512x1024 (tile xs wl wr bl br hl hr gl gr) shapeCasts_S512x1024_S1x1x512x1024⟩]

/-- The stored payloads are the reshaped tile (the skeleton's names unfolded). -/
theorem pay2_eq (xs : Vec F S1x516x512 .f32) (wl wr : Vec F S1536x512 .f32) (bl br : Vec F S512 .f32)
    (hl hr : Vec F S2x512x1024 .f32) (gl gr : Vec F S2x1024 .f32) :
    k0_pay2 (leftOut xs wl bl hl gl)
      (k0_pay17 (rightProj xs wr br) (View.ld hr rH0) (View.ld gr rG0))
      (k0_pay18 (rightProj xs wr br) (View.ld hr rH0) (View.ld gr rG0) (View.ld hr rH1) (View.ld gr rG1))
      (k0_pay19 (rightProj xs wr br) (View.ld hr rH0) (View.ld gr rG0) (View.ld hr rH1) (View.ld gr rG1))
    = shapeCast S1x512x1024 (tile xs wl wr bl br hl hr gl gr) shapeCasts_S512x1024_S1x512x1024 := rfl

theorem pay3_eq (xs : Vec F S1x516x512 .f32) (wl wr : Vec F S1536x512 .f32) (bl br : Vec F S512 .f32)
    (hl hr : Vec F S2x512x1024 .f32) (gl gr : Vec F S2x1024 .f32) :
    k0_pay3 (leftOut xs wl bl hl gl)
      (k0_pay17 (rightProj xs wr br) (View.ld hr rH0) (View.ld gr rG0))
      (k0_pay18 (rightProj xs wr br) (View.ld hr rH0) (View.ld gr rG0) (View.ld hr rH1) (View.ld gr rG1))
      (k0_pay19 (rightProj xs wr br) (View.ld hr rH0) (View.ld gr rG0) (View.ld hr rH1) (View.ld gr rG1))
    = shapeCast S1x1x512x1024 (tile xs wl wr bl br hl hr gl gr) shapeCasts_S512x1024_S1x1x512x1024 := rfl

end Cert.KernelIdeal.Body

end
-- ==== Proof.KBody.lean ====
/-
  The kernel body at one grid point and the run of the region.  On whole staging buffers — the nine inputs at
  known contents, the two outputs at anything — the body reads the inputs, leaves them as they were, and overwrites
  each output block with the tile (reshaped): both stores cover their block, so what the block held before does
  not matter (the body also loads each output block once before storing; the loaded value is not used).  With that
  as every point's step the library's launch theorem runs the region: @main terminates, each output array ends
  holding, block by block, what the points wrote back, and every other unscoped buffer is as the region found it.
-/
import proofs.«169205_j71021579206699_1_alg».proof.Proof.KFrame
import proofs.«169205_j71021579206699_1_alg».proof.Proof.KTile

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each output's one store covers its block -/

theorem cover_out (p : Vec F S1x512x1024 .f32) (y : S1x512x1024.Idx) :
    ∃ pc ∈ ([⟨rOut, p⟩] : List (View.Piece (Elt F) S1x512x1024 .f32)), y ∈ pc.1.set :=
  View.cover_of_tiled [⟨rOut, p⟩] S1x512x1024.size (by rfl) y

theorem cover_all (p : Vec F S1x1x512x1024 .f32) (y : S1x1x512x1024.Idx) :
    ∃ pc ∈ ([⟨rAll, p⟩] : List (View.Piece (Elt F) S1x1x512x1024 .f32)), y ∈ pc.1.set :=
  View.cover_of_tiled [⟨rAll, p⟩] S1x1x512x1024.size (by rfl) y

/-! ## The body's triple -/

set_option maxHeartbeats 4000000 in
/-- The body on whole staging buffers: inputs kept, each output left at the tile. -/
theorem sound_kernel (c : Dev nD) (E : Set ℕ) (i : grid0.Coords) (arg1 : Memref sig .tc .vmem S1x516x512 .f32) (harg1 : arg1.IsWhole) (arg2 : Memref sig .tc .vmem S1536x512 .f32) (harg2 : arg2.IsWhole) (arg3 : Memref sig .tc .vmem S1536x512 .f32) (harg3 : arg3.IsWhole) (arg4 : Memref sig .tc .vmem S512 .f32) (harg4 : arg4.IsWhole) (arg5 : Memref sig .tc .vmem S512 .f32) (harg5 : arg5.IsWhole) (arg6 : Memref sig .tc .vmem S2x512x1024 .f32) (harg6 : arg6.IsWhole) (arg7 : Memref sig .tc .vmem S2x512x1024 .f32) (harg7 : arg7.IsWhole) (arg8 : Memref sig .tc .vmem S2x1024 .f32) (harg8 : arg8.IsWhole) (arg9 : Memref sig .tc .vmem S2x1024 .f32) (harg9 : arg9.IsWhole) (arg10 : Memref sig .tc .vmem S1x512x1024 .f32) (harg10 : arg10.IsWhole) (arg11 : Memref sig .tc .vmem S1x1x512x1024 .f32) (harg11 : arg11.IsWhole)
    (xs : Vec F S1x516x512 .f32) (wl wr : Vec F S1536x512 .f32) (bl br : Vec F S512 .f32) (hl hr : Vec F S2x512x1024 .f32) (gl gr : Vec F S2x1024 .f32) (K : PUnit → sProp 𝕄) :
    iprop(owns (c : Thread nD τ) arg1 fullShare xs ∗ owns (c : Thread nD τ) arg2 fullShare wl ∗ owns (c : Thread nD τ) arg3 fullShare wr ∗ owns (c : Thread nD τ) arg4 fullShare bl ∗ owns (c : Thread nD τ) arg5 fullShare br ∗ owns (c : Thread nD τ) arg6 fullShare hl ∗ owns (c : Thread nD τ) arg7 fullShare hr ∗ owns (c : Thread nD τ) arg8 fullShare gl ∗ owns (c : Thread nD τ) arg9 fullShare gr
        ∗ (∃ d, owns (c : Thread nD τ) arg10 fullShare d) ∗ (∃ d, owns (c : Thread nD τ) arg11 fullShare d)
        ∗ (iprop(owns (c : Thread nD τ) arg1 fullShare xs ∗ owns (c : Thread nD τ) arg2 fullShare wl ∗ owns (c : Thread nD τ) arg3 fullShare wr ∗ owns (c : Thread nD τ) arg4 fullShare bl ∗ owns (c : Thread nD τ) arg5 fullShare br ∗ owns (c : Thread nD τ) arg6 fullShare hl ∗ owns (c : Thread nD τ) arg7 fullShare hr ∗ owns (c : Thread nD τ) arg8 fullShare gl ∗ owns (c : Thread nD τ) arg9 fullShare gr
            ∗ owns (c : Thread nD τ) arg10 fullShare (outBlock xs wl wr bl br hl hr gl gr) ∗ owns (c : Thread nD τ) arg11 fullShare (allBlock xs wl wr bl br hl hr gl gr)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton, k0_part2_eq_skeleton, k0_part3_eq_skeleton]; unfold k0_part1_skel k0_part2_skel k0_part3_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf1 hf2 hf3 hf4 hf5 hf6 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover_out _)
  iexists _; isplitr
  swap; · iexact H11
  ipureintro
  try dsimp only
  exact View.read_writes_eq_canon _ _ _ (cover_all _)

/-! ## The proof data of the pipeline -/

/-- On core `c`: the arrays as the region finds them; after the body at point `t` each input's buffer at its block and
    each output's at the tile of the nine input blocks; nothing of its own in the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t) (iblk m c 5 t) (iblk m c 6 t) (iblk m c 7 t) (iblk m c 8 t)
    | ⟨10, _⟩ => allBlock (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t = outBlock (iblk m c 0 t) (iblk m c 1 t) (iblk m c 2 t) (iblk m c 3 t) (iblk m c 4 t) (iblk m c 5 t) (iblk m c 6 t) (iblk m c 7 t) (iblk m c 8 t) := by dsimp only [dats]
theorem after_all (c : Dev nD) (t : Fin cfg0.N) : (dats m 0 c).after 10 t = allBlock (iblk m c 0 t) (iblk m c 1 t) (iblk m c 2 t) (iblk m c 3 t) (iblk m c 4 t) (iblk m c 5 t) (iblk m c 6 t) (iblk m c 7 t) (iblk m c 8 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d
theorem before8 (c : Dev nD) (t : Fin cfg0.N) (d) : (dats m 0 c).before 8 t d = iblk m c 8 t :=
  before_in8 m (dats m 0 c) (A_eq m c 8) (after_in8 m c) t d

/-! ## The body obligation -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out, after_all]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; each array of the pipeline ends at what the write-backs leave and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the eleven argument arrays are as launched: seven of them no window stages and no host operation
    writes; the four the pipeline stages directly (the biases) are inputs, which the pipeline only reads. -/
theorem kept_args (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_unwritten m c main_arg0 (by decide)),
      ((h c).2 main_arg1 (Pipeline.mem_restRefs_of main_arg1 (by decide) (by decide))).trans (V_unwritten m c main_arg1 (by decide)),
      ((h c).2 main_arg2 (Pipeline.mem_restRefs_of main_arg2 (by decide) (by decide))).trans (V_unwritten m c main_arg2 (by decide)),
      ((h c).2 main_arg3 (Pipeline.mem_restRefs_of main_arg3 (by decide) (by decide))).trans (V_unwritten m c main_arg3 (by decide)),
      ((h c).1 3).trans (((dats m 0 c).arrAt_in 3 rfl _).trans ((A_eq m c 3).trans (V_unwritten m c main_arg4 (by decide)))),
      ((h c).2 main_arg5 (Pipeline.mem_restRefs_of main_arg5 (by decide) (by decide))).trans (V_unwritten m c main_arg5 (by decide)),
      ((h c).1 4).trans (((dats m 0 c).arrAt_in 4 rfl _).trans ((A_eq m c 4).trans (V_unwritten m c main_arg6 (by decide)))),
      ((h c).2 main_arg7 (Pipeline.mem_restRefs_of main_arg7 (by decide) (by decide))).trans (V_unwritten m c main_arg7 (by decide)),
      ((h c).1 7).trans (((dats m 0 c).arrAt_in 7 rfl _).trans ((A_eq m c 7).trans (V_unwritten m c main_arg8 (by decide)))),
      ((h c).2 main_arg9 (Pipeline.mem_restRefs_of main_arg9 (by decide) (by decide))).trans (V_unwritten m c main_arg9 (by decide)),
      ((h c).1 8).trans (((dats m 0 c).arrAt_in 8 rfl _).trans ((A_eq m c 8).trans (V_unwritten m c main_arg10 (by decide))))⟩

/-- THE FRAME: @main terminates without a fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_args m r h c) (run_main m ρ)

end Cert.KernelIdeal.Region

end
-- ==== Proof.KReads.lean ====
/-
  What the region reads: each of the nine input windows' blocks at a grid point, read at an index, is an entry of
  the argument arrays.  The padded sequence (two broadcast rows, the input rows, two broadcast rows) is fetched one
  batch element at a point; the weights are fetched whole, the two dense weights and the two highway weights
  transposed beforehand, so that a block entry at (k, h) is the argument's entry at (h, k).
-/
import proofs.«169205_j71021579206699_1_alg».proof.Proof.KFrame
import proofs.«169205_j71021579206699_1_alg».proof.Proof.LibNary3
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.RegionValue

open Idealize.ShloMosaic Idealize.ShloMosaic.TcCoe Idealize.SL.Sem Cert.KernelIdeal Cert.KernelIdeal.Gen Cert.KernelIdeal.Region

variable (m : (ℓ : Loc nD τ sig) → Buf (Elt Ideal) ℓ)

/-! ## The arrays the region finds -/

/-- The padded sequence: two broadcast padding rows, the input rows, two broadcast padding rows. -/
def padded (c : Dev nD) : (⟨S32x516x512, .f32⟩ : BufTy).Contents (Elt Ideal) :=
  concatenate S32x516x512 1 [⟨S32x2x512, broadcastInDim S32x2x512 ![1, 2] bcast_S2x512_S32x2x512_1_2 (m ((c.tc : Thread nD τ).loc main_arg1))⟩, ⟨S32x512x512, m ((c.tc : Thread nD τ).loc main_arg0)⟩, ⟨S32x2x512, broadcastInDim S32x2x512 ![1, 2] bcast_S2x512_S32x2x512_1_2 (m ((c.tc : Thread nD τ).loc main_arg2))⟩] concatenates_S32x2x512_S32x512x512_S32x2x512_S32x516x512_d1

/-- The region finds the padded sequence in the first window's array. -/
theorem V_padded (c : Dev nD) : V m c main_v2 = padded m c := by
  show StableHlo.after hostOps0 (fun b => m (c, b)) (Proc.devRef .tc main_v2) = _
  simp only [hostOps0, StableHlo.after_cons, StableHlo.after_nil]
  repeat (first | rw [Cert.Lib.nary3_result] | rw [StableHlo.unary_result] | (rw [StableHlo.unary_result_ne]; rotate_left; decide) | (rw [StableHlo.nary_result_ne]; rotate_left; decide))
  rfl

/-- The left dense weights, transposed. -/
theorem V_wl (c : Dev nD) : V m c main_v3 = transpose S1536x512 [1, 0] (m ((c.tc : Thread nD τ).loc main_arg3)) transposes_S512x1536_S1536x512_1_0 := by
  show StableHlo.after hostOps0 (fun b => m (c, b)) (Proc.devRef .tc main_v3) = _
  simp only [hostOps0, StableHlo.after_cons, StableHlo.after_nil]
  repeat (first | rw [Cert.Lib.nary3_result] | rw [StableHlo.unary_result] | (rw [StableHlo.unary_result_ne]; rotate_left; decide) | (rw [StableHlo.nary_result_ne]; rotate_left; decide))

/-- The right dense weights, transposed. -/
theorem V_wr (c : Dev nD) : V m c main_v4 = transpose S1536x512 [1, 0] (m ((c.tc : Thread nD τ).loc main_arg5)) transposes_S512x1536_S1536x512_1_0 := by
  show StableHlo.after hostOps0 (fun b => m (c, b)) (Proc.devRef .tc main_v4) = _
  simp only [hostOps0, StableHlo.after_cons, StableHlo.after_nil]
  repeat (first | rw [Cert.Lib.nary3_result] | rw [StableHlo.unary_result] | (rw [StableHlo.unary_result_ne]; rotate_left; decide) | (rw [StableHlo.nary_result_ne]; rotate_left; decide))

/-- The left highway weights, each layer's matrix transposed. -/
theorem V_hl (c : Dev nD) : V m c main_v5 = transpose S2x512x1024 [0, 2, 1] (m ((c.tc : Thread nD τ).loc main_arg7)) transposes_S2x1024x512_S2x512x1024_0_2_1 := by
  show StableHlo.after hostOps0 (fun b => m (c, b)) (Proc.devRef .tc main_v5) = _
  simp only [hostOps0, StableHlo.after_cons, StableHlo.after_nil]
  repeat (first | rw [Cert.Lib.nary3_result] | rw [StableHlo.unary_result] | (rw [StableHlo.unary_result_ne]; rotate_left; decide) | (rw [StableHlo.nary_result_ne]; rotate_left; decide))

/-- The right highway weights, each layer's matrix transposed. -/
theorem V_hr (c : Dev nD) : V m c main_v6 = transpose S2x512x1024 [0, 2, 1] (m ((c.tc : Thread nD τ).loc main_arg9)) transposes_S2x1024x512_S2x512x1024_0_2_1 := by
  show StableHlo.after hostOps0 (fun b => m (c, b)) (Proc.devRef .tc main_v6) = _
  simp only [hostOps0, StableHlo.after_cons, StableHlo.after_nil]
  repeat (first | rw [Cert.Lib.nary3_result] | rw [StableHlo.unary_result] | (rw [StableHlo.unary_result_ne]; rotate_left; decide) | (rw [StableHlo.nary_result_ne]; rotate_left; decide))

/-! ## Where each window's block sits in its array -/

/-- The first window's block at point `t` is batch element `t`, all of its rows and features. -/
theorem idx_seq : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The weight and bias windows' blocks are their whole arrays at every point. -/
theorem idx_wl : ∀ t : Fin cfg0.N, win0_1.index t 0 = 0 ∧ win0_1.index t 1 = 0 :=
  (by decide +kernel : ∀ t : Fin grid0.N, win0_1.index t 0 = 0 ∧ win0_1.index t 1 = 0)
theorem idx_wr : ∀ t : Fin cfg0.N, win0_2.index t 0 = 0 ∧ win0_2.index t 1 = 0 :=
  (by decide +kernel : ∀ t : Fin grid0.N, win0_2.index t 0 = 0 ∧ win0_2.index t 1 = 0)
theorem idx_bl : ∀ t : Fin cfg0.N, win0_3.index t 0 = 0 :=
  (by decide +kernel : ∀ t : Fin grid0.N, win0_3.index t 0 = 0)
theorem idx_br : ∀ t : Fin cfg0.N, win0_4.index t 0 = 0 :=
  (by decide +kernel : ∀ t : Fin grid0.N, win0_4.index t 0 = 0)
theorem idx_hl : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx_hr : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem idx_gl : ∀ t : Fin cfg0.N, win0_7.index t 0 = 0 ∧ win0_7.index t 1 = 0 :=
  (by decide +kernel : ∀ t : Fin grid0.N, win0_7.index t 0 = 0 ∧ win0_7.index t 1 = 0)
theorem idx_gr : ∀ t : Fin cfg0.N, win0_8.index t 0 = 0 ∧ win0_8.index t 1 = 0 :=
  (by decide +kernel : ∀ t : Fin grid0.N, win0_8.index t 0 = 0 ∧ win0_8.index t 1 = 0)

/-! ## The blocks read at an index -/

/-- Batch element `t` of the padded sequence, row `r`, feature `d`. -/
theorem blk_seq (c : Dev nD) (t : Fin cfg0.N) (r : Fin 516) (d : Fin 512) :
    iblk m c 0 t (ValueIdx.ix3 (0 : Fin 1) r d)
      = padded m c (ValueIdx.ix3 ⟨t.val, Nat.lt_of_lt_of_eq t.isLt (show cfg0.N = 32 from N_0)⟩ r d) := by
  obtain ⟨h0, h1, h2⟩ := idx_seq t
  unfold iblk
  rw [View.read_apply]
  show V m c main_v2 (((cfg0.win 0).blk t).view.emb (ValueIdx.ix3 (0 : Fin 1) r d)) = _
  rw [V_padded]
  congr 1
  funext a
  apply Fin.ext
  match a with
  | ⟨0, _⟩ => show win0_0.index t 0 * 1 + 1 * (0 : Fin 1).val = t.val; rw [h0]; simp
  | ⟨1, _⟩ => show win0_0.index t 1 * 516 + 1 * r.val = r.val; rw [h1]; omega
  | ⟨2, _⟩ => show win0_0.index t 2 * 512 + 1 * d.val = d.val; rw [h2]; omega

/-- The left dense weights: the block's entry at (k, h) is the argument's at (h, k). -/
theorem blk_wl (c : Dev nD) (t : Fin cfg0.N) (k : Fin 1536) (h : Fin 512) :
    iblk m c 1 t (ValueIdx.ix2 k h) = m ((c.tc : Thread nD τ).loc main_arg3) (ValueIdx.ix2 h k) := by
  obtain ⟨h0, h1⟩ := idx_wl t
  have e' : ((cfg0.win 1).blk t).view.emb (ValueIdx.ix2 k h) = (ValueIdx.ix2 k h : S1536x512.Idx) :=
    funext fun a => Fin.ext (by
      match a with
      | ⟨0, _⟩ => show win0_1.index t 0 * 1536 + 1 * k.val = k.val; rw [h0]; omega
      | ⟨1, _⟩ => show win0_1.index t 1 * 512 + 1 * h.val = h.val; rw [h1]; omega)
  unfold iblk
  rw [View.read_apply]
  show V m c main_v3 (((cfg0.win 1).blk t).view.emb (ValueIdx.ix2 k h)) = _
  rw [e', V_wl]
  exact ValueIdx.transpose_ix2_apply _ _ k h

/-- The right dense weights: the block's entry at (k, h) is the argument's at (h, k). -/
theorem blk_wr (c : Dev nD) (t : Fin cfg0.N) (k : Fin 1536) (h : Fin 512) :
    iblk m c 2 t (ValueIdx.ix2 k h) = m ((c.tc : Thread nD τ).loc main_arg5) (ValueIdx.ix2 h k) := by
  obtain ⟨h0, h1⟩ := idx_wr t
  have e' : ((cfg0.win 2).blk t).view.emb (ValueIdx.ix2 k h) = (ValueIdx.ix2 k h : S1536x512.Idx) :=
    funext fun a => Fin.ext (by
      match a with
      | ⟨0, _⟩ => show win0_2.index t 0 * 1536 + 1 * k.val = k.val; rw [h0]; omega
      | ⟨1, _⟩ => show win0_2.index t 1 * 512 + 1 * h.val = h.val; rw [h1]; omega)
  unfold iblk
  rw [View.read_apply]
  show V m c main_v4 (((cfg0.win 2).blk t).view.emb (ValueIdx.ix2 k h)) = _
  rw [e', V_wr]
  exact ValueIdx.transpose_ix2_apply _ _ k h

/-- The left dense bias. -/
theorem blk_bl (c : Dev nD) (t : Fin cfg0.N) (h : Fin 512) :
    iblk m c 3 t (ValueIdx.ix1 h) = m ((c.tc : Thread nD τ).loc main_arg4) (ValueIdx.ix1 h) := by
  have h0 := idx_bl t
  have e' : ((cfg0.win 3).blk t).view.emb (ValueIdx.ix1 h) = (ValueIdx.ix1 h : S512.Idx) :=
    funext fun a => Fin.ext (by
      match a with
      | ⟨0, _⟩ => show win0_3.index t 0 * 512 + 1 * h.val = h.val; rw [h0]; omega)
  unfold iblk
  rw [View.read_apply]
  show V m c main_arg4 (((cfg0.win 3).blk t).view.emb (ValueIdx.ix1 h)) = _
  rw [e', V_unwritten m c main_arg4 (by decide)]

/-- The right dense bias. -/
theorem blk_br (c : Dev nD) (t : Fin cfg0.N) (h : Fin 512) :
    iblk m c 4 t (ValueIdx.ix1 h) = m ((c.tc : Thread nD τ).loc main_arg6) (ValueIdx.ix1 h) := by
  have h0 := idx_br t
  have e' : ((cfg0.win 4).blk t).view.emb (ValueIdx.ix1 h) = (ValueIdx.ix1 h : S512.Idx) :=
    funext fun a => Fin.ext (by
      match a with
      | ⟨0, _⟩ => show win0_4.index t 0 * 512 + 1 * h.val = h.val; rw [h0]; omega)
  unfold iblk
  rw [View.read_apply]
  show V m c main_arg6 (((cfg0.win 4).blk t).view.emb (ValueIdx.ix1 h)) = _
  rw [e', V_unwritten m c main_arg6 (by decide)]

/-- The left highway weights: layer l's entry at (d, e) is the argument's at (l, e, d). -/
theorem blk_hl (c : Dev nD) (t : Fin cfg0.N) (l : Fin 2) (d : Fin 512) (e : Fin 1024) :
    iblk m c 5 t (ValueIdx.ix3 l d e) = m ((c.tc : Thread nD τ).loc main_arg7) (ValueIdx.ix3 l e d) := by
  obtain ⟨h0, h1, h2⟩ := idx_hl t
  have e' : ((cfg0.win 5).blk t).view.emb (ValueIdx.ix3 l d e) = (ValueIdx.ix3 l d e : S2x512x1024.Idx) :=
    funext fun a => Fin.ext (by
      match a with
      | ⟨0, _⟩ => show win0_5.index t 0 * 2 + 1 * l.val = l.val; rw [h0]; omega
      | ⟨1, _⟩ => show win0_5.index t 1 * 512 + 1 * d.val = d.val; rw [h1]; omega
      | ⟨2, _⟩ => show win0_5.index t 2 * 1024 + 1 * e.val = e.val; rw [h2]; omega)
  unfold iblk
  rw [View.read_apply]
  show V m c main_v5 (((cfg0.win 5).blk t).view.emb (ValueIdx.ix3 l d e)) = _
  rw [e', V_hl]
  exact ValueIdx.transpose_ix3_021_apply _ _ l d e

/-- The right highway weights: layer l's entry at (d, e) is the argument's at (l, e, d). -/
theorem blk_hr (c : Dev nD) (t : Fin cfg0.N) (l : Fin 2) (d : Fin 512) (e : Fin 1024) :
    iblk m c 6 t (ValueIdx.ix3 l d e) = m ((c.tc : Thread nD τ).loc main_arg9) (ValueIdx.ix3 l e d) := by
  obtain ⟨h0, h1, h2⟩ := idx_hr t
  have e' : ((cfg0.win 6).blk t).view.emb (ValueIdx.ix3 l d e) = (ValueIdx.ix3 l d e : S2x512x1024.Idx) :=
    funext fun a => Fin.ext (by
      match a with
      | ⟨0, _⟩ => show win0_6.index t 0 * 2 + 1 * l.val = l.val; rw [h0]; omega
      | ⟨1, _⟩ => show win0_6.index t 1 * 512 + 1 * d.val = d.val; rw [h1]; omega
      | ⟨2, _⟩ => show win0_6.index t 2 * 1024 + 1 * e.val = e.val; rw [h2]; omega)
  unfold iblk
  rw [View.read_apply]
  show V m c main_v6 (((cfg0.win 6).blk t).view.emb (ValueIdx.ix3 l d e)) = _
  rw [e', V_hr]
  exact ValueIdx.transpose_ix3_021_apply _ _ l d e

/-- The left highway biases. -/
theorem blk_gl (c : Dev nD) (t : Fin cfg0.N) (l : Fin 2) (e : Fin 1024) :
    iblk m c 7 t (ValueIdx.ix2 l e) = m ((c.tc : Thread nD τ).loc main_arg8) (ValueIdx.ix2 l e) := by
  obtain ⟨h0, h1⟩ := idx_gl t
  have e' : ((cfg0.win 7).blk t).view.emb (ValueIdx.ix2 l e) = (ValueIdx.ix2 l e : S2x1024.Idx) :=
    funext fun a => Fin.ext (by
      match a with
      | ⟨0, _⟩ => show win0_7.index t 0 * 2 + 1 * l.val = l.val; rw [h0]; omega
      | ⟨1, _⟩ => show win0_7.index t 1 * 1024 + 1 * e.val = e.val; rw [h1]; omega)
  unfold iblk
  rw [View.read_apply]
  show V m c main_arg8 (((cfg0.win 7).blk t).view.emb (ValueIdx.ix2 l e)) = _
  rw [e', V_unwritten m c main_arg8 (by decide)]

/-- The right highway biases. -/
theorem blk_gr (c : Dev nD) (t : Fin cfg0.N) (l : Fin 2) (e : Fin 1024) :
    iblk m c 8 t (ValueIdx.ix2 l e) = m ((c.tc : Thread nD τ).loc main_arg10) (ValueIdx.ix2 l e) := by
  obtain ⟨h0, h1⟩ := idx_gr t
  have e' : ((cfg0.win 8).blk t).view.emb (ValueIdx.ix2 l e) = (ValueIdx.ix2 l e : S2x1024.Idx) :=
    funext fun a => Fin.ext (by
      match a with
      | ⟨0, _⟩ => show win0_8.index t 0 * 2 + 1 * l.val = l.val; rw [h0]; omega
      | ⟨1, _⟩ => show win0_8.index t 1 * 1024 + 1 * e.val = e.val; rw [h1]; omega)
  unfold iblk
  rw [View.read_apply]
  show V m c main_arg10 (((cfg0.win 8).blk t).view.emb (ValueIdx.ix2 l e)) = _
  rw [e', V_unwritten m c main_arg10 (by decide)]

end Cert.KernelIdeal.RegionValue

end
-- ==== Proof.Spec.lean ====
/-
  What both programs compute, as plain functions of plain index tuples over the extended reals.

  A padded sequence `P` (516 rows of 512 features: two learnt rows, the 512 input rows, two learnt rows) is
  read through two sliding windows of three consecutive rows, the "left" one starting at row `s` and the
  "right" one at row `s + 2`.  Each window, flattened to 1536 features, goes through a dense layer and a
  rectifier, then through two highway layers; the two 512-wide results are laid side by side.
-/
import Idealize.ShloMosaic.PureOps.Ideal
import Idealize.ShloMosaic.Lib.ValueIdx
import Mathlib.Algebra.BigOperators.Fin

noncomputable section

namespace Cert.Spec

open Idealize.ShloMosaic

/-- A rank-3 array of extended reals as a function of three coordinates. -/
def fn3 {a b c : Nat} (x : (⟨3, ![a, b, c]⟩ : Shape).Idx → EReal) (i : Fin a) (j : Fin b) (k : Fin c) : EReal :=
  x (ValueIdx.ix3 i j k)
/-- A rank-2 array as a function of two coordinates. -/
def fn2 {a b : Nat} (x : (⟨2, ![a, b]⟩ : Shape).Idx → EReal) (i : Fin a) (j : Fin b) : EReal := x (ValueIdx.ix2 i j)
/-- A rank-1 array as a function of one coordinate. -/
def fn1 {a : Nat} (x : (⟨1, ![a]⟩ : Shape).Idx → EReal) (i : Fin a) : EReal := x (ValueIdx.ix1 i)

/-- One output feature of a dense layer: the inner product of the input row with row `e` of the weights, plus the bias. -/
def affine {n k : Nat} (W : Fin n → Fin k → EReal) (β : Fin n → EReal) (x : Fin k → EReal) (e : Fin n) : EReal :=
  (∑ d : Fin k, x d * W e d) + β e

/-- Rows `r`, `r + 1`, `r + 2` of the padded sequence laid end to end: feature `k` is entry `k % 512` of row `r + k / 512`. -/
def win3 (P : Fin 516 → Fin 512 → EReal) (r : Nat) (hr : r + 2 < 516) (k : Fin 1536) : EReal :=
  P ⟨r + k.val / 512, by have := k.isLt; omega⟩ ⟨k.val % 512, Nat.mod_lt _ (by decide)⟩

/-- The rectified projection of the window that starts `off` rows below sequence position `s`. -/
def proj (P : Fin 516 → Fin 512 → EReal) (W : Fin 512 → Fin 1536 → EReal) (β : Fin 512 → EReal)
    (off : Nat) (hoff : off ≤ 2) (s h : Fin 512) : EReal :=
  max (affine W β (win3 P (s.val + off) (by have := s.isLt; omega)) h) 0

/-- One highway layer on a 512×512 tile `y`: with `p = y·Hᵀ + γ` (1024 features), the gate is the logistic of the
    upper half of `p`, the candidate the rectified lower half, and the result `gate · y + (1 − gate) · candidate`. -/
def layer (H : Fin 1024 → Fin 512 → EReal) (γ : Fin 1024 → EReal) (y : Fin 512 → Fin 512 → EReal) (s h : Fin 512) : EReal :=
  Ideal.logistic (affine H γ (y s) ⟨512 + h.val, by have := h.isLt; omega⟩) * y s h
    + (1 - Ideal.logistic (affine H γ (y s) ⟨512 + h.val, by have := h.isLt; omega⟩))
        * max (affine H γ (y s) ⟨h.val, by have := h.isLt; omega⟩) 0

/-- One side (left or right): projection, then the two highway layers. -/
def side (P : Fin 516 → Fin 512 → EReal) (W : Fin 512 → Fin 1536 → EReal) (β : Fin 512 → EReal) (off : Nat) (hoff : off ≤ 2)
    (H : Fin 2 → Fin 1024 → Fin 512 → EReal) (γ : Fin 2 → Fin 1024 → EReal) : Fin 512 → Fin 512 → EReal :=
  layer (H 1) (γ 1) (layer (H 0) (γ 0) (proj P W β off hoff))

/-- One batch element's 512×1024 result: the left side in features 0–511, the right side (window two rows lower) in 512–1023. -/
def tile (P : Fin 516 → Fin 512 → EReal)
    (LW : Fin 512 → Fin 1536 → EReal) (lb : Fin 512 → EReal) (RW : Fin 512 → Fin 1536 → EReal) (rb : Fin 512 → EReal)
    (LH : Fin 2 → Fin 1024 → Fin 512 → EReal) (lγ : Fin 2 → Fin 1024 → EReal)
    (RH : Fin 2 → Fin 1024 → Fin 512 → EReal) (rγ : Fin 2 → Fin 1024 → EReal) (s : Fin 512) (e : Fin 1024) : EReal :=
  if h : e.val < 512 then side P LW lb 0 (by decide) LH lγ s ⟨e.val, h⟩
  else side P RW rb 2 (by decide) RH rγ s ⟨e.val - 512, by have := e.isLt; omega⟩

/-- The whole result: batch element `b` reads rows of `Pd b`. -/
def whole (Pd : Fin 32 → Fin 516 → Fin 512 → EReal)
    (LW : Fin 512 → Fin 1536 → EReal) (lb : Fin 512 → EReal) (RW : Fin 512 → Fin 1536 → EReal) (rb : Fin 512 → EReal)
    (LH : Fin 2 → Fin 1024 → Fin 512 → EReal) (lγ : Fin 2 → Fin 1024 → EReal)
    (RH : Fin 2 → Fin 1024 → Fin 512 → EReal) (rγ : Fin 2 → Fin 1024 → EReal) (b : Fin 32) (s : Fin 512) (e : Fin 1024) : EReal :=
  tile (Pd b) LW lb RW rb LH lγ RH rγ s e

/-- A sum over 1536 features is the sum of its three 512-feature thirds (any order and grouping of a finite sum of
    extended reals gives the same value: addition there is commutative and associative). -/
theorem sum_thirds (f : Fin 1536 → EReal) :
    ∑ k : Fin 1536, f k
      = (∑ d : Fin 512, f ⟨d.val, by have := d.isLt; omega⟩ + ∑ d : Fin 512, f ⟨512 + d.val, by have := d.isLt; omega⟩)
          + ∑ d : Fin 512, f ⟨1024 + d.val, by have := d.isLt; omega⟩ := by
  have e1 := Fin.sum_univ_add (a := 1024) (b := 512) (f := fun i : Fin (1024 + 512) => f ⟨i.val, i.isLt⟩)
  have e2 := Fin.sum_univ_add (a := 512) (b := 512) (f := fun i : Fin (512 + 512) => f ⟨i.val, by have := i.isLt; omega⟩)
  calc ∑ k : Fin 1536, f k = ∑ i : Fin (1024 + 512), f ⟨i.val, i.isLt⟩ := rfl
    _ = _ := by
      rw [e1]
      exact congrArg₂ (· + ·) e2 rfl

/-- The bit pattern of the float one denotes the real number one. -/
theorem ofBits_one_f32 : Ideal.ofBits .f32 0x3F800000#32 = 1 := by
  simp [Ideal.ofBits, Ideal.ieee]
  rw [← EReal.coe_mul, ← EReal.coe_one]
  congr 1
  norm_num

end Cert.Spec

end
-- ==== Proof.KTileValue.lean ====
/-
  The 512×1024 tile of one grid point, read at an index `(s, e)`, is the specification's tile of the nine staged arrays
  read by coordinates.  The tile is built from three kinds of 512-row tiles: a rectified projection (three row windows of
  the padded sequence against the three thirds of a transposed weight, the three 512-term sums being one 1536-term sum),
  a highway layer's pre-activation (a tile against one layer of transposed weights, plus a bias row), and the highway mix
  (gate times input plus one minus gate times candidate).  Each is read at an index once, over arbitrary operands, and the
  tile is their composition, the left side in columns 0–511 and the right side in columns 512–1023.
-/
import proofs.«169205_j71021579206699_1_alg».proof.Proof.KTile
import proofs.«169205_j71021579206699_1_alg».proof.Proof.Spec
import Idealize.ShloMosaic.Lib.Pipeline.FrameBody
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.BodyValue

open Idealize.ShloMosaic Idealize.ShloMosaic.ValueIdx Cert.KernelIdeal Cert.KernelIdeal.Gen

/-! ## Row windows of the staged sequence -/

/-- The staged 1×516×512 block with its unit axis dropped reads, at `(r, d)`, the block at `(0, r, d)`. -/
theorem pay4_apply (v0 : Vec Ideal S1x516x512 .f32) (r : Fin 516) (d : Fin 512) :
    k0_pay4 (F := Ideal) v0 (ix2 r d) = v0 (ix3 (0 : Fin 1) r d) := by
  unfold k0_pay4
  exact shapeCast_1ab_ab_apply v0 _ r d

/-- The 512 rows of it from row `o` on read, at `(s, d)`, the block at `(0, o + s, d)`. -/
theorem slice_pay4 (o : Nat) (h : S516x512.Slices ![o, 0] S512x512) (v0 : Vec Ideal S1x516x512 .f32) (s d : Fin 512) :
    extractStridedSlice S512x512 ![o, 0] (k0_pay4 (F := Ideal) v0) h (ix2 s d)
      = v0 (ix3 (0 : Fin 1) ⟨o + s.val, Nat.lt_of_lt_of_le (Nat.add_lt_add_left s.isLt o) (h.2 0)⟩ d) :=
  (slice2_axis0_eq o (k0_pay4 (F := Ideal) v0) h s d).trans (pay4_apply v0 _ d)

/-! ## A product into a zero accumulator at an index: a sum over the 512 contracted coordinates -/

/-- The operand indices of the 512×512 by 512×512 product, axis by axis. -/
theorem lhs_mm512_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_mm512_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_mm512_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_mm512_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- A 512×512 by 512×512 product into the zero tile, at `(s, h)`: the sum over `d` of `a (s, d) * b (d, h)`. -/
theorem mm512_apply {φ₁ φ₂ : FTy} (a : FVec Ideal S512x512 φ₁) (b : FVec Ideal S512x512 φ₂) (s h : Fin 512) :
    matmul dot_S512x512_S512x512_S512x512_1_0_0_1_n_n none a b (constant (F := Ideal) S512x512 .f32 0x00000000#32) (ix2 s h)
      = ∑ d : Fin 512, a (ix2 s d) * b (ix2 d h) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 s h) ((ValueIdx.contrEquiv1 dot_S512x512_S512x512_S512x512_1_0_0_1_n_n 512 rfl rfl).symm k) = ix2 s k := funext fun a => Fin.ext (by
    match a with
    | ⟨0, _⟩ => exact lhs_mm512_0 _ _
    | ⟨1, _⟩ => exact (lhs_mm512_1 _ _).trans hk)
  have er : dot_S512x512_S512x512_S512x512_1_0_0_1_n_n.rhsIdx (ix2 s h) ((ValueIdx.contrEquiv1 dot_S512x512_S512x512_S512x512_1_0_0_1_n_n 512 rfl rfl).symm k) = ix2 k h := funext fun a => Fin.ext (by
    match a with
    | ⟨0, _⟩ => exact (rhs_mm512_0 _ _).trans hk
    | ⟨1, _⟩ => exact rhs_mm512_1 _ _)
  rw [el, er]

/-- The operand indices of the 512×512 by 512×1024 product, axis by axis. -/
theorem lhs_mm1024_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_mm1024_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_mm1024_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_mm1024_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- A 512×512 by 512×1024 product into the zero tile, at `(s, e)`: the sum over `d` of `a (s, d) * b (d, e)`. -/
theorem mm1024_apply {φ₁ φ₂ : FTy} (a : FVec Ideal S512x512 φ₁) (b : FVec Ideal S512x1024 φ₂) (s : Fin 512) (e : Fin 1024) :
    matmul dot_S512x512_S512x1024_S512x1024_1_0_0_1_n_n none a b (constant (F := Ideal) S512x1024 .f32 0x00000000#32) (ix2 s e)
      = ∑ d : Fin 512, a (ix2 s d) * b (ix2 d e) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 s e) ((ValueIdx.contrEquiv1 dot_S512x512_S512x1024_S512x1024_1_0_0_1_n_n 512 rfl rfl).symm k) = ix2 s k := funext fun a => Fin.ext (by
    match a with
    | ⟨0, _⟩ => exact lhs_mm1024_0 _ _
    | ⟨1, _⟩ => exact (lhs_mm1024_1 _ _).trans hk)
  have er : dot_S512x512_S512x1024_S512x1024_1_0_0_1_n_n.rhsIdx (ix2 s e) ((ValueIdx.contrEquiv1 dot_S512x512_S512x1024_S512x1024_1_0_0_1_n_n 512 rfl rfl).symm k) = ix2 k e := funext fun a => Fin.ext (by
    match a with
    | ⟨0, _⟩ => exact (rhs_mm1024_0 _ _).trans hk
    | ⟨1, _⟩ => exact rhs_mm1024_1 _ _)
  rw [el, er]

/-! ## The bias rows and the highway weights at an index -/

/-- A 512-vector laid as one row and broadcast down 512 rows reads its entry at the column. -/
theorem bias512_apply (v : FVec Ideal S512 .f32) (s h : Fin 512) :
    broadcastTo S512x512 (shapeCast S1x512 v shapeCasts_S512_S1x512) broadcasts_S1x512_S512x512 (ix2 s h) = v (ix1 h) :=
  (broadcastTo_1b_ab_apply _ _ s h).trans (shapeCast_a_1a_apply v _ 0 h)

/-- A 1024-vector laid as one row and broadcast down 512 rows reads its entry at the column. -/
theorem bias1024_apply (v : FVec Ideal S1024 .f32) (s : Fin 512) (e : Fin 1024) :
    broadcastTo S512x1024 (shapeCast S1x1024 v shapeCasts_S1024_S1x1024) broadcasts_S1x1024_S512x1024 (ix2 s e) = v (ix1 e) :=
  (broadcastTo_1b_ab_apply _ _ s e).trans (shapeCast_a_1a_apply v _ 0 e)

/-- One row of biases flattened to a vector reads the row's entry. -/
theorem flat1024_apply (v : FVec Ideal S1x1024 .f32) (e : Fin 1024) :
    shapeCast S1024 v shapeCasts_S1x1024_S1024 (ix1 e) = v (ix2 (0 : Fin 1) e) :=
  shapeCast_1a_a_apply v _ e

/-- One layer of highway weights with its unit axis dropped reads the layer's entry. -/
theorem hw_apply (v : FVec Ideal S1x512x1024 .f32) (d : Fin 512) (e : Fin 1024) :
    shapeCast S512x1024 v shapeCasts_S1x512x1024_S512x1024 (ix2 d e) = v (ix3 (0 : Fin 1) d e) :=
  shapeCast_1ab_ab_apply v _ d e

/-! ## The three tile shapes the body is made of -/

theorem logistic_apply {s : Shape} {φ : FTy} (a : FVec Ideal s φ) (i : s.Idx) : logistic a i = Ideal.logistic (a i) := rfl

/-- A highway layer's 512×1024 pre-activation tile: the tile `y` times one layer of transposed weights, plus the bias row. -/
def preTile (y : FVec Ideal S512x512 .f32) (w : FVec Ideal S1x512x1024 .f32) (g : FVec Ideal S1024 .f32) : FVec Ideal S512x1024 .f32 :=
  addf (matmul dot_S512x512_S512x1024_S512x1024_1_0_0_1_n_n none (truncf .bf16 y bitsLt_bf16_f32)
      (truncf .bf16 (shapeCast S512x1024 w shapeCasts_S1x512x1024_S512x1024) bitsLt_bf16_f32)
      (constant (F := Ideal) S512x1024 .f32 0x00000000#32))
    (broadcastTo S512x1024 (shapeCast S1x1024 g shapeCasts_S1024_S1x1024) broadcasts_S1x1024_S512x1024)

/-- A highway layer's result from its pre-activation tile `p` and its input tile `y`: gate (logistic of the upper half of `p`)
    times `y`, plus one minus the gate times the rectified lower half of `p`. -/
def mixTile (p : FVec Ideal S512x1024 .f32) (y : FVec Ideal S512x512 .f32) : FVec Ideal S512x512 .f32 :=
  addf (mulf (logistic (extractStridedSlice S512x512 ![0, 512] p slices_S512x1024_o0_512_S512x512)) y)
    (mulf (subf (broadcast S512x512 (Scalar.ofBits (F := Ideal) .f32 0x3F800000#32))
        (logistic (extractStridedSlice S512x512 ![0, 512] p slices_S512x1024_o0_512_S512x512)))
      (maximumf (extractStridedSlice S512x512 ![0, 0] p slices_S512x1024_o0_0_S512x512)
        (broadcast S512x512 (Scalar.ofBits (F := Ideal) .f32 0x00000000#32))))

/-- A rectified projection tile: three row tiles against three weight tiles, summed, plus the bias row, rectified. -/
def projTile (x0 x1 x2 : FVec Ideal S512x512 .f32) (w0 w1 w2 : FVec Ideal S512x512 .bf16) (b : FVec Ideal S512 .f32) :
    FVec Ideal S512x512 .f32 :=
  maximumf
    (addf
      (addf
        (addf
          (matmul dot_S512x512_S512x512_S512x512_1_0_0_1_n_n none (truncf .bf16 x0 bitsLt_bf16_f32) w0 (constant (F := Ideal) S512x512 .f32 0x00000000#32))
          (matmul dot_S512x512_S512x512_S512x512_1_0_0_1_n_n none (truncf .bf16 x1 bitsLt_bf16_f32) w1 (constant (F := Ideal) S512x512 .f32 0x00000000#32)))
        (matmul dot_S512x512_S512x512_S512x512_1_0_0_1_n_n none (truncf .bf16 x2 bitsLt_bf16_f32) w2 (constant (F := Ideal) S512x512 .f32 0x00000000#32)))
      (broadcastTo S512x512 (shapeCast S1x512 b shapeCasts_S512_S1x512) broadcasts_S1x512_S512x512))
    (broadcast S512x512 (Scalar.ofBits (F := Ideal) .f32 0x00000000#32))

/-- The pre-activation tile at `(s, e)`. -/
theorem preTile_apply (y : FVec Ideal S512x512 .f32) (w : FVec Ideal S1x512x1024 .f32) (g : FVec Ideal S1024 .f32)
    (s : Fin 512) (e : Fin 1024) :
    preTile y w g (ix2 s e) = (∑ d : Fin 512, y (ix2 s d) * w (ix3 (0 : Fin 1) d e)) + g (ix1 e) := by
  unfold preTile
  refine (addf_apply _ _ _).trans (congrArg₂ (· + ·) ?_ (bias1024_apply g s e))
  refine (mm1024_apply _ _ s e).trans (Finset.sum_congr rfl fun d _ => ?_)
  exact congrArg (y (ix2 s d) * ·) (hw_apply w d e)

/-- The highway mix at `(s, h)`. -/
theorem mixTile_apply (p : FVec Ideal S512x1024 .f32) (y : FVec Ideal S512x512 .f32) (s h : Fin 512) :
    mixTile p y (ix2 s h)
      = Ideal.logistic (p (ix2 s ⟨512 + h.val, by have := h.isLt; omega⟩)) * y (ix2 s h)
        + (1 - Ideal.logistic (p (ix2 s ⟨512 + h.val, by have := h.isLt; omega⟩)))
          * max (p (ix2 s ⟨h.val, by have := h.isLt; omega⟩)) 0 := by
  have hg : logistic (extractStridedSlice S512x512 ![0, 512] p slices_S512x1024_o0_512_S512x512) (ix2 s h)
      = Ideal.logistic (p (ix2 s ⟨512 + h.val, by have := h.isLt; omega⟩)) :=
    congrArg Ideal.logistic (slice2_axis1_apply 512 p slices_S512x1024_o0_512_S512x512 s h _ rfl)
  have hc : extractStridedSlice S512x512 ![0, 0] p slices_S512x1024_o0_0_S512x512 (ix2 s h)
      = p (ix2 s ⟨h.val, by have := h.isLt; omega⟩) :=
    slice2_axis1_apply 0 p slices_S512x1024_o0_0_S512x512 s h _ (Nat.zero_add _).symm
  unfold mixTile
  refine (addf_apply _ _ _).trans (congrArg₂ (· + ·) ?_ ?_)
  · exact (mulf_apply _ _ _).trans (congrArg (· * y (ix2 s h)) hg)
  · refine (mulf_apply _ _ _).trans (congrArg₂ (· * ·) ?_ ?_)
    · exact (subf_apply _ _ _).trans (congrArg₂ (· - ·) Cert.Spec.ofBits_one_f32 hg)
    · exact (maximumf_apply _ _ _).trans (congrArg₂ max hc Ideal.ofBits_zero_f32)

/-- The projection tile at `(s, h)`. -/
theorem projTile_apply (x0 x1 x2 : FVec Ideal S512x512 .f32) (w0 w1 w2 : FVec Ideal S512x512 .bf16) (b : FVec Ideal S512 .f32)
    (s h : Fin 512) :
    projTile x0 x1 x2 w0 w1 w2 b (ix2 s h)
      = max ((((∑ d : Fin 512, x0 (ix2 s d) * w0 (ix2 d h)) + ∑ d : Fin 512, x1 (ix2 s d) * w1 (ix2 d h))
              + ∑ d : Fin 512, x2 (ix2 s d) * w2 (ix2 d h)) + b (ix1 h)) 0 := by
  unfold projTile
  refine (maximumf_apply _ _ _).trans (congrArg₂ max ?_ Ideal.ofBits_zero_f32)
  refine (addf_apply _ _ _).trans (congrArg₂ (· + ·) ?_ (bias512_apply b s h))
  refine (addf_apply _ _ _).trans (congrArg₂ (· + ·) ?_ (mm512_apply _ _ s h))
  exact (addf_apply _ _ _).trans (congrArg₂ (· + ·) (mm512_apply _ _ s h) (mm512_apply _ _ s h))

/-! ## The body's payloads are these tiles -/

theorem pay13_eq (y : FVec Ideal S512x512 .f32) (w : Vec Ideal S1x512x1024 .f32) (g : Vec Ideal S1x1024 .f32) :
    k0_pay13 (F := Ideal) y w g = mixTile (preTile y w (shapeCast S1024 g shapeCasts_S1x1024_S1024)) y := rfl

theorem pay17_eq (y : FVec Ideal S512x512 .f32) (w : Vec Ideal S1x512x1024 .f32) (g : Vec Ideal S1x1024 .f32) :
    k0_pay17 (F := Ideal) y w g = mixTile (preTile y w (shapeCast S1024 g shapeCasts_S1x1024_S1024)) y := rfl

theorem pay16_eq (y : FVec Ideal S512x512 .f32) (w : Vec Ideal S1x512x1024 .f32) (g : Vec Ideal S1x1024 .f32)
    (w1 : Vec Ideal S1x512x1024 .f32) (g1 : Vec Ideal S1x1024 .f32) :
    k0_pay16 (F := Ideal) (k0_pay13 y w g) (k0_pay14 g1) (k0_pay15 y w g w1)
      = mixTile (preTile (k0_pay13 (F := Ideal) y w g) w1 (shapeCast S1024 g1 shapeCasts_S1x1024_S1024)) (k0_pay13 (F := Ideal) y w g) := rfl

theorem pay18_eq (y : FVec Ideal S512x512 .f32) (w : Vec Ideal S1x512x1024 .f32) (g : Vec Ideal S1x1024 .f32)
    (w1 : Vec Ideal S1x512x1024 .f32) (g1 : Vec Ideal S1x1024 .f32) :
    k0_pay18 (F := Ideal) y w g w1 g1
      = preTile (k0_pay17 (F := Ideal) y w g) w1 (shapeCast S1024 g1 shapeCasts_S1x1024_S1024) := rfl

theorem pay1_eq (l : FVec Ideal S512x512 .f32) (y : FVec Ideal S512x512 .f32) (w : Vec Ideal S1x512x1024 .f32) (g : Vec Ideal S1x1024 .f32)
    (w1 : Vec Ideal S1x512x1024 .f32) (g1 : Vec Ideal S1x1024 .f32) :
    k0_pay1 (F := Ideal) l (k0_pay17 y w g) (k0_pay18 y w g w1 g1) (k0_pay19 y w g w1 g1)
      = concatenate S512x1024 1 [⟨S512x512, l⟩, ⟨S512x512, mixTile (k0_pay18 (F := Ideal) y w g w1 g1) (k0_pay17 (F := Ideal) y w g)⟩]
          concatenates_S512x512_S512x512_S512x1024_d1 := rfl

theorem pay12_eq (x0 x1 x2 : FVec Ideal S512x512 .f32) (w0 w1 w2 : FVec Ideal S512x512 .bf16) (b : Vec Ideal S512 .f32) :
    k0_pay12 (F := Ideal) x0 x1 x2 w0 w1 w2 b = projTile x0 x1 x2 w0 w1 w2 b := rfl

theorem pay8_eq (v0 : Vec Ideal S1x516x512 .f32) (w0 w1 w2 : Vec Ideal S512x512 .f32) (b : Vec Ideal S512 .f32) :
    k0_pay8 (F := Ideal) v0 w0 w1 w2 b
      = projTile (extractStridedSlice S512x512 ![0, 0] (k0_pay4 (F := Ideal) v0) slices_S516x512_o0_0_S512x512)
          (extractStridedSlice S512x512 ![1, 0] (k0_pay4 (F := Ideal) v0) slices_S516x512_o1_0_S512x512)
          (k0_pay5 (F := Ideal) v0) (k0_pay9 (F := Ideal) w0) (k0_pay10 (F := Ideal) w1) (k0_pay11 (F := Ideal) w2) b := rfl

/-! ## The tiles against the specification's functions -/

/-- A pre-activation tile whose operands read as `Y`, `H`, `γ` is the specification's affine map. -/
theorem preTile_affine (y : FVec Ideal S512x512 .f32) (w : FVec Ideal S1x512x1024 .f32) (g : FVec Ideal S1024 .f32)
    (H : Fin 1024 → Fin 512 → EReal) (γ : Fin 1024 → EReal) (Y : Fin 512 → Fin 512 → EReal)
    (hy : ∀ s d : Fin 512, y (ix2 s d) = Y s d) (hw : ∀ (d : Fin 512) (e : Fin 1024), w (ix3 (0 : Fin 1) d e) = H e d)
    (hg : ∀ e : Fin 1024, g (ix1 e) = γ e) (s : Fin 512) (e : Fin 1024) :
    preTile y w g (ix2 s e) = Cert.Spec.affine H γ (Y s) e := by
  refine (preTile_apply y w g s e).trans ?_
  unfold Cert.Spec.affine
  refine congrArg₂ (· + ·) (Finset.sum_congr rfl fun d _ => ?_) (hg e)
  exact congrArg₂ (· * ·) (hy s d) (hw d e)

/-- The highway mix of such a pre-activation tile with a tile that reads as `Y` is the specification's layer. -/
theorem mixTile_layer (p : FVec Ideal S512x1024 .f32) (y : FVec Ideal S512x512 .f32)
    (H : Fin 1024 → Fin 512 → EReal) (γ : Fin 1024 → EReal) (Y : Fin 512 → Fin 512 → EReal)
    (hp : ∀ (s : Fin 512) (e : Fin 1024), p (ix2 s e) = Cert.Spec.affine H γ (Y s) e)
    (hy : ∀ s d : Fin 512, y (ix2 s d) = Y s d) (s h : Fin 512) :
    mixTile p y (ix2 s h) = Cert.Spec.layer H γ Y s h := by
  refine (mixTile_apply p y s h).trans ?_
  rw [hp, hp, hy]
  rfl

/-- A projection tile whose row tiles read as rows `s + off`, `s + off + 1`, `s + off + 2` of `P`, whose weight tiles read
    as the three thirds of `W`'s columns and whose bias reads as `β` is the specification's rectified projection. -/
theorem projTile_proj (x0 x1 x2 : FVec Ideal S512x512 .f32) (w0 w1 w2 : FVec Ideal S512x512 .bf16) (b : FVec Ideal S512 .f32)
    (P : Fin 516 → Fin 512 → EReal) (W : Fin 512 → Fin 1536 → EReal) (β : Fin 512 → EReal) (off : Nat) (hoff : off ≤ 2)
    (hx0 : ∀ (s d : Fin 512) (r : Fin 516), r.val = s.val + off → x0 (ix2 s d) = P r d)
    (hx1 : ∀ (s d : Fin 512) (r : Fin 516), r.val = s.val + off + 1 → x1 (ix2 s d) = P r d)
    (hx2 : ∀ (s d : Fin 512) (r : Fin 516), r.val = s.val + off + 2 → x2 (ix2 s d) = P r d)
    (hw0 : ∀ (d h : Fin 512) (k : Fin 1536), k.val = d.val → w0 (ix2 d h) = W h k)
    (hw1 : ∀ (d h : Fin 512) (k : Fin 1536), k.val = 512 + d.val → w1 (ix2 d h) = W h k)
    (hw2 : ∀ (d h : Fin 512) (k : Fin 1536), k.val = 1024 + d.val → w2 (ix2 d h) = W h k)
    (hb : ∀ h : Fin 512, b (ix1 h) = β h) (s h : Fin 512) :
    projTile x0 x1 x2 w0 w1 w2 b (ix2 s h) = Cert.Spec.proj P W β off hoff s h := by
  refine (projTile_apply x0 x1 x2 w0 w1 w2 b s h).trans ?_
  unfold Cert.Spec.proj Cert.Spec.affine
  rw [Cert.Spec.sum_thirds]
  have hs := s.isLt
  refine congrArg₂ max (congrArg₂ (· + ·) (congrArg₂ (· + ·) (congrArg₂ (· + ·) ?_ ?_) ?_) (hb h)) rfl
  · refine Finset.sum_congr rfl fun d _ => ?_
    have hd := d.isLt
    refine congrArg₂ (· * ·) ?_ (hw0 d h _ rfl)
    unfold Cert.Spec.win3
    refine (hx0 s d ⟨s.val + off + d.val / 512, by omega⟩ (by show s.val + off + d.val / 512 = s.val + off; omega)).trans
      (congrArg (P _) (Fin.ext ?_))
    show d.val = d.val % 512
    omega
  · refine Finset.sum_congr rfl fun d _ => ?_
    have hd := d.isLt
    refine congrArg₂ (· * ·) ?_ (hw1 d h _ rfl)
    unfold Cert.Spec.win3
    refine (hx1 s d ⟨s.val + off + (512 + d.val) / 512, by omega⟩ (by show s.val + off + (512 + d.val) / 512 = s.val + off + 1; omega)).trans
      (congrArg (P _) (Fin.ext ?_))
    show d.val = (512 + d.val) % 512
    omega
  · refine Finset.sum_congr rfl fun d _ => ?_
    have hd := d.isLt
    refine congrArg₂ (· * ·) ?_ (hw2 d h _ rfl)
    unfold Cert.Spec.win3
    refine (hx2 s d ⟨s.val + off + (1024 + d.val) / 512, by omega⟩ (by show s.val + off + (1024 + d.val) / 512 = s.val + off + 2; omega)).trans
      (congrArg (P _) (Fin.ext ?_))
    show d.val = (1024 + d.val) % 512
    omega

/-! ## What the loads read -/

/-- The whole staged sequence block, loaded, at `(0, r, d)`. -/
theorem ldSeq_apply (xs : Vec Ideal S1x516x512 .f32) (r : Fin 516) (d : Fin 512) :
    View.ld xs Body.rSeq (ix3 (0 : Fin 1) r d) = xs (ix3 (0 : Fin 1) r d) :=
  congrArg xs (funext fun a => Fin.ext (by
    match a with
    | ⟨0, _⟩ => rfl
    | ⟨1, _⟩ => show 0 + 1 * r.val = r.val; omega
    | ⟨2, _⟩ => show 0 + 1 * d.val = d.val; omega))

/-- A third of a transposed projection weight, loaded from row `o`, at `(d, h)`: the weight at row `o + d`. -/
theorem ldW_apply (w : Vec Ideal S1536x512 .f32) (o : Nat)
    (inb : ∀ a, (![o, 0] : Fin 2 → Nat) a + S512x512.size a ≤ S1536x512.size a) (d h : Fin 512) (k : Fin 1536)
    (hk : k.val = o + d.val) :
    View.ld w (Rect.unit (s := S1536x512) ![o, 0] S512x512.size inb) (ix2 d h) = w (ix2 k h) :=
  congrArg w (funext fun a => Fin.ext (by
    match a with
    | ⟨0, _⟩ => show o + 1 * d.val = k.val; omega
    | ⟨1, _⟩ => show 0 + 1 * h.val = h.val; omega))

/-- A projection bias, loaded whole. -/
theorem ldB_apply (b : Vec Ideal S512 .f32) (h : Fin 512) : View.ld b Body.rB (ix1 h) = b (ix1 h) :=
  congrArg b (funext fun a => Fin.ext (by
    match a with
    | ⟨0, _⟩ => show 0 + 1 * h.val = h.val; omega))

/-- Layer `l` of a stack of transposed highway weights, loaded, at `(0, d, e)`. -/
theorem ldH_apply (H : Vec Ideal S2x512x1024 .f32) (o : Nat)
    (inb : ∀ a, (![o, 0, 0] : Fin 3 → Nat) a + S1x512x1024.size a ≤ S2x512x1024.size a) (l : Fin 2) (hl : l.val = o)
    (d : Fin 512) (e : Fin 1024) :
    View.ld H (Rect.unit (s := S2x512x1024) ![o, 0, 0] S1x512x1024.size inb) (ix3 (0 : Fin 1) d e) = H (ix3 l d e) :=
  congrArg H (funext fun a => Fin.ext (by
    match a with
    | ⟨0, _⟩ => show o + 1 * 0 = l.val; omega
    | ⟨1, _⟩ => show 0 + 1 * d.val = d.val; omega
    | ⟨2, _⟩ => show 0 + 1 * e.val = e.val; omega))

/-- Layer `l` of a stack of highway biases, loaded, at `(0, e)`. -/
theorem ldG_apply (G : Vec Ideal S2x1024 .f32) (o : Nat)
    (inb : ∀ a, (![o, 0] : Fin 2 → Nat) a + S1x1024.size a ≤ S2x1024.size a) (l : Fin 2) (hl : l.val = o) (e : Fin 1024) :
    View.ld G (Rect.unit (s := S2x1024) ![o, 0] S1x1024.size inb) (ix2 (0 : Fin 1) e) = G (ix2 l e) :=
  congrArg G (funext fun a => Fin.ext (by
    match a with
    | ⟨0, _⟩ => show o + 1 * 0 = l.val; omega
    | ⟨1, _⟩ => show 0 + 1 * e.val = e.val; omega))

/-- A loaded weight third narrowed for the product reads as the loaded third. -/
theorem pay9_apply (v : Vec Ideal S512x512 .f32) (i : S512x512.Idx) : k0_pay9 (F := Ideal) v i = v i := by
  unfold k0_pay9
  exact (truncf_apply (ψ := .bf16) (shapeCast S512x512 v shapeCasts_S512x512_S512x512) bitsLt_bf16_f32 i).trans
    (congrFun (shapeCast_self v shapeCasts_S512x512_S512x512) i)
theorem pay10_apply (v : Vec Ideal S512x512 .f32) (i : S512x512.Idx) : k0_pay10 (F := Ideal) v i = v i := by
  unfold k0_pay10
  exact (truncf_apply (ψ := .bf16) (shapeCast S512x512 v shapeCasts_S512x512_S512x512) bitsLt_bf16_f32 i).trans
    (congrFun (shapeCast_self v shapeCasts_S512x512_S512x512) i)
theorem pay11_apply (v : Vec Ideal S512x512 .f32) (i : S512x512.Idx) : k0_pay11 (F := Ideal) v i = v i := by
  unfold k0_pay11
  exact (truncf_apply (ψ := .bf16) (shapeCast S512x512 v shapeCasts_S512x512_S512x512) bitsLt_bf16_f32 i).trans
    (congrFun (shapeCast_self v shapeCasts_S512x512_S512x512) i)

/-- The row tile of the staged sequence that starts `o` rows down, at `(s, d)`: row `r = o + s` of the sequence. -/
theorem rows_apply (o : Nat) (hsl : S516x512.Slices ![o, 0] S512x512) (xs : Vec Ideal S1x516x512 .f32) (s d : Fin 512)
    (r : Fin 516) (hr : r.val = o + s.val) :
    extractStridedSlice S512x512 ![o, 0] (k0_pay4 (F := Ideal) (View.ld xs Body.rSeq)) hsl (ix2 s d) = xs (ix3 (0 : Fin 1) r d) :=
  (slice_pay4 o hsl (View.ld xs Body.rSeq) s d).trans
    ((ldSeq_apply xs _ d).trans (congrArg (fun r => xs (ix3 (0 : Fin 1) r d)) (Fin.ext hr.symm)))

/-! ## The two projections -/

section Sides
variable (xs : Vec Ideal S1x516x512 .f32) (wl wr : Vec Ideal S1536x512 .f32) (bl br : Vec Ideal S512 .f32)
  (hl hr : Vec Ideal S2x512x1024 .f32) (gl gr : Vec Ideal S2x1024 .f32)

/-- The padded sequence, the projection weights and biases, the highway weights and biases as functions of coordinates. -/
abbrev seqFn : Fin 516 → Fin 512 → EReal := fun r d => xs (ix3 (0 : Fin 1) r d)
abbrev wFn (w : Vec Ideal S1536x512 .f32) : Fin 512 → Fin 1536 → EReal := fun h k => w (ix2 k h)
abbrev bFn (b : Vec Ideal S512 .f32) : Fin 512 → EReal := fun h => b (ix1 h)
abbrev hFn (H : Vec Ideal S2x512x1024 .f32) : Fin 2 → Fin 1024 → Fin 512 → EReal := fun l e d => H (ix3 l d e)
abbrev gFn (G : Vec Ideal S2x1024 .f32) : Fin 2 → Fin 1024 → EReal := fun l e => G (ix2 l e)

/-- The left rectified projection at `(s, h)`: the window starts at row `s`. -/
theorem leftProj_apply (s h : Fin 512) :
    Body.leftProj (F := Ideal) xs wl bl (ix2 s h) = Cert.Spec.proj (seqFn xs) (wFn wl) (bFn bl) 0 (by decide) s h := by
  unfold Body.leftProj
  rw [pay8_eq]
  refine projTile_proj _ _ _ _ _ _ _ (seqFn xs) (wFn wl) (bFn bl) 0 (by decide)
    (fun s d r hr => rows_apply 0 _ xs s d r (by omega))
    (fun s d r hr => rows_apply 1 _ xs s d r (by omega))
    (fun s d r hr => by unfold k0_pay5; exact rows_apply 2 _ xs s d r (by omega))
    (fun d h k hk => (pay9_apply _ _).trans (ldW_apply wl 0 _ d h k (by omega)))
    (fun d h k hk => (pay10_apply _ _).trans (ldW_apply wl 512 _ d h k (by omega)))
    (fun d h k hk => (pay11_apply _ _).trans (ldW_apply wl 1024 _ d h k (by omega)))
    (fun h => ldB_apply bl h) s h

/-- The right rectified projection at `(s, h)`: the window starts at row `s + 2`. -/
theorem rightProj_apply (s h : Fin 512) :
    Body.rightProj (F := Ideal) xs wr br (ix2 s h) = Cert.Spec.proj (seqFn xs) (wFn wr) (bFn br) 2 (by decide) s h := by
  unfold Body.rightProj
  rw [pay12_eq]
  refine projTile_proj _ _ _ _ _ _ _ (seqFn xs) (wFn wr) (bFn br) 2 (by decide)
    (fun s d r hr => by unfold k0_pay5; exact rows_apply 2 _ xs s d r (by omega))
    (fun s d r hr => by unfold k0_pay6; exact rows_apply 3 _ xs s d r (by omega))
    (fun s d r hr => by unfold k0_pay7; exact rows_apply 4 _ xs s d r (by omega))
    (fun d h k hk => (pay9_apply _ _).trans (ldW_apply wr 0 _ d h k (by omega)))
    (fun d h k hk => (pay10_apply _ _).trans (ldW_apply wr 512 _ d h k (by omega)))
    (fun d h k hk => (pay11_apply _ _).trans (ldW_apply wr 1024 _ d h k (by omega)))
    (fun h => ldB_apply br h) s h

end Sides

/-! ## The highway layers, the two sides and the tile -/

section Tile
variable (xs : Vec Ideal S1x516x512 .f32) (wl wr : Vec Ideal S1536x512 .f32) (bl br : Vec Ideal S512 .f32)
  (hl hr : Vec Ideal S2x512x1024 .f32) (gl gr : Vec Ideal S2x1024 .f32)

/-- One highway layer over a tile that reads as `Y`, its weights and biases loaded from layer `l` of the stacks. -/
theorem layer_apply (y : FVec Ideal S512x512 .f32) (Y : Fin 512 → Fin 512 → EReal) (hy : ∀ s d : Fin 512, y (ix2 s d) = Y s d)
    (H : Vec Ideal S2x512x1024 .f32) (G : Vec Ideal S2x1024 .f32) (o : Nat)
    (inbH : ∀ a, (![o, 0, 0] : Fin 3 → Nat) a + S1x512x1024.size a ≤ S2x512x1024.size a)
    (inbG : ∀ a, (![o, 0] : Fin 2 → Nat) a + S1x1024.size a ≤ S2x1024.size a) (l : Fin 2) (hl : l.val = o) (s h : Fin 512) :
    mixTile (preTile y (View.ld H (Rect.unit (s := S2x512x1024) ![o, 0, 0] S1x512x1024.size inbH))
        (shapeCast S1024 (View.ld G (Rect.unit (s := S2x1024) ![o, 0] S1x1024.size inbG)) shapeCasts_S1x1024_S1024)) y (ix2 s h)
      = Cert.Spec.layer (hFn H l) (gFn G l) Y s h :=
  mixTile_layer _ y (hFn H l) (gFn G l) Y
    (preTile_affine y _ _ (hFn H l) (gFn G l) Y hy (fun d e => ldH_apply H o inbH l hl d e)
      (fun e => (flat1024_apply _ e).trans (ldG_apply G o inbG l hl e)))
    hy s h

/-- Both highway layers over a tile that reads as `Y`. -/
theorem layers_apply (y : FVec Ideal S512x512 .f32) (Y : Fin 512 → Fin 512 → EReal) (hy : ∀ s d : Fin 512, y (ix2 s d) = Y s d)
    (H : Vec Ideal S2x512x1024 .f32) (G : Vec Ideal S2x1024 .f32) (s h : Fin 512) :
    mixTile
        (preTile (mixTile (preTile y (View.ld H Body.rH0) (shapeCast S1024 (View.ld G Body.rG0) shapeCasts_S1x1024_S1024)) y)
          (View.ld H Body.rH1) (shapeCast S1024 (View.ld G Body.rG1) shapeCasts_S1x1024_S1024))
        (mixTile (preTile y (View.ld H Body.rH0) (shapeCast S1024 (View.ld G Body.rG0) shapeCasts_S1x1024_S1024)) y) (ix2 s h)
      = Cert.Spec.layer (hFn H 1) (gFn G 1) (Cert.Spec.layer (hFn H 0) (gFn G 0) Y) s h :=
  layer_apply _ _ (fun s d => layer_apply y Y hy H G 0 _ _ 0 rfl s d) H G 1 _ _ 1 rfl s h

/-- The left side after both highway layers, at `(s, h)`. -/
theorem leftOut_apply (s h : Fin 512) :
    Body.leftOut (F := Ideal) xs wl bl hl gl (ix2 s h)
      = Cert.Spec.side (seqFn xs) (wFn wl) (bFn bl) 0 (by decide) (hFn hl) (gFn gl) s h := by
  unfold Body.leftOut
  rw [pay16_eq, pay13_eq]
  exact layers_apply _ _ (leftProj_apply xs wl bl) hl gl s h

/-- The right side after both highway layers, at `(s, h)`. -/
theorem rightOut_apply (s h : Fin 512) :
    mixTile (k0_pay18 (F := Ideal) (Body.rightProj xs wr br) (View.ld hr Body.rH0) (View.ld gr Body.rG0) (View.ld hr Body.rH1) (View.ld gr Body.rG1))
        (k0_pay17 (F := Ideal) (Body.rightProj xs wr br) (View.ld hr Body.rH0) (View.ld gr Body.rG0)) (ix2 s h)
      = Cert.Spec.side (seqFn xs) (wFn wr) (bFn br) 2 (by decide) (hFn hr) (gFn gr) s h := by
  rw [pay18_eq, pay17_eq]
  exact layers_apply _ _ (rightProj_apply xs wr br) hr gr s h

end Tile

/-- The tile at `(s, e)` is the specification's tile of the staged arrays read by coordinates. -/
theorem tile_apply (xs : Vec Ideal S1x516x512 .f32) (wl wr : Vec Ideal S1536x512 .f32) (bl br : Vec Ideal S512 .f32)
    (hl hr : Vec Ideal S2x512x1024 .f32) (gl gr : Vec Ideal S2x1024 .f32) (s : Fin 512) (e : Fin 1024) :
    Body.tile (F := Ideal) xs wl wr bl br hl hr gl gr (ValueIdx.ix2 s e)
      = Cert.Spec.tile (fun r d => xs (ValueIdx.ix3 0 r d))
          (fun h k => wl (ValueIdx.ix2 k h)) (fun h => bl (ValueIdx.ix1 h))
          (fun h k => wr (ValueIdx.ix2 k h)) (fun h => br (ValueIdx.ix1 h))
          (fun l e d => hl (ValueIdx.ix3 l d e)) (fun l e => gl (ValueIdx.ix2 l e))
          (fun l e d => hr (ValueIdx.ix3 l d e)) (fun l e => gr (ValueIdx.ix2 l e)) s e := by
  unfold Body.tile
  rw [pay1_eq]
  unfold Cert.Spec.tile
  by_cases he : e.val < 512
  · rw [dif_pos he]
    refine (concatenate_pair_apply_left (t := S512x1024) (s₁ := S512x512) (s₂ := S512x512) 1 _ _ _ (ix2 s e) rfl
      (ix2 s ⟨e.val, he⟩) (fun b => by match b with | ⟨0, _⟩ => rfl | ⟨1, _⟩ => rfl)).trans ?_
    exact leftOut_apply xs wl bl hl gl s ⟨e.val, he⟩
  · rw [dif_neg he]
    have he' := e.isLt
    refine (concatenate_pair_apply_right (t := S512x1024) (s₁ := S512x512) (s₂ := S512x512) 1 _ _ _ (ix2 s e) rfl rfl
      (ix2 s ⟨e.val - 512, by omega⟩) (fun b hb => by
        match b with
        | ⟨0, _⟩ => rfl
        | ⟨1, _⟩ => exact absurd (Fin.ext rfl) hb)
      (by show e.val - 512 + 512 = e.val; omega)).trans ?_
    exact rightOut_apply xs wr br hr gr s ⟨e.val - 512, by omega⟩

end Cert.KernelIdeal.BodyValue

end
-- ==== Proof.KValue.lean ====
/-
  The value of the idealized kernel's run.  One grid point t computes, from the blocks the pipeline stages for it,
  row t of the specification applied to the argument arrays: the block of the padded sequence at point t is batch
  element t of it, the weight and bias windows are the whole (transposed) arrays at every point.  The two output
  arrays are tiled by their blocks — output block t of the first is batch row t, of the second batch row t under its
  leading unit axis — so after the run each holds the specification at every index.
-/
import proofs.«169205_j71021579206699_1_alg».proof.Proof.KBody
import proofs.«169205_j71021579206699_1_alg».proof.Proof.KReads
import proofs.«169205_j71021579206699_1_alg».proof.Proof.KTileValue
import proofs.«169205_j71021579206699_1_alg».proof.Proof.Spec
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem
open Idealize.ShloMosaic.Pipeline (Dat)
open Cert.KernelIdeal Cert.KernelIdeal.Gen Cert.KernelIdeal.Body Cert.KernelIdeal.Region

variable (m : (ℓ : Loc nD τ sig) → Buf (Elt Ideal) ℓ) (ρ : Dev nD → PrngReg)

/-! ## The specification at the argument arrays -/

/-- The whole result as a function of batch element, sequence position and feature. -/
def G (c : Dev nD) : Fin 32 → Fin 512 → Fin 1024 → EReal :=
  Cert.Spec.whole (Cert.Spec.fn3 (padded m c))
    (Cert.Spec.fn2 (m ((c.tc : Thread nD τ).loc main_arg3))) (Cert.Spec.fn1 (m ((c.tc : Thread nD τ).loc main_arg4))) (Cert.Spec.fn2 (m ((c.tc : Thread nD τ).loc main_arg5))) (Cert.Spec.fn1 (m ((c.tc : Thread nD τ).loc main_arg6)))
    (Cert.Spec.fn3 (m ((c.tc : Thread nD τ).loc main_arg7))) (Cert.Spec.fn2 (m ((c.tc : Thread nD τ).loc main_arg8))) (Cert.Spec.fn3 (m ((c.tc : Thread nD τ).loc main_arg9))) (Cert.Spec.fn2 (m ((c.tc : Thread nD τ).loc main_arg10)))

/-- The first output array (32×512×1024) and the second (1×32×512×1024) as the specification says. -/
def outArr (c : Dev nD) : S32x512x1024.Idx → EReal :=
  fun i => G m c ⟨(i 0).val, (i 0).isLt⟩ ⟨(i 1).val, (i 1).isLt⟩ ⟨(i 2).val, (i 2).isLt⟩
def allArr (c : Dev nD) : S1x32x512x1024.Idx → EReal :=
  fun i => G m c ⟨(i 1).val, (i 1).isLt⟩ ⟨(i 2).val, (i 2).isLt⟩ ⟨(i 3).val, (i 3).isLt⟩

/-- The grid has one point per batch element. -/
theorem point_lt (t : Fin cfg0.N) : t.val < 32 := by
  have h : t.val < grid0.N := t.isLt
  rwa [N_0] at h

/-! ## One point's tile is one batch row of the specification -/

theorem tile_point (c : Dev nD) (t : Fin cfg0.N) (s : Fin 512) (e : Fin 1024) :
    Body.tile (F := Ideal) (iblk m c 0 t) (iblk m c 1 t) (iblk m c 2 t) (iblk m c 3 t) (iblk m c 4 t) (iblk m c 5 t) (iblk m c 6 t) (iblk m c 7 t) (iblk m c 8 t) (ValueIdx.ix2 s e)
      = G m c ⟨t.val, point_lt t⟩ s e := by
  rw [BodyValue.tile_apply]
  simp only [blk_seq, blk_wl, blk_wr, blk_bl, blk_br, blk_hl, blk_hr, blk_gl, blk_gr]
  rfl

/-! ## From blocks to the arrays -/

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps of the two output windows, decided over the grid: block t of the first is (t, 0, 0), of the
    second (0, t, 0, 0). -/
theorem out_index : ∀ t : Fin cfg0.N, win0_9.index t (0 : Fin 3) = t.val ∧ win0_9.index t (1 : Fin 3) = 0 ∧ win0_9.index t (2 : Fin 3) = 0 :=
  (by decide +kernel : ∀ t : Fin grid0.N, _)
theorem all_index : ∀ t : Fin cfg0.N, win0_10.index t (0 : Fin 4) = 0 ∧ win0_10.index t (1 : Fin 4) = t.val
    ∧ win0_10.index t (2 : Fin 4) = 0 ∧ win0_10.index t (3 : Fin 4) = 0 :=
  (by decide +kernel : ∀ t : Fin grid0.N, _)

/-- What point t writes back to the first output array is block t of the specification. -/
theorem flushed_out (c : Dev nD) (t : Fin cfg0.N) :
    (dats m 0 c).flushed 9 t = ((cfg0.win 9).blk t).view.read (Elt Ideal) (outArr m c) := by
  show (cfg0.win 9).cut (grid0.coords t) ((dats m 0 c).after 9 t) = _
  rw [after_out]
  unfold outBlock
  rw [View.canon_unit_zero zeros3]
  obtain ⟨e0, e1, e2⟩ := out_index t
  funext j
  have hj0 : (j 0).val < 1 := (j 0).isLt
  have hj1 : (j 1).val < 512 := (j 1).isLt
  have hj2 : (j 2).val < 1024 := (j 2).isLt
  refine (shapeCast_apply _ shapeCasts_S512x1024_S1x512x1024 j (ValueIdx.ix2 ⟨(j 1).val, hj1⟩ ⟨(j 2).val, hj2⟩) (by
    rw [Shape.rowMajor_val_two, Shape.rowMajor_val_three]
    show (j 1).val * 1024 + (j 2).val = ((j 0).val * 512 + (j 1).val) * 1024 + (j 2).val
    omega)).trans ?_
  rw [tile_point]
  show G m c ⟨t.val, point_lt t⟩ ⟨(j 1).val, hj1⟩ ⟨(j 2).val, hj2⟩ = outArr m c (((cfg0.win 9).blk t).view.emb j)
  unfold outArr
  congr 1 <;> apply Fin.ext
  · show t.val = win0_9.index t (0 : Fin 3) * 1 + 1 * (j 0).val; omega
  · show (j 1).val = win0_9.index t (1 : Fin 3) * 512 + 1 * (j 1).val; omega
  · show (j 2).val = win0_9.index t (2 : Fin 3) * 1024 + 1 * (j 2).val; omega

/-- The same for the second output array. -/
theorem flushed_all (c : Dev nD) (t : Fin cfg0.N) :
    (dats m 0 c).flushed 10 t = ((cfg0.win 10).blk t).view.read (Elt Ideal) (allArr m c) := by
  show (cfg0.win 10).cut (grid0.coords t) ((dats m 0 c).after 10 t) = _
  rw [after_all]
  unfold allBlock
  rw [View.canon_unit_zero zeros4]
  obtain ⟨e0, e1, e2, e3⟩ := all_index t
  funext j
  have hj0 : (j 0).val < 1 := (j 0).isLt
  have hj1 : (j 1).val < 1 := (j 1).isLt
  have hj2 : (j 2).val < 512 := (j 2).isLt
  have hj3 : (j 3).val < 1024 := (j 3).isLt
  refine (shapeCast_apply _ shapeCasts_S512x1024_S1x1x512x1024 j (ValueIdx.ix2 ⟨(j 2).val, hj2⟩ ⟨(j 3).val, hj3⟩) (by
    rw [Shape.rowMajor_val_two, Shape.rowMajor_val_four]
    show (j 2).val * 1024 + (j 3).val = (((j 0).val * 1 + (j 1).val) * 512 + (j 2).val) * 1024 + (j 3).val
    omega)).trans ?_
  rw [tile_point]
  show G m c ⟨t.val, point_lt t⟩ ⟨(j 2).val, hj2⟩ ⟨(j 3).val, hj3⟩ = allArr m c (((cfg0.win 10).blk t).view.emb j)
  unfold allArr
  congr 1 <;> apply Fin.ext
  · show t.val = win0_10.index t (1 : Fin 4) * 1 + 1 * (j 1).val; omega
  · show (j 2).val = win0_10.index t (2 : Fin 4) * 512 + 1 * (j 2).val; omega
  · show (j 3).val = win0_10.index t (3 : Fin 4) * 1024 + 1 * (j 3).val; omega

/-- An index of the first output array lies in point t's block iff every coordinate lies in the block's range. -/
theorem mem_out_blk (t : Fin cfg0.N) (i : S32x512x1024.Idx) :
    i ∈ ((cfg0.win 9).blk t).view.set ↔ ∀ a : Fin 3, win0_9.index t a * S1x512x1024.size a ≤ (i a).val
      ∧ (i a).val < win0_9.index t a * S1x512x1024.size a + S1x512x1024.size a := by
  show i ∈ ((View.whole main_v7_0).slice (win0_9.rect t)).set ↔ _
  rw [View.set_slice_whole, Rect.mem_set_unit]
  exact Iff.rfl
theorem mem_all_blk (t : Fin cfg0.N) (i : S1x32x512x1024.Idx) :
    i ∈ ((cfg0.win 10).blk t).view.set ↔ ∀ a : Fin 4, win0_10.index t a * S1x1x512x1024.size a ≤ (i a).val
      ∧ (i a).val < win0_10.index t a * S1x1x512x1024.size a + S1x1x512x1024.size a := by
  show i ∈ ((View.whole main_v7_1).slice (win0_10.rect t)).set ↔ _
  rw [View.set_slice_whole, Rect.mem_set_unit]
  exact Iff.rfl

/-- Every index of the first output array is in the block of the point of its batch coordinate. -/
theorem cover_out_arr (i : S32x512x1024.Idx) :
    ∃ t : Fin cfg0.N, (cfg0.win 9).flush t = true ∧ i ∈ ((cfg0.win 9).blk t).view.set := by
  have h0 : (i 0).val < 32 := (i 0).isLt
  have h1 : (i 1).val < 512 := (i 1).isLt
  have h2 : (i 2).val < 1024 := (i 2).isLt
  let t : Fin cfg0.N := ⟨(i 0).val, by show (i 0).val < grid0.N; rw [N_0]; exact h0⟩
  obtain ⟨e0, e1, e2⟩ := out_index t
  refine ⟨t, flush0_9 t, (mem_out_blk t i).mpr fun a => ?_⟩
  match a with
  | ⟨0, _⟩ => show win0_9.index t (0 : Fin 3) * 1 ≤ (i 0).val ∧ (i 0).val < win0_9.index t (0 : Fin 3) * 1 + 1; rw [e0]; show (i 0).val * 1 ≤ (i 0).val ∧ (i 0).val < (i 0).val * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 1024 ≤ (i 2).val ∧ (i 2).val < win0_9.index t (2 : Fin 3) * 1024 + 1024; omega
theorem cover_all_arr (i : S1x32x512x1024.Idx) :
    ∃ t : Fin cfg0.N, (cfg0.win 10).flush t = true ∧ i ∈ ((cfg0.win 10).blk t).view.set := by
  have h0 : (i 0).val < 1 := (i 0).isLt
  have h1 : (i 1).val < 32 := (i 1).isLt
  have h2 : (i 2).val < 512 := (i 2).isLt
  have h3 : (i 3).val < 1024 := (i 3).isLt
  let t : Fin cfg0.N := ⟨(i 1).val, by show (i 1).val < grid0.N; rw [N_0]; exact h1⟩
  obtain ⟨e0, e1, e2, e3⟩ := all_index t
  refine ⟨t, flush0_10 t, (mem_all_blk t i).mpr fun a => ?_⟩
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 1 ≤ (i 1).val ∧ (i 1).val < win0_10.index t (1 : Fin 4) * 1 + 1; rw [e1]; show (i 1).val * 1 ≤ (i 1).val ∧ (i 1).val < (i 1).val * 1 + 1; omega
  | ⟨2, _⟩ => show win0_10.index t (2 : Fin 4) * 512 ≤ (i 2).val ∧ (i 2).val < win0_10.index t (2 : Fin 4) * 512 + 512; omega
  | ⟨3, _⟩ => show win0_10.index t (3 : Fin 4) * 1024 ≤ (i 3).val ∧ (i 3).val < win0_10.index t (3 : Fin 4) * 1024 + 1024; omega

/-- The two output arrays after the run. -/
theorem final_out (c : Dev nD) : (dats m 0 c).arrAt 9 cfg0.N = outArr m c :=
  (dats m 0 c).arrAt_eq_of_cover 9 (outArr m c) (fun t _ => flushed_out m c t) cover_out_arr
theorem final_all (c : Dev nD) : (dats m 0 c).arrAt 10 cfg0.N = allArr m c :=
  (dats m 0 c).arrAt_eq_of_cover 10 (allArr m c) (fun t _ => flushed_all m c t) cover_all_arr

/-! ## The run, read -/

/-- Every weakly fair execution of the idealized kernel's @main terminates with both results at the specification of the
    argument arrays, the arguments unchanged. -/
theorem run_value : θ_run defs (onTc (τ := τ) (main (F := Ideal))) ⟨m, fun _ => 0, ρ⟩ (fun r => ∀ c : Dev nD,
      r.2.mem ((c.tc : Thread nD τ).loc main_v7_1) = allArr m c
      ∧ r.2.mem ((c.tc : Thread nD τ).loc main_v7_0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 10).trans (final_all m c), ((h c).1 9).trans (final_out m c), kept_args m r h c⟩)
    (run_main m ρ)

end Cert.KernelIdeal.RegionValue

end
-- ==== Proof.RefLayout.lean ====
/-
  Layout operations of the reference program read at an index: the row gather out of the padded sequence, the words
  that name the gathered rows, and the side-by-side join of two 512-wide arrays.
-/
import proofs.«169205_j71021579206699_1_alg».proof.Proof.Gen.ReferenceIdeal
import Idealize.ShloMosaic.Lib.ValueIdx
import Idealize.ShloMosaic.Lib.Pipeline.Value
import Idealize.ShloMosaic.Lib.StableHlo.Predicate

noncomputable section

namespace Cert.ReferenceIdeal.RefLayout

open Idealize.ShloMosaic Idealize.ShloMosaic.ValueIdx Idealize.ShloMosaic.StableHlo Cert.ReferenceIdeal Cert.ReferenceIdeal.Gen

/-- The dimension numbers of the row gather: the operand's middle axis is indexed by a one-component start word, the
    batch and feature axes are taken whole. -/
abbrev G := gather_S32x516x512_S512x3x1_S32x512x3x512_03_1_n_n_1_2_321512

/-- The row gather at `(b, s, t, d)`: entry `d` of the row of batch element `b` that the start word at `(s, t, 0)`
    names, read signed and clamped into `[0, 515]`. -/
theorem gather_rows {α : Type} (x : S32x516x512.Idx → α) (idx : IVec S512x3x1 32)
    (b : Fin 32) (s : Fin 512) (t : Fin 3) (d : Fin 512) :
    Host.gather gather_S32x516x512_S512x3x1_S32x512x3x512_03_1_n_n_1_2_321512 x idx (ix4 b s t d)
      = x (ix3 b ⟨min (idx (ix3 s t (0 : Fin 1))).toInt.toNat 515, by omega⟩ d) := by
  unfold Host.gather
  congr 1
  funext a
  refine Fin.ext ?_
  match a with
  | ⟨0, h⟩ =>
    show G.start (ix4 b s t d) idx ⟨0, h⟩ + G.batchCoord (ix4 b s t d) ⟨0, h⟩ + G.offCoord (ix4 b s t d) ⟨0, h⟩ = b.val
    have e1 : G.start (ix4 b s t d) idx ⟨0, h⟩ = 0 := rfl
    have e2 : G.batchCoord (ix4 b s t d) ⟨0, h⟩ = 0 := rfl
    have e3 : G.offCoord (ix4 b s t d) ⟨0, h⟩ = b.val := rfl
    rw [e1, e2, e3]; omega
  | ⟨1, h⟩ =>
    show G.start (ix4 b s t d) idx ⟨1, h⟩ + G.batchCoord (ix4 b s t d) ⟨1, h⟩ + G.offCoord (ix4 b s t d) ⟨1, h⟩
      = min (idx (ix3 s t (0 : Fin 1))).toInt.toNat 515
    have e2 : G.batchCoord (ix4 b s t d) ⟨1, h⟩ = 0 := rfl
    have e3 : G.offCoord (ix4 b s t d) ⟨1, h⟩ = 0 := rfl
    have hm : (⟨1, h⟩ : Fin S32x516x512.rank) ∈ G.startIndexMap := List.mem_singleton.mpr rfl
    have e1 : G.start (ix4 b s t d) idx ⟨1, h⟩
        = min (idx (G.siIdx (ix4 b s t d) ⟨G.startIndexMap.idxOf ⟨1, h⟩, List.idxOf_lt_length_iff.2 hm⟩)).toInt.toNat 515 := by
      unfold GatherDims.start; rw [dif_pos hm]; rfl
    have hsi : G.siIdx (ix4 b s t d) ⟨G.startIndexMap.idxOf ⟨1, h⟩, List.idxOf_lt_length_iff.2 hm⟩ = ix3 s t (0 : Fin 1) := by
      funext c; refine Fin.ext ?_
      match c with
      | ⟨0, _⟩ => rfl
      | ⟨1, _⟩ => rfl
      | ⟨2, _⟩ => rfl
    rw [e1, e2, e3, hsi]; rfl
  | ⟨2, h⟩ =>
    show G.start (ix4 b s t d) idx ⟨2, h⟩ + G.batchCoord (ix4 b s t d) ⟨2, h⟩ + G.offCoord (ix4 b s t d) ⟨2, h⟩ = d.val
    have e1 : G.start (ix4 b s t d) idx ⟨2, h⟩ = 0 := rfl
    have e2 : G.batchCoord (ix4 b s t d) ⟨2, h⟩ = 0 := rfl
    have e3 : G.offCoord (ix4 b s t d) ⟨2, h⟩ = d.val := rfl
    rw [e1, e2, e3]; omega

/-- A start word below `2^31` is not negative, so the wrap-around select keeps it, and it reads signed as itself. -/
theorem wrap_word (w : BitVec 32) (hw : w.toNat < 2 ^ 31) :
    (Scalar.select (IntOp.cmpi .slt w 0#32) (IntOp.addi w 516#32) w).toInt.toNat = w.toNat := by
  have h0 : IntOp.cmpi .slt w 0#32 = 0#1 := eq_zero_of_ne_one (fun h => by
    have := (Predicate.slt_iff_toNat hw (by decide)).mp h
    simp at this)
  rw [h0, select_zero, Predicate.toInt_eq_toNat_of_lt hw]
  rfl

/-- The word `s + t` of a position `s < 512` and a window row `t < 3`. -/
theorem toNat_add2 (s t : Nat) (hs : s < 512) (ht : t < 3) :
    (IntOp.addi (BitVec.ofNat 32 s) (BitVec.ofNat 32 t)).toNat = s + t := by
  show (BitVec.ofNat 32 s + BitVec.ofNat 32 t).toNat = s + t
  rw [BitVec.toNat_add, BitVec.toNat_ofNat, BitVec.toNat_ofNat]
  omega

/-- The word `s + t + 2`. -/
theorem toNat_add3 (s t : Nat) (hs : s < 512) (ht : t < 3) :
    (IntOp.addi (IntOp.addi (BitVec.ofNat 32 s) (BitVec.ofNat 32 t)) 2#32).toNat = s + t + 2 := by
  show (BitVec.ofNat 32 s + BitVec.ofNat 32 t + 2#32).toNat = s + t + 2
  rw [BitVec.toNat_add, BitVec.toNat_add, BitVec.toNat_ofNat, BitVec.toNat_ofNat]
  simp only [BitVec.toNat_ofNat]
  omega

/-- Two 512-wide arrays laid side by side along the last axis, read in the left half. -/
theorem join_left {α : Type} (u v : S32x512x512.Idx → α) (b : Fin 32) (s : Fin 512) (e : Fin 1024) (he : e.val < 512) :
    concatenate S32x512x1024 2 [⟨S32x512x512, u⟩, ⟨S32x512x512, v⟩] concatenates_S32x512x512_S32x512x512_S32x512x1024_d2 (ix3 b s e)
      = u (ix3 b s ⟨e.val, he⟩) :=
  concatenate_pair_apply_left (2 : Fin S32x512x1024.rank) u v concatenates_S32x512x512_S32x512x512_S32x512x1024_d2 (ix3 b s e) rfl
    (ix3 b s ⟨e.val, he⟩) (fun a => match a with | ⟨0, _⟩ => rfl | ⟨1, _⟩ => rfl | ⟨2, _⟩ => rfl)

/-- The same, read in the right half. -/
theorem join_right {α : Type} (u v : S32x512x512.Idx → α) (b : Fin 32) (s : Fin 512) (e : Fin 1024) (he : ¬ e.val < 512) :
    concatenate S32x512x1024 2 [⟨S32x512x512, u⟩, ⟨S32x512x512, v⟩] concatenates_S32x512x512_S32x512x512_S32x512x1024_d2 (ix3 b s e)
      = v (ix3 b s ⟨e.val - 512, by have := e.isLt; omega⟩) :=
  concatenate_pair_apply_right (2 : Fin S32x512x1024.rank) u v concatenates_S32x512x512_S32x512x512_S32x512x1024_d2 (ix3 b s e) rfl rfl
    (ix3 b s ⟨e.val - 512, by have := e.isLt; omega⟩)
    (fun a => match a with
      | ⟨0, _⟩ => fun _ => rfl
      | ⟨1, _⟩ => fun _ => rfl
      | ⟨2, _⟩ => fun h => absurd rfl h)
    (by show e.val - 512 + 512 = e.val; omega)

end Cert.ReferenceIdeal.RefLayout

end
-- ==== Proof.RefValue.lean ====
/-
  The reference program's result, read at an index over the extended reals, is the specification: the two row
  windows of the padded sequence, the two rectified projections, the four highway layers, the join of the two
  sides along the feature axis, and the leading unit axis.
-/
import proofs.«169205_j71021579206699_1_alg».proof.Proof.RefRead
import proofs.«169205_j71021579206699_1_alg».proof.Proof.Spec
import proofs.«169205_j71021579206699_1_alg».proof.Proof.RefLayout
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.StableHlo Cert.ReferenceIdeal Cert.ReferenceIdeal.Gen Cert.ReferenceIdeal.RefLayout

/-! ## The two windows -/

/-- The start word of the left window at `(s, t, 0)`. -/
theorem word_left (s : Fin 512) (t : Fin 3) :
    (ReadP.val_main_v15 (F := Ideal) (ix3 s t (0 : Fin 1))).toInt.toNat = s.val + t.val := by
  have e : ReadP.val_main_v15 (F := Ideal) (ix3 s t (0 : Fin 1))
      = Scalar.select (IntOp.cmpi .slt (IntOp.addi (BitVec.ofNat 32 s.val) (BitVec.ofNat 32 t.val)) 0#32)
          (IntOp.addi (IntOp.addi (BitVec.ofNat 32 s.val) (BitVec.ofNat 32 t.val)) 516#32)
          (IntOp.addi (BitVec.ofNat 32 s.val) (BitVec.ofNat 32 t.val)) := by
    rw [ReadP.val_main_v15_apply, ReadP.val_main_v14_apply, ReadP.val_main_v11_apply, ReadP.val_main_v13_apply, ReadP.val_main_v9_apply,
      ReadP.val_main_v7_apply, ReadP.val_main_v8_apply, ReadP.val_main_v4_apply, ReadP.val_main_v6_apply, ReadP.val_main_v3_apply,
      ReadP.val_main_v5_apply, ReadP.val_main_v10_apply, ReadP.val_main_v12_apply, ReadP.val_main_c_apply, ReadP.val_main_c_0_apply]
  have hs := s.isLt
  have ht := t.isLt
  have hn := toNat_add2 s.val t.val hs ht
  rw [e, wrap_word _ (by rw [hn]; omega), hn]

/-- The start word of the right window at `(s, t, 0)`. -/
theorem word_right (s : Fin 512) (t : Fin 3) :
    (ReadP.val_main_v25 (F := Ideal) (ix3 s t (0 : Fin 1))).toInt.toNat = s.val + t.val + 2 := by
  have e : ReadP.val_main_v25 (F := Ideal) (ix3 s t (0 : Fin 1))
      = Scalar.select (IntOp.cmpi .slt (IntOp.addi (IntOp.addi (BitVec.ofNat 32 s.val) (BitVec.ofNat 32 t.val)) 2#32) 0#32)
          (IntOp.addi (IntOp.addi (IntOp.addi (BitVec.ofNat 32 s.val) (BitVec.ofNat 32 t.val)) 2#32) 516#32)
          (IntOp.addi (IntOp.addi (BitVec.ofNat 32 s.val) (BitVec.ofNat 32 t.val)) 2#32) := by
    rw [ReadP.val_main_v25_apply, ReadP.val_main_v24_apply, ReadP.val_main_v21_apply, ReadP.val_main_v23_apply, ReadP.val_main_v19_apply,
      ReadP.val_main_v9_apply,
      ReadP.val_main_v7_apply, ReadP.val_main_v8_apply, ReadP.val_main_v4_apply, ReadP.val_main_v6_apply, ReadP.val_main_v3_apply,
      ReadP.val_main_v5_apply, ReadP.val_main_v18_apply, ReadP.val_main_v20_apply, ReadP.val_main_v22_apply,
      ReadP.val_main_c_1_apply, ReadP.val_main_c_2_apply, ReadP.val_main_c_3_apply]
  have hs := s.isLt
  have ht := t.isLt
  have hn := toNat_add3 s.val t.val hs ht
  rw [e, wrap_word _ (by rw [hn]; omega), hn]

/-- Two rows of the padded sequence with the same number are the same row. -/
theorem row_congr {α : Type} (P : S32x516x512.Idx → α) (b : Fin 32) (r r' : Fin 516) (d : Fin 512) (h : r.val = r'.val) :
    P (ix3 b r d) = P (ix3 b r' d) := by
  obtain rfl : r = r' := Fin.ext h
  rfl

/-- Where the flattened window index `(b, s, k)` sits in the gathered rows: row `k / 512`, entry `k % 512`. -/
theorem idx17 (b : Fin 32) (s : Fin 512) (k : Fin 1536) :
    ReadP.idx_main_v17 (ix3 b s k)
      = ix4 b s ⟨k.val / 512, by have := k.isLt; omega⟩ ⟨k.val % 512, Nat.mod_lt _ (by decide)⟩ := by
  have hb := b.isLt
  have hs := s.isLt
  have hk := k.isLt
  funext a
  refine Fin.ext ?_
  match a with
  | ⟨0, _⟩ => show ((b.val * 512 + s.val) * 1536 + k.val) / 786432 = b.val; omega
  | ⟨1, _⟩ => show ((b.val * 512 + s.val) * 1536 + k.val) / 1536 % 512 = s.val; omega
  | ⟨2, _⟩ => show ((b.val * 512 + s.val) * 1536 + k.val) / 512 % 3 = k.val / 512; omega
  | ⟨3, _⟩ => show ((b.val * 512 + s.val) * 1536 + k.val) % 512 = k.val % 512; omega

/-- The left window at `(b, s, k)` is rows `s, s + 1, s + 2` of the padded sequence laid end to end. -/
theorem win_left (x0 : (⟨S32x512x512, .f32⟩ : BufTy).Contents (Elt Ideal)) (x1 x2 : (⟨S2x512, .f32⟩ : BufTy).Contents (Elt Ideal))
    (b : Fin 32) (s : Fin 512) (k : Fin 1536) :
    ReadP.val_main_v17 (F := Ideal) x0 x1 x2 (ix3 b s k)
      = Cert.Spec.win3 (Cert.Spec.fn3 (ReadP.val_main_v2 (F := Ideal) x0 x1 x2) b) (s.val + 0) (by have := s.isLt; omega) k := by
  rw [ReadP.val_main_v17_apply, idx17]
  unfold ReadP.val_main_v16
  generalize ReadP.val_main_v2 (F := Ideal) x0 x1 x2 = P
  rw [gather_rows]
  unfold Cert.Spec.win3 Cert.Spec.fn3
  refine row_congr P b _ _ _ ?_
  have hk := k.isLt
  have hs := s.isLt
  show min (ReadP.val_main_v15 (F := Ideal) (ix3 s ⟨k.val / 512, _⟩ (0 : Fin 1))).toInt.toNat 515 = s.val + 0 + k.val / 512
  rw [word_left]
  show min (s.val + k.val / 512) 515 = s.val + 0 + k.val / 512
  omega

/-- The right window at `(b, s, k)` is rows `s + 2, s + 3, s + 4`. -/
theorem win_right (x0 : (⟨S32x512x512, .f32⟩ : BufTy).Contents (Elt Ideal)) (x1 x2 : (⟨S2x512, .f32⟩ : BufTy).Contents (Elt Ideal))
    (b : Fin 32) (s : Fin 512) (k : Fin 1536) :
    ReadP.val_main_v27 (F := Ideal) x0 x1 x2 (ix3 b s k)
      = Cert.Spec.win3 (Cert.Spec.fn3 (ReadP.val_main_v2 (F := Ideal) x0 x1 x2) b) (s.val + 2) (by have := s.isLt; omega) k := by
  have e27 : ReadP.idx_main_v27 (ix3 b s k) = ReadP.idx_main_v17 (ix3 b s k) := rfl
  rw [ReadP.val_main_v27_apply, e27, idx17]
  unfold ReadP.val_main_v26
  generalize ReadP.val_main_v2 (F := Ideal) x0 x1 x2 = P
  rw [gather_rows]
  unfold Cert.Spec.win3 Cert.Spec.fn3
  refine row_congr P b _ _ _ ?_
  have hk := k.isLt
  have hs := s.isLt
  show min (ReadP.val_main_v25 (F := Ideal) (ix3 s ⟨k.val / 512, _⟩ (0 : Fin 1))).toInt.toNat 515 = s.val + 2 + k.val / 512
  rw [word_right]
  show min (s.val + k.val / 512 + 2) 515 = s.val + 2 + k.val / 512
  omega

/-! ## The two rectified projections -/

/-- The rectified projection of the left window. -/
theorem proj_left (x0 : (⟨S32x512x512, .f32⟩ : BufTy).Contents (Elt Ideal)) (x1 x2 : (⟨S2x512, .f32⟩ : BufTy).Contents (Elt Ideal))
    (x3 : (⟨S512x1536, .f32⟩ : BufTy).Contents (Elt Ideal)) (x4 : (⟨S512, .f32⟩ : BufTy).Contents (Elt Ideal))
    (b : Fin 32) (s h : Fin 512) :
    ReadP.val_main_v32 (F := Ideal) x0 x1 x2 x3 x4 (ix3 b s h)
      = Cert.Spec.proj (Cert.Spec.fn3 (ReadP.val_main_v2 (F := Ideal) x0 x1 x2) b) (Cert.Spec.fn2 x3) (Cert.Spec.fn1 x4) 0 (by decide) s h := by
  have el : ∀ k : Fin 1536, ReadP.lidx_main_v28 (ix3 b s h) k = ix3 b s k := fun k =>
    funext fun a => match a with | ⟨0, _⟩ => rfl | ⟨1, _⟩ => rfl | ⟨2, _⟩ => rfl
  have er : ∀ k : Fin 1536, ReadP.ridx_main_v28 (ix3 b s h) k = ix2 h k := fun k =>
    funext fun a => match a with | ⟨0, _⟩ => rfl | ⟨1, _⟩ => rfl
  have eb : ReadP.idx_main_v29 (ReadP.idx_main_v30 (ix3 b s h)) = ix1 h :=
    funext fun a => match a with | ⟨0, _⟩ => rfl
  rw [ReadP.val_main_v32_apply, ReadP.val_main_v31_apply, ReadP.val_main_v28_apply, ReadP.val_main_v30_apply, ReadP.val_main_v29_apply,
    ReadP.val_main_call0_v0_apply, ReadP.val_main_call0_cst_apply, eb]
  simp only [el, er, win_left, Ideal.ofBits_def, Ideal.ofBits_zero_f32]
  rfl

/-- The rectified projection of the right window. -/
theorem proj_right (x0 : (⟨S32x512x512, .f32⟩ : BufTy).Contents (Elt Ideal)) (x1 x2 : (⟨S2x512, .f32⟩ : BufTy).Contents (Elt Ideal))
    (x5 : (⟨S512x1536, .f32⟩ : BufTy).Contents (Elt Ideal)) (x6 : (⟨S512, .f32⟩ : BufTy).Contents (Elt Ideal))
    (b : Fin 32) (s h : Fin 512) :
    ReadP.val_main_v37 (F := Ideal) x0 x1 x2 x5 x6 (ix3 b s h)
      = Cert.Spec.proj (Cert.Spec.fn3 (ReadP.val_main_v2 (F := Ideal) x0 x1 x2) b) (Cert.Spec.fn2 x5) (Cert.Spec.fn1 x6) 2 (by decide) s h := by
  have el : ∀ k : Fin 1536, ReadP.lidx_main_v33 (ix3 b s h) k = ix3 b s k := fun k =>
    funext fun a => match a with | ⟨0, _⟩ => rfl | ⟨1, _⟩ => rfl | ⟨2, _⟩ => rfl
  have er : ∀ k : Fin 1536, ReadP.ridx_main_v33 (ix3 b s h) k = ix2 h k := fun k =>
    funext fun a => match a with | ⟨0, _⟩ => rfl | ⟨1, _⟩ => rfl
  have eb : ReadP.idx_main_v34 (ReadP.idx_main_v35 (ix3 b s h)) = ix1 h :=
    funext fun a => match a with | ⟨0, _⟩ => rfl
  rw [ReadP.val_main_v37_apply, ReadP.val_main_v36_apply, ReadP.val_main_v33_apply, ReadP.val_main_v35_apply, ReadP.val_main_v34_apply,
    ReadP.val_main_call1_v0_apply, ReadP.val_main_call1_cst_apply, eb]
  simp only [el, er, win_right, Ideal.ofBits_def, Ideal.ofBits_zero_f32]
  rfl

/-! ## The four highway layers -/

/-- The gate arithmetic of one highway entry: with pre-activations `p` (gate) and `q` (candidate) and incoming value
    `y`, negate / exponential / add one / divide one is the logistic function, and the result is
    `logistic p * y + (1 - logistic p) * max q 0`. -/
theorem gate_eq (p q y : Ideal .f32) :
    FloatOps.addf
      (FloatOps.mulf (FloatOps.hostDivf (1 : Ideal .f32) (FloatOps.addf 1 (FloatOps.hostUnary HostUnaryOp.exp (FloatOps.hostNegf p)))) y)
      (FloatOps.mulf (FloatOps.subf 1 (FloatOps.hostDivf 1 (FloatOps.addf 1 (FloatOps.hostUnary HostUnaryOp.exp (FloatOps.hostNegf p)))))
        (FloatOps.maximumf q 0))
      = Ideal.logistic p * y + (1 - Ideal.logistic p) * max q 0 := rfl

/-- Highway layer 1: the 1024 pre-activations at `(b, s, e)` are the affine image of row `s` of the incoming tile. -/
theorem aff1 (x0 : (⟨S32x512x512, .f32⟩ : BufTy).Contents (Elt Ideal)) (x1 x2 : (⟨S2x512, .f32⟩ : BufTy).Contents (Elt Ideal)) (x3 : (⟨S512x1536, .f32⟩ : BufTy).Contents (Elt Ideal)) (x4 : (⟨S512, .f32⟩ : BufTy).Contents (Elt Ideal)) (x7 : (⟨S2x1024x512, .f32⟩ : BufTy).Contents (Elt Ideal)) (x8 : (⟨S2x1024, .f32⟩ : BufTy).Contents (Elt Ideal))
    (b : Fin 32) (s : Fin 512) (e : Fin 1024) :
    ReadP.val_main_v45 (F := Ideal) x0 x1 x2 x3 x4 x7 x8 (ix3 b s e)
      = Cert.Spec.affine (Cert.Spec.fn3 x7 0) (Cert.Spec.fn2 x8 0) (fun d => ReadP.val_main_v32 (F := Ideal) x0 x1 x2 x3 x4 (ix3 b s d)) e := by
  have el : ∀ k : Fin 512, ReadP.lidx_main_v40 (ix3 b s e) k = ix3 b s k := fun k =>
    funext fun a => match a with | ⟨0, _⟩ => rfl | ⟨1, _⟩ => rfl | ⟨2, _⟩ => rfl
  have er : ∀ k : Fin 512, ReadP.ridx_main_v40 (ix3 b s e) k = ix2 e k := fun k =>
    funext fun a => match a with | ⟨0, _⟩ => rfl | ⟨1, _⟩ => rfl
  have ew : ∀ k : Fin 512, ReadP.idx_main_v38 (ReadP.idx_main_v39 (ix2 e k)) = ix3 (0 : Fin 2) e k := fun k => by
    have he := e.isLt
    have hk := k.isLt
    funext a
    refine Fin.ext ?_
    match a with
    | ⟨0, _⟩ => rfl
    | ⟨1, _⟩ => show (e.val * 512 + k.val) / 512 % 1024 = e.val; omega
    | ⟨2, _⟩ => show (e.val * 512 + k.val) % 512 = k.val; omega
  have eb : ReadP.idx_main_v41 (ReadP.idx_main_v42 (ReadP.idx_main_v43 (ReadP.idx_main_v44 (ix3 b s e)))) = ix2 (0 : Fin 2) e := by
    have he := e.isLt
    funext a
    refine Fin.ext ?_
    match a with
    | ⟨0, _⟩ => rfl
    | ⟨1, _⟩ => show e.val % 1024 = e.val; omega
  rw [ReadP.val_main_v45_apply, ReadP.val_main_v40_apply, ReadP.val_main_v44_apply, ReadP.val_main_v43_apply, ReadP.val_main_v42_apply, ReadP.val_main_v41_apply, eb]
  simp only [ReadP.val_main_v39_apply, ReadP.val_main_v38_apply, el, er, ew]
  rfl

/-- Highway layer 1 at `(b, s, h)`: gate times the incoming value plus one minus gate times the rectified candidate. -/
theorem layer1 (x0 : (⟨S32x512x512, .f32⟩ : BufTy).Contents (Elt Ideal)) (x1 x2 : (⟨S2x512, .f32⟩ : BufTy).Contents (Elt Ideal)) (x3 : (⟨S512x1536, .f32⟩ : BufTy).Contents (Elt Ideal)) (x4 : (⟨S512, .f32⟩ : BufTy).Contents (Elt Ideal)) (x7 : (⟨S2x1024x512, .f32⟩ : BufTy).Contents (Elt Ideal)) (x8 : (⟨S2x1024, .f32⟩ : BufTy).Contents (Elt Ideal))
    (b : Fin 32) (s h : Fin 512) :
    ReadP.val_main_v59 (F := Ideal) x0 x1 x2 x3 x4 x7 x8 (ix3 b s h)
      = Cert.Spec.layer (Cert.Spec.fn3 x7 0) (Cert.Spec.fn2 x8 0) (fun s' h' => ReadP.val_main_v32 (F := Ideal) x0 x1 x2 x3 x4 (ix3 b s' h')) s h := by
  have elo : ReadP.idx_main_v46 (ix3 b s h) = ix3 b s ⟨h.val, by have := h.isLt; omega⟩ :=
    funext fun a => match a with | ⟨0, _⟩ => rfl | ⟨1, _⟩ => rfl | ⟨2, _⟩ => rfl
  have ehi : ReadP.idx_main_v48 (ix3 b s h) = ix3 b s ⟨512 + h.val, by have := h.isLt; omega⟩ :=
    funext fun a => match a with | ⟨0, _⟩ => rfl | ⟨1, _⟩ => rfl | ⟨2, _⟩ => rfl
  rw [ReadP.val_main_v59_apply, ReadP.val_main_v55_apply, ReadP.val_main_v58_apply, ReadP.val_main_v57_apply, ReadP.val_main_v54_apply, ReadP.val_main_v52_apply, ReadP.val_main_v50_apply, ReadP.val_main_v49_apply, ReadP.val_main_v48_apply, ReadP.val_main_v47_apply, ReadP.val_main_v46_apply,
    ReadP.val_main_v51_apply, ReadP.val_main_v53_apply, ReadP.val_main_v56_apply, ReadP.val_main_cst_apply, ReadP.val_main_cst_4_apply, ReadP.val_main_cst_5_apply,
    ReadP.val_main_call2_v0_apply, ReadP.val_main_call2_cst_apply, elo, ehi, aff1, aff1]
  simp only [Ideal.ofBits_def, Cert.Spec.ofBits_one_f32, Ideal.ofBits_zero_f32]
  unfold Cert.Spec.layer
  exact gate_eq _ _ _

/-- Highway layer 2: the 1024 pre-activations at `(b, s, e)` are the affine image of row `s` of the incoming tile. -/
theorem aff2 (x0 : (⟨S32x512x512, .f32⟩ : BufTy).Contents (Elt Ideal)) (x1 x2 : (⟨S2x512, .f32⟩ : BufTy).Contents (Elt Ideal)) (x3 : (⟨S512x1536, .f32⟩ : BufTy).Contents (Elt Ideal)) (x4 : (⟨S512, .f32⟩ : BufTy).Contents (Elt Ideal)) (x7 : (⟨S2x1024x512, .f32⟩ : BufTy).Contents (Elt Ideal)) (x8 : (⟨S2x1024, .f32⟩ : BufTy).Contents (Elt Ideal))
    (b : Fin 32) (s : Fin 512) (e : Fin 1024) :
    ReadP.val_main_v67 (F := Ideal) x0 x1 x2 x3 x4 x7 x8 (ix3 b s e)
      = Cert.Spec.affine (Cert.Spec.fn3 x7 1) (Cert.Spec.fn2 x8 1) (fun d => ReadP.val_main_v59 (F := Ideal) x0 x1 x2 x3 x4 x7 x8 (ix3 b s d)) e := by
  have el : ∀ k : Fin 512, ReadP.lidx_main_v62 (ix3 b s e) k = ix3 b s k := fun k =>
    funext fun a => match a with | ⟨0, _⟩ => rfl | ⟨1, _⟩ => rfl | ⟨2, _⟩ => rfl
  have er : ∀ k : Fin 512, ReadP.ridx_main_v62 (ix3 b s e) k = ix2 e k := fun k =>
    funext fun a => match a with | ⟨0, _⟩ => rfl | ⟨1, _⟩ => rfl
  have ew : ∀ k : Fin 512, ReadP.idx_main_v60 (ReadP.idx_main_v61 (ix2 e k)) = ix3 (1 : Fin 2) e k := fun k => by
    have he := e.isLt
    have hk := k.isLt
    funext a
    refine Fin.ext ?_
    match a with
    | ⟨0, _⟩ => rfl
    | ⟨1, _⟩ => show (e.val * 512 + k.val) / 512 % 1024 = e.val; omega
    | ⟨2, _⟩ => show (e.val * 512 + k.val) % 512 = k.val; omega
  have eb : ReadP.idx_main_v63 (ReadP.idx_main_v64 (ReadP.idx_main_v65 (ReadP.idx_main_v66 (ix3 b s e)))) = ix2 (1 : Fin 2) e := by
    have he := e.isLt
    funext a
    refine Fin.ext ?_
    match a with
    | ⟨0, _⟩ => rfl
    | ⟨1, _⟩ => show e.val % 1024 = e.val; omega
  rw [ReadP.val_main_v67_apply, ReadP.val_main_v62_apply, ReadP.val_main_v66_apply, ReadP.val_main_v65_apply, ReadP.val_main_v64_apply, ReadP.val_main_v63_apply, eb]
  simp only [ReadP.val_main_v61_apply, ReadP.val_main_v60_apply, el, er, ew]
  rfl

/-- Highway layer 2 at `(b, s, h)`: gate times the incoming value plus one minus gate times the rectified candidate. -/
theorem layer2 (x0 : (⟨S32x512x512, .f32⟩ : BufTy).Contents (Elt Ideal)) (x1 x2 : (⟨S2x512, .f32⟩ : BufTy).Contents (Elt Ideal)) (x3 : (⟨S512x1536, .f32⟩ : BufTy).Contents (Elt Ideal)) (x4 : (⟨S512, .f32⟩ : BufTy).Contents (Elt Ideal)) (x7 : (⟨S2x1024x512, .f32⟩ : BufTy).Contents (Elt Ideal)) (x8 : (⟨S2x1024, .f32⟩ : BufTy).Contents (Elt Ideal))
    (b : Fin 32) (s h : Fin 512) :
    ReadP.val_main_v81 (F := Ideal) x0 x1 x2 x3 x4 x7 x8 (ix3 b s h)
      = Cert.Spec.layer (Cert.Spec.fn3 x7 1) (Cert.Spec.fn2 x8 1) (fun s' h' => ReadP.val_main_v59 (F := Ideal) x0 x1 x2 x3 x4 x7 x8 (ix3 b s' h')) s h := by
  have elo : ReadP.idx_main_v68 (ix3 b s h) = ix3 b s ⟨h.val, by have := h.isLt; omega⟩ :=
    funext fun a => match a with | ⟨0, _⟩ => rfl | ⟨1, _⟩ => rfl | ⟨2, _⟩ => rfl
  have ehi : ReadP.idx_main_v70 (ix3 b s h) = ix3 b s ⟨512 + h.val, by have := h.isLt; omega⟩ :=
    funext fun a => match a with | ⟨0, _⟩ => rfl | ⟨1, _⟩ => rfl | ⟨2, _⟩ => rfl
  rw [ReadP.val_main_v81_apply, ReadP.val_main_v77_apply, ReadP.val_main_v80_apply, ReadP.val_main_v79_apply, ReadP.val_main_v76_apply, ReadP.val_main_v74_apply, ReadP.val_main_v72_apply, ReadP.val_main_v71_apply, ReadP.val_main_v70_apply, ReadP.val_main_v69_apply, ReadP.val_main_v68_apply,
    ReadP.val_main_v73_apply, ReadP.val_main_v75_apply, ReadP.val_main_v78_apply, ReadP.val_main_cst_6_apply, ReadP.val_main_cst_7_apply, ReadP.val_main_cst_8_apply,
    ReadP.val_main_call3_v0_apply, ReadP.val_main_call3_cst_apply, elo, ehi, aff2, aff2]
  simp only [Ideal.ofBits_def, Cert.Spec.ofBits_one_f32, Ideal.ofBits_zero_f32]
  unfold Cert.Spec.layer
  exact gate_eq _ _ _

/-- Highway layer 3: the 1024 pre-activations at `(b, s, e)` are the affine image of row `s` of the incoming tile. -/
theorem aff3 (x0 : (⟨S32x512x512, .f32⟩ : BufTy).Contents (Elt Ideal)) (x1 x2 : (⟨S2x512, .f32⟩ : BufTy).Contents (Elt Ideal)) (x5 : (⟨S512x1536, .f32⟩ : BufTy).Contents (Elt Ideal)) (x6 : (⟨S512, .f32⟩ : BufTy).Contents (Elt Ideal)) (x9 : (⟨S2x1024x512, .f32⟩ : BufTy).Contents (Elt Ideal)) (x10 : (⟨S2x1024, .f32⟩ : BufTy).Contents (Elt Ideal))
    (b : Fin 32) (s : Fin 512) (e : Fin 1024) :
    ReadP.val_main_v89 (F := Ideal) x0 x1 x2 x5 x6 x9 x10 (ix3 b s e)
      = Cert.Spec.affine (Cert.Spec.fn3 x9 0) (Cert.Spec.fn2 x10 0) (fun d => ReadP.val_main_v37 (F := Ideal) x0 x1 x2 x5 x6 (ix3 b s d)) e := by
  have el : ∀ k : Fin 512, ReadP.lidx_main_v84 (ix3 b s e) k = ix3 b s k := fun k =>
    funext fun a => match a with | ⟨0, _⟩ => rfl | ⟨1, _⟩ => rfl | ⟨2, _⟩ => rfl
  have er : ∀ k : Fin 512, ReadP.ridx_main_v84 (ix3 b s e) k = ix2 e k := fun k =>
    funext fun a => match a with | ⟨0, _⟩ => rfl | ⟨1, _⟩ => rfl
  have ew : ∀ k : Fin 512, ReadP.idx_main_v82 (ReadP.idx_main_v83 (ix2 e k)) = ix3 (0 : Fin 2) e k := fun k => by
    have he := e.isLt
    have hk := k.isLt
    funext a
    refine Fin.ext ?_
    match a with
    | ⟨0, _⟩ => rfl
    | ⟨1, _⟩ => show (e.val * 512 + k.val) / 512 % 1024 = e.val; omega
    | ⟨2, _⟩ => show (e.val * 512 + k.val) % 512 = k.val; omega
  have eb : ReadP.idx_main_v85 (ReadP.idx_main_v86 (ReadP.idx_main_v87 (ReadP.idx_main_v88 (ix3 b s e)))) = ix2 (0 : Fin 2) e := by
    have he := e.isLt
    funext a
    refine Fin.ext ?_
    match a with
    | ⟨0, _⟩ => rfl
    | ⟨1, _⟩ => show e.val % 1024 = e.val; omega
  rw [ReadP.val_main_v89_apply, ReadP.val_main_v84_apply, ReadP.val_main_v88_apply, ReadP.val_main_v87_apply, ReadP.val_main_v86_apply, ReadP.val_main_v85_apply, eb]
  simp only [ReadP.val_main_v83_apply, ReadP.val_main_v82_apply, el, er, ew]
  rfl

/-- Highway layer 3 at `(b, s, h)`: gate times the incoming value plus one minus gate times the rectified candidate. -/
theorem layer3 (x0 : (⟨S32x512x512, .f32⟩ : BufTy).Contents (Elt Ideal)) (x1 x2 : (⟨S2x512, .f32⟩ : BufTy).Contents (Elt Ideal)) (x5 : (⟨S512x1536, .f32⟩ : BufTy).Contents (Elt Ideal)) (x6 : (⟨S512, .f32⟩ : BufTy).Contents (Elt Ideal)) (x9 : (⟨S2x1024x512, .f32⟩ : BufTy).Contents (Elt Ideal)) (x10 : (⟨S2x1024, .f32⟩ : BufTy).Contents (Elt Ideal))
    (b : Fin 32) (s h : Fin 512) :
    ReadP.val_main_v103 (F := Ideal) x0 x1 x2 x5 x6 x9 x10 (ix3 b s h)
      = Cert.Spec.layer (Cert.Spec.fn3 x9 0) (Cert.Spec.fn2 x10 0) (fun s' h' => ReadP.val_main_v37 (F := Ideal) x0 x1 x2 x5 x6 (ix3 b s' h')) s h := by
  have elo : ReadP.idx_main_v90 (ix3 b s h) = ix3 b s ⟨h.val, by have := h.isLt; omega⟩ :=
    funext fun a => match a with | ⟨0, _⟩ => rfl | ⟨1, _⟩ => rfl | ⟨2, _⟩ => rfl
  have ehi : ReadP.idx_main_v92 (ix3 b s h) = ix3 b s ⟨512 + h.val, by have := h.isLt; omega⟩ :=
    funext fun a => match a with | ⟨0, _⟩ => rfl | ⟨1, _⟩ => rfl | ⟨2, _⟩ => rfl
  rw [ReadP.val_main_v103_apply, ReadP.val_main_v99_apply, ReadP.val_main_v102_apply, ReadP.val_main_v101_apply, ReadP.val_main_v98_apply, ReadP.val_main_v96_apply, ReadP.val_main_v94_apply, ReadP.val_main_v93_apply, ReadP.val_main_v92_apply, ReadP.val_main_v91_apply, ReadP.val_main_v90_apply,
    ReadP.val_main_v95_apply, ReadP.val_main_v97_apply, ReadP.val_main_v100_apply, ReadP.val_main_cst_9_apply, ReadP.val_main_cst_10_apply, ReadP.val_main_cst_11_apply,
    ReadP.val_main_call4_v0_apply, ReadP.val_main_call4_cst_apply, elo, ehi, aff3, aff3]
  simp only [Ideal.ofBits_def, Cert.Spec.ofBits_one_f32, Ideal.ofBits_zero_f32]
  unfold Cert.Spec.layer
  exact gate_eq _ _ _

/-- Highway layer 4: the 1024 pre-activations at `(b, s, e)` are the affine image of row `s` of the incoming tile. -/
theorem aff4 (x0 : (⟨S32x512x512, .f32⟩ : BufTy).Contents (Elt Ideal)) (x1 x2 : (⟨S2x512, .f32⟩ : BufTy).Contents (Elt Ideal)) (x5 : (⟨S512x1536, .f32⟩ : BufTy).Contents (Elt Ideal)) (x6 : (⟨S512, .f32⟩ : BufTy).Contents (Elt Ideal)) (x9 : (⟨S2x1024x512, .f32⟩ : BufTy).Contents (Elt Ideal)) (x10 : (⟨S2x1024, .f32⟩ : BufTy).Contents (Elt Ideal))
    (b : Fin 32) (s : Fin 512) (e : Fin 1024) :
    ReadP.val_main_v111 (F := Ideal) x0 x1 x2 x5 x6 x9 x10 (ix3 b s e)
      = Cert.Spec.affine (Cert.Spec.fn3 x9 1) (Cert.Spec.fn2 x10 1) (fun d => ReadP.val_main_v103 (F := Ideal) x0 x1 x2 x5 x6 x9 x10 (ix3 b s d)) e := by
  have el : ∀ k : Fin 512, ReadP.lidx_main_v106 (ix3 b s e) k = ix3 b s k := fun k =>
    funext fun a => match a with | ⟨0, _⟩ => rfl | ⟨1, _⟩ => rfl | ⟨2, _⟩ => rfl
  have er : ∀ k : Fin 512, ReadP.ridx_main_v106 (ix3 b s e) k = ix2 e k := fun k =>
    funext fun a => match a with | ⟨0, _⟩ => rfl | ⟨1, _⟩ => rfl
  have ew : ∀ k : Fin 512, ReadP.idx_main_v104 (ReadP.idx_main_v105 (ix2 e k)) = ix3 (1 : Fin 2) e k := fun k => by
    have he := e.isLt
    have hk := k.isLt
    funext a
    refine Fin.ext ?_
    match a with
    | ⟨0, _⟩ => rfl
    | ⟨1, _⟩ => show (e.val * 512 + k.val) / 512 % 1024 = e.val; omega
    | ⟨2, _⟩ => show (e.val * 512 + k.val) % 512 = k.val; omega
  have eb : ReadP.idx_main_v107 (ReadP.idx_main_v108 (ReadP.idx_main_v109 (ReadP.idx_main_v110 (ix3 b s e)))) = ix2 (1 : Fin 2) e := by
    have he := e.isLt
    funext a
    refine Fin.ext ?_
    match a with
    | ⟨0, _⟩ => rfl
    | ⟨1, _⟩ => show e.val % 1024 = e.val; omega
  rw [ReadP.val_main_v111_apply, ReadP.val_main_v106_apply, ReadP.val_main_v110_apply, ReadP.val_main_v109_apply, ReadP.val_main_v108_apply, ReadP.val_main_v107_apply, eb]
  simp only [ReadP.val_main_v105_apply, ReadP.val_main_v104_apply, el, er, ew]
  rfl

/-- Highway layer 4 at `(b, s, h)`: gate times the incoming value plus one minus gate times the rectified candidate. -/
theorem layer4 (x0 : (⟨S32x512x512, .f32⟩ : BufTy).Contents (Elt Ideal)) (x1 x2 : (⟨S2x512, .f32⟩ : BufTy).Contents (Elt Ideal)) (x5 : (⟨S512x1536, .f32⟩ : BufTy).Contents (Elt Ideal)) (x6 : (⟨S512, .f32⟩ : BufTy).Contents (Elt Ideal)) (x9 : (⟨S2x1024x512, .f32⟩ : BufTy).Contents (Elt Ideal)) (x10 : (⟨S2x1024, .f32⟩ : BufTy).Contents (Elt Ideal))
    (b : Fin 32) (s h : Fin 512) :
    ReadP.val_main_v125 (F := Ideal) x0 x1 x2 x5 x6 x9 x10 (ix3 b s h)
      = Cert.Spec.layer (Cert.Spec.fn3 x9 1) (Cert.Spec.fn2 x10 1) (fun s' h' => ReadP.val_main_v103 (F := Ideal) x0 x1 x2 x5 x6 x9 x10 (ix3 b s' h')) s h := by
  have elo : ReadP.idx_main_v112 (ix3 b s h) = ix3 b s ⟨h.val, by have := h.isLt; omega⟩ :=
    funext fun a => match a with | ⟨0, _⟩ => rfl | ⟨1, _⟩ => rfl | ⟨2, _⟩ => rfl
  have ehi : ReadP.idx_main_v114 (ix3 b s h) = ix3 b s ⟨512 + h.val, by have := h.isLt; omega⟩ :=
    funext fun a => match a with | ⟨0, _⟩ => rfl | ⟨1, _⟩ => rfl | ⟨2, _⟩ => rfl
  rw [ReadP.val_main_v125_apply, ReadP.val_main_v121_apply, ReadP.val_main_v124_apply, ReadP.val_main_v123_apply, ReadP.val_main_v120_apply, ReadP.val_main_v118_apply, ReadP.val_main_v116_apply, ReadP.val_main_v115_apply, ReadP.val_main_v114_apply, ReadP.val_main_v113_apply, ReadP.val_main_v112_apply,
    ReadP.val_main_v117_apply, ReadP.val_main_v119_apply, ReadP.val_main_v122_apply, ReadP.val_main_cst_12_apply, ReadP.val_main_cst_13_apply, ReadP.val_main_cst_14_apply,
    ReadP.val_main_call5_v0_apply, ReadP.val_main_call5_cst_apply, elo, ehi, aff4, aff4]
  simp only [Ideal.ofBits_def, Cert.Spec.ofBits_one_f32, Ideal.ofBits_zero_f32]
  unfold Cert.Spec.layer
  exact gate_eq _ _ _

/-! ## The two sides, the join, the whole -/

/-- The left side: projection, then the two highway layers. -/
theorem side_left (x0 : (⟨S32x512x512, .f32⟩ : BufTy).Contents (Elt Ideal)) (x1 x2 : (⟨S2x512, .f32⟩ : BufTy).Contents (Elt Ideal)) (x3 : (⟨S512x1536, .f32⟩ : BufTy).Contents (Elt Ideal)) (x4 : (⟨S512, .f32⟩ : BufTy).Contents (Elt Ideal)) (x7 : (⟨S2x1024x512, .f32⟩ : BufTy).Contents (Elt Ideal)) (x8 : (⟨S2x1024, .f32⟩ : BufTy).Contents (Elt Ideal))
    (b : Fin 32) (s h : Fin 512) :
    ReadP.val_main_v81 (F := Ideal) x0 x1 x2 x3 x4 x7 x8 (ix3 b s h)
      = Cert.Spec.side (Cert.Spec.fn3 (ReadP.val_main_v2 (F := Ideal) x0 x1 x2) b) (Cert.Spec.fn2 x3) (Cert.Spec.fn1 x4) 0 (by decide)
          (Cert.Spec.fn3 x7) (Cert.Spec.fn2 x8) s h := by
  have e0 : (fun s' h' => ReadP.val_main_v32 (F := Ideal) x0 x1 x2 x3 x4 (ix3 b s' h'))
      = Cert.Spec.proj (Cert.Spec.fn3 (ReadP.val_main_v2 (F := Ideal) x0 x1 x2) b) (Cert.Spec.fn2 x3) (Cert.Spec.fn1 x4) 0 (by decide) := by
    funext s' h'; exact proj_left x0 x1 x2 x3 x4 b s' h'
  have e1 : (fun s' h' => ReadP.val_main_v59 (F := Ideal) x0 x1 x2 x3 x4 x7 x8 (ix3 b s' h'))
      = Cert.Spec.layer (Cert.Spec.fn3 x7 0) (Cert.Spec.fn2 x8 0)
          (Cert.Spec.proj (Cert.Spec.fn3 (ReadP.val_main_v2 (F := Ideal) x0 x1 x2) b) (Cert.Spec.fn2 x3) (Cert.Spec.fn1 x4) 0 (by decide)) := by
    funext s' h'; rw [layer1, e0]
  rw [layer2, e1]
  rfl

/-- The right side. -/
theorem side_right (x0 : (⟨S32x512x512, .f32⟩ : BufTy).Contents (Elt Ideal)) (x1 x2 : (⟨S2x512, .f32⟩ : BufTy).Contents (Elt Ideal)) (x5 : (⟨S512x1536, .f32⟩ : BufTy).Contents (Elt Ideal)) (x6 : (⟨S512, .f32⟩ : BufTy).Contents (Elt Ideal)) (x9 : (⟨S2x1024x512, .f32⟩ : BufTy).Contents (Elt Ideal)) (x10 : (⟨S2x1024, .f32⟩ : BufTy).Contents (Elt Ideal))
    (b : Fin 32) (s h : Fin 512) :
    ReadP.val_main_v125 (F := Ideal) x0 x1 x2 x5 x6 x9 x10 (ix3 b s h)
      = Cert.Spec.side (Cert.Spec.fn3 (ReadP.val_main_v2 (F := Ideal) x0 x1 x2) b) (Cert.Spec.fn2 x5) (Cert.Spec.fn1 x6) 2 (by decide)
          (Cert.Spec.fn3 x9) (Cert.Spec.fn2 x10) s h := by
  have e0 : (fun s' h' => ReadP.val_main_v37 (F := Ideal) x0 x1 x2 x5 x6 (ix3 b s' h'))
      = Cert.Spec.proj (Cert.Spec.fn3 (ReadP.val_main_v2 (F := Ideal) x0 x1 x2) b) (Cert.Spec.fn2 x5) (Cert.Spec.fn1 x6) 2 (by decide) := by
    funext s' h'; exact proj_right x0 x1 x2 x5 x6 b s' h'
  have e1 : (fun s' h' => ReadP.val_main_v103 (F := Ideal) x0 x1 x2 x5 x6 x9 x10 (ix3 b s' h'))
      = Cert.Spec.layer (Cert.Spec.fn3 x9 0) (Cert.Spec.fn2 x10 0)
          (Cert.Spec.proj (Cert.Spec.fn3 (ReadP.val_main_v2 (F := Ideal) x0 x1 x2) b) (Cert.Spec.fn2 x5) (Cert.Spec.fn1 x6) 2 (by decide)) := by
    funext s' h'; rw [layer3, e0]
  rw [layer4, e1]
  rfl

/-- The joined result at coordinates `(b, s, e)`. -/
theorem out_at (x0 : (⟨S32x512x512, .f32⟩ : BufTy).Contents (Elt Ideal)) (x1 x2 : (⟨S2x512, .f32⟩ : BufTy).Contents (Elt Ideal))
    (x3 : (⟨S512x1536, .f32⟩ : BufTy).Contents (Elt Ideal)) (x4 : (⟨S512, .f32⟩ : BufTy).Contents (Elt Ideal)) (x5 : (⟨S512x1536, .f32⟩ : BufTy).Contents (Elt Ideal)) (x6 : (⟨S512, .f32⟩ : BufTy).Contents (Elt Ideal))
    (x7 : (⟨S2x1024x512, .f32⟩ : BufTy).Contents (Elt Ideal)) (x8 : (⟨S2x1024, .f32⟩ : BufTy).Contents (Elt Ideal)) (x9 : (⟨S2x1024x512, .f32⟩ : BufTy).Contents (Elt Ideal)) (x10 : (⟨S2x1024, .f32⟩ : BufTy).Contents (Elt Ideal))
    (b : Fin 32) (s : Fin 512) (e : Fin 1024) :
    ReadP.val_main_v126 (F := Ideal) x0 x1 x2 x3 x4 x5 x6 x7 x8 x9 x10 (ix3 b s e)
      = Cert.Spec.whole (Cert.Spec.fn3 (ReadP.val_main_v2 (F := Ideal) x0 x1 x2)) (Cert.Spec.fn2 x3) (Cert.Spec.fn1 x4) (Cert.Spec.fn2 x5) (Cert.Spec.fn1 x6) (Cert.Spec.fn3 x7) (Cert.Spec.fn2 x8) (Cert.Spec.fn3 x9) (Cert.Spec.fn2 x10) b s e := by
  unfold ReadP.val_main_v126 Cert.Spec.whole Cert.Spec.tile
  by_cases he : e.val < 512
  · rw [join_left _ _ b s e he, side_left, dif_pos he]
  · rw [join_right _ _ b s e he, side_right, dif_neg he]

/-- The reference's result before the leading unit axis is the specification. -/
theorem out_eq (x0 : (⟨S32x512x512, .f32⟩ : BufTy).Contents (Elt Ideal)) (x1 x2 : (⟨S2x512, .f32⟩ : BufTy).Contents (Elt Ideal))
    (x3 : (⟨S512x1536, .f32⟩ : BufTy).Contents (Elt Ideal)) (x4 : (⟨S512, .f32⟩ : BufTy).Contents (Elt Ideal)) (x5 : (⟨S512x1536, .f32⟩ : BufTy).Contents (Elt Ideal)) (x6 : (⟨S512, .f32⟩ : BufTy).Contents (Elt Ideal))
    (x7 : (⟨S2x1024x512, .f32⟩ : BufTy).Contents (Elt Ideal)) (x8 : (⟨S2x1024, .f32⟩ : BufTy).Contents (Elt Ideal)) (x9 : (⟨S2x1024x512, .f32⟩ : BufTy).Contents (Elt Ideal)) (x10 : (⟨S2x1024, .f32⟩ : BufTy).Contents (Elt Ideal))
    (i : S32x512x1024.Idx) :
    ReadP.val_main_v126 (F := Ideal) x0 x1 x2 x3 x4 x5 x6 x7 x8 x9 x10 i
      = Cert.Spec.whole (Cert.Spec.fn3 (ReadP.val_main_v2 (F := Ideal) x0 x1 x2)) (Cert.Spec.fn2 x3) (Cert.Spec.fn1 x4) (Cert.Spec.fn2 x5) (Cert.Spec.fn1 x6) (Cert.Spec.fn3 x7) (Cert.Spec.fn2 x8) (Cert.Spec.fn3 x9) (Cert.Spec.fn2 x10) ⟨(i 0).val, (i 0).isLt⟩ ⟨(i 1).val, (i 1).isLt⟩ ⟨(i 2).val, (i 2).isLt⟩ := by
  have hi : i = ix3 (⟨(i 0).val, (i 0).isLt⟩ : Fin 32) (⟨(i 1).val, (i 1).isLt⟩ : Fin 512) (⟨(i 2).val, (i 2).isLt⟩ : Fin 1024) :=
    funext fun a => match a with | ⟨0, _⟩ => rfl | ⟨1, _⟩ => rfl | ⟨2, _⟩ => rfl
  exact (congrArg (ReadP.val_main_v126 (F := Ideal) x0 x1 x2 x3 x4 x5 x6 x7 x8 x9 x10) hi).trans
    (out_at x0 x1 x2 x3 x4 x5 x6 x7 x8 x9 x10 _ _ _)

/-- The reference's result is the specification. -/
theorem all_eq (x0 : (⟨S32x512x512, .f32⟩ : BufTy).Contents (Elt Ideal)) (x1 x2 : (⟨S2x512, .f32⟩ : BufTy).Contents (Elt Ideal))
    (x3 : (⟨S512x1536, .f32⟩ : BufTy).Contents (Elt Ideal)) (x4 : (⟨S512, .f32⟩ : BufTy).Contents (Elt Ideal)) (x5 : (⟨S512x1536, .f32⟩ : BufTy).Contents (Elt Ideal)) (x6 : (⟨S512, .f32⟩ : BufTy).Contents (Elt Ideal))
    (x7 : (⟨S2x1024x512, .f32⟩ : BufTy).Contents (Elt Ideal)) (x8 : (⟨S2x1024, .f32⟩ : BufTy).Contents (Elt Ideal)) (x9 : (⟨S2x1024x512, .f32⟩ : BufTy).Contents (Elt Ideal)) (x10 : (⟨S2x1024, .f32⟩ : BufTy).Contents (Elt Ideal))
    (i : S1x32x512x1024.Idx) :
    ReadP.val_main_v127 (F := Ideal) x0 x1 x2 x3 x4 x5 x6 x7 x8 x9 x10 i
      = Cert.Spec.whole (Cert.Spec.fn3 (ReadP.val_main_v2 (F := Ideal) x0 x1 x2)) (Cert.Spec.fn2 x3) (Cert.Spec.fn1 x4) (Cert.Spec.fn2 x5) (Cert.Spec.fn1 x6) (Cert.Spec.fn3 x7) (Cert.Spec.fn2 x8) (Cert.Spec.fn3 x9) (Cert.Spec.fn2 x10) ⟨(i 1).val, (i 1).isLt⟩ ⟨(i 2).val, (i 2).isLt⟩ ⟨(i 3).val, (i 3).isLt⟩ := by
  rw [ReadP.val_main_v127_apply, out_eq]

end Cert.ReferenceIdeal.RefValue

end
-- ==== Proof.lean ====
/-
  Both programs compute, for each of 32 batch elements, 512 sequence positions and 1024 features, the same function
  of the eleven argument arrays over the extended reals: a padded sequence (two learnt rows before and after the 512
  input rows) is read through a left window of three consecutive rows and a right window two rows lower; each
  window, flattened, goes through a dense layer and a rectifier and then through two highway layers
  (gate · y + (1 − gate) · rectified candidate, the gate the logistic of half of y·Hᵀ + bias); the two 512-wide results
  are laid side by side.  The kernel does this one batch element per grid point, with the dense layer as three
  512-wide matrix products summed and the weights transposed on the host beforehand; the reference does it for all
  batch elements at once, gathering the window rows and contracting over all 1536 features in one product.  The two
  agree because a finite sum of extended reals may be split in three and regrouped, the logistic is one function
  however it is spelt, and a change of float format is the identity on the extended reals; no input need be finite.
  The word-level program's frame is the same run read at the word-level instance.
-/
import proofs.«169205_j71021579206699_1_alg».proof.Defs
import proofs.«169205_j71021579206699_1_alg».proof.Proof.Gen.Kernel
import proofs.«169205_j71021579206699_1_alg».proof.Proof.Gen.KernelIdeal
import proofs.«169205_j71021579206699_1_alg».proof.Proof.Gen.ReferenceIdeal
import proofs.«169205_j71021579206699_1_alg».proof.Proof.Gen.Pre_finite_inputs
import proofs.«169205_j71021579206699_1_alg».proof.Proof.RefRunHand
import proofs.«169205_j71021579206699_1_alg».proof.Proof.BBody
import proofs.«169205_j71021579206699_1_alg».proof.Proof.KBody
import proofs.«169205_j71021579206699_1_alg».proof.Proof.KValue
import proofs.«169205_j71021579206699_1_alg».proof.Proof.RefValue
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Region.frame m ρ

/-- So does the idealized kernel. -/
theorem frame_kernelIdeal : Cert.frame_KernelIdeal := fun m ρ _ => Cert.KernelIdeal.Region.frame m ρ

/-- The reference is host operations only: its run, stage by stage, with the results dropped. -/
theorem frame_referenceIdeal : Cert.frame_ReferenceIdeal := fun m ρ _ =>
  (θ_run Cert.ReferenceIdeal.defs _ _).mono (fun _ h c => (h c).2.2) (Cert.ReferenceIdeal.RunHand.run_stages (F := Ideal) m ρ)

/-- The idealization rewrote nothing. -/
theorem preserves : Cert.preserves_Kernel_KernelIdeal := trivial

/-- From memories that agree on the arguments both runs end with each result at the specification of those arguments. -/
theorem algebraic : Cert.algebraic_KernelIdeal_ReferenceIdeal := by
  intro m ρ m' ρ' _ hagree
  refine ⟨fun c => Cert.KernelIdeal.RegionValue.allArr m c, fun c => Cert.KernelIdeal.RegionValue.outArr m c,
    Cert.KernelIdeal.RegionValue.run_value m ρ, ?_⟩
  refine (θ_run Cert.ReferenceIdeal.defs _ _).mono (fun _ h c => ⟨(h c).1.trans ?_, (h c).2.1.trans ?_, (h c).2.2⟩)
    (Cert.ReferenceIdeal.RunHand.run_stages (F := Ideal) m' ρ')
  · obtain ⟨a0, a1, a2, a3, a4, a5, a6, a7, a8, a9, a10⟩ := hagree c
    rw [a0, a1, a2, a3, a4, a5, a6, a7, a8, a9, a10]
    funext i
    exact Cert.ReferenceIdeal.RefValue.all_eq _ _ _ _ _ _ _ _ _ _ _ i
  · obtain ⟨a0, a1, a2, a3, a4, a5, a6, a7, a8, a9, a10⟩ := hagree c
    rw [a0, a1, a2, a3, a4, a5, a6, a7, a8, a9, a10]
    funext i
    exact Cert.ReferenceIdeal.RefValue.out_eq _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
